-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S_ : Shape := ⟨0, ![]⟩
abbrev S1x1250000 : Shape := ⟨2, ![1, 1250000]⟩
abbrev S1250000 : Shape := ⟨1, ![1250000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  reducesTo_S1250000_S_d0 : S1250000.ReducesTo [0] S_

variable [Facts]

def fn_part2 {F : FTy → Type} [FloatOps F] (main_arg1 : IVec S2x1250000 32) (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : IVec S1x1250000 32 := (extractStridedSlice S1x1250000 ![0, 0] · slices_S2x1250000_S1x1250000_0_0) main_arg1
  let main_v40 : IVec S1250000 32 := shapeCast S1250000 main_v39 shapeCasts_S1x1250000_S1250000
  let main_c_14 : IVec S_ 32 := constantI S_ 32 4294867296#32
  let main_v41 : IVec S1250000 32 := broadcastInDim S1250000 ![] bcast_S_S1250000 main_c_14
  let main_v42 : IVec S1250000 1 := cmpi .sge main_v40 main_v41
  let main_c_15 : IVec S_ 1 := constantI S_ 1 1#1
  let main_v43 : IVec S_ 1 := (fun x v => Host.reduce IntOp.andi x v reducesTo_S1250000_S_d0 h_S_) main_v42 main_c_15
  let main_v44 : IVec S_ 1 := andi main_v38 main_v43
  let main_v45 : IVec S1x1250000 32 := (extractStridedSlice S1x1250000 ![0, 0] · slices_S2x1250000_S1x1250000_0_0) main_arg1
  let main_v46 : IVec S1250000 32 := shapeCast S1250000 main_v45 shapeCasts_S1x1250000_S1250000
  let main_c_16 : IVec S_ 32 := constantI S_ 32 100000#32
  let main_v47 : IVec S1250000 32 := broadcastInDim S1250000 ![] bcast_S_S1250000 main_c_16
  let main_v48 : IVec S1250000 1 := cmpi .slt main_v46 main_v47
  let main_c_17 : IVec S_ 1 := constantI S_ 1 1#1
  let main_v49 : IVec S_ 1 := (fun x v => Host.reduce IntOp.andi x v reducesTo_S1250000_S_d0 h_S_) main_v48 main_c_17
  let main_v50 : IVec S_ 1 := andi main_v44 main_v49
  main_v50

def fn_part1 {F : FTy → Type} [FloatOps F] (main_arg1 : IVec S2x1250000 32) (main_arg6 : FVec F S3x64 .f32) (main_arg7 : FVec F S3x64 .f32) (main_arg8 : FVec F S64x10 .f32) (main_arg9 : FVec F S10 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x10 .f32 := Host.absf main_arg8
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg1 main_arg9 main_v33

def fn {F : FTy → Type} [FloatOps F] (main_arg0 : FVec F S100000x64 .f32) (main_arg1 : IVec S2x1250000 32) (main_arg2 : IVec S100000 32) (main_arg3 : FVec F S3x64x64 .f32) (main_arg4 : FVec F S3x64 .f32) (main_arg5 : FVec F S3x64x64 .f32) (main_arg6 : FVec F S3x64 .f32) (main_arg7 : FVec F S3x64 .f32) (main_arg8 : FVec F S64x10 .f32) (main_arg9 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg6 main_arg7 main_arg8 main_arg9 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1 : Shape := ⟨1, ![1]⟩
abbrev S1x1 : Shape := ⟨2, ![1, 1]⟩
abbrev S1250000x64 : Shape := ⟨2, ![1250000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S128 : Shape := ⟨1, ![128]⟩
abbrev S100000x1 : Shape := ⟨2, ![100000, 1]⟩
abbrev S128x64 : Shape := ⟨2, ![128, 64]⟩
abbrev S128x1 : Shape := ⟨2, ![128, 1]⟩
abbrev S128x10 : Shape := ⟨2, ![128, 10]⟩
abbrev S1x10 : Shape := ⟨2, ![1, 10]⟩

abbrev nBuf : Space → Nat
  | .hbm => 250
  | .vmem => 51
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S64x10, .f32⟩
  | 9 => ⟨S10, .f32⟩
  | 10 => ⟨S1x1250000, .i32⟩
  | 11 => ⟨S1250000, .i32⟩
  | 12 => ⟨S1x1250000, .i32⟩
  | 13 => ⟨S1250000, .i32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1, .i32⟩
  | 23 => ⟨S_, .i32⟩
  | 24 => ⟨S1250000x1, .i32⟩
  | 25 => ⟨S1250000x1, .i1⟩
  | 26 => ⟨S1x1, .i32⟩
  | 27 => ⟨S1250000x1, .i32⟩
  | 28 => ⟨S1250000x1, .i1⟩
  | 29 => ⟨S1250000x1, .i1⟩
  | 30 => ⟨S_, .i1⟩
  | 31 => ⟨S1250000, .i1⟩
  | 32 => ⟨S1250000x64, .f32⟩
  | 33 => ⟨S1250000x64, .i1⟩
  | 34 => ⟨S_, .f32⟩
  | 35 => ⟨S1250000x64, .f32⟩
  | 36 => ⟨S1250000x64, .f32⟩
  | 37 => ⟨S_, .f32⟩
  | 38 => ⟨S100000x64, .f32⟩
  | 39 => ⟨S1250000x1, .i32⟩
  | 40 => ⟨S100000x64, .f32⟩
  | 41 => ⟨S1x64x64, .f32⟩
  | 42 => ⟨S64x64, .f32⟩
  | 43 => ⟨S1x64, .f32⟩
  | 44 => ⟨S64, .f32⟩
  | 45 => ⟨S1x64x64, .f32⟩
  | 46 => ⟨S64x64, .f32⟩
  | 47 => ⟨S1x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S100000x64, .f32⟩
  | 62 => ⟨S100000x64, .f32⟩
  | 63 => ⟨S100000x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S1x64, .f32⟩
  | 83 => ⟨S1x64, .f32⟩
  | 84 => ⟨S1x64, .f32⟩
  | 85 => ⟨S100000x64, .f32⟩
  | 86 => ⟨S_, .i32⟩
  | 87 => ⟨S1250000, .i32⟩
  | 88 => ⟨S1250000, .i1⟩
  | 89 => ⟨S_, .i32⟩
  | 90 => ⟨S1250000, .i32⟩
  | 91 => ⟨S1250000, .i32⟩
  | 92 => ⟨S1250000, .i32⟩
  | 93 => ⟨S1250000x1, .i32⟩
  | 94 => ⟨S1, .i32⟩
  | 95 => ⟨S_, .i32⟩
  | 96 => ⟨S1250000x1, .i32⟩
  | 97 => ⟨S1250000x1, .i1⟩
  | 98 => ⟨S1x1, .i32⟩
  | 99 => ⟨S1250000x1, .i32⟩
  | 100 => ⟨S1250000x1, .i1⟩
  | 101 => ⟨S1250000x1, .i1⟩
  | 102 => ⟨S_, .i1⟩
  | 103 => ⟨S1250000, .i1⟩
  | 104 => ⟨S1250000x64, .f32⟩
  | 105 => ⟨S1250000x64, .i1⟩
  | 106 => ⟨S_, .f32⟩
  | 107 => ⟨S1250000x64, .f32⟩
  | 108 => ⟨S1250000x64, .f32⟩
  | 109 => ⟨S_, .f32⟩
  | 110 => ⟨S100000x64, .f32⟩
  | 111 => ⟨S1250000x1, .i32⟩
  | 112 => ⟨S100000x64, .f32⟩
  | 113 => ⟨S1x64x64, .f32⟩
  | 114 => ⟨S64x64, .f32⟩
  | 115 => ⟨S1x64, .f32⟩
  | 116 => ⟨S64, .f32⟩
  | 117 => ⟨S1x64x64, .f32⟩
  | 118 => ⟨S64x64, .f32⟩
  | 119 => ⟨S1x64, .f32⟩
  | 120 => ⟨S100000x64, .f32⟩
  | 121 => ⟨S_, .f32⟩
  | 122 => ⟨S64, .f32⟩
  | 123 => ⟨S_, .f32⟩
  | 124 => ⟨S64, .f32⟩
  | 125 => ⟨S64, .f32⟩
  | 126 => ⟨S_, .i32⟩
  | 127 => ⟨S_, .f32⟩
  | _ => ⟨S100000x64, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S100000x64, .f32⟩
  | 6 => ⟨S100000x64, .f32⟩
  | 7 => ⟨S100000x64, .f32⟩
  | 8 => ⟨S_, .f32⟩
  | 9 => ⟨S_, .f32⟩
  | 10 => ⟨S_, .f32⟩
  | 11 => ⟨S_, .f32⟩
  | 12 => ⟨S64, .f32⟩
  | 13 => ⟨S64, .f32⟩
  | 14 => ⟨S64, .f32⟩
  | 15 => ⟨S_, .f32⟩
  | 16 => ⟨S_, .i1⟩
  | 17 => ⟨S_, .f32⟩
  | 18 => ⟨S_, .f32⟩
  | 19 => ⟨S64, .f32⟩
  | 20 => ⟨S64, .f32⟩
  | 21 => ⟨S1x64, .f32⟩
  | 22 => ⟨S64, .f32⟩
  | 23 => ⟨S1x64, .f32⟩
  | 24 => ⟨S64, .f32⟩
  | 25 => ⟨S1x64, .f32⟩
  | 26 => ⟨S1x64, .f32⟩
  | 27 => ⟨S1x64, .f32⟩
  | 28 => ⟨S1x64, .f32⟩
  | 29 => ⟨S100000x64, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1, .i32⟩
  | 39 => ⟨S_, .i32⟩
  | 40 => ⟨S1250000x1, .i32⟩
  | 41 => ⟨S1250000x1, .i1⟩
  | 42 => ⟨S1x1, .i32⟩
  | 43 => ⟨S1250000x1, .i32⟩
  | 44 => ⟨S1250000x1, .i1⟩
  | 45 => ⟨S1250000x1, .i1⟩
  | 46 => ⟨S_, .i1⟩
  | 47 => ⟨S1250000, .i1⟩
  | 48 => ⟨S1250000x64, .f32⟩
  | 49 => ⟨S1250000x64, .i1⟩
  | 50 => ⟨S_, .f32⟩
  | 51 => ⟨S1250000x64, .f32⟩
  | 52 => ⟨S1250000x64, .f32⟩
  | 53 => ⟨S_, .f32⟩
  | 54 => ⟨S100000x64, .f32⟩
  | 55 => ⟨S1250000x1, .i32⟩
  | 56 => ⟨S100000x64, .f32⟩
  | 57 => ⟨S1x64x64, .f32⟩
  | 58 => ⟨S64x64, .f32⟩
  | 59 => ⟨S1x64, .f32⟩
  | 60 => ⟨S64, .f32⟩
  | 61 => ⟨S1x64x64, .f32⟩
  | 62 => ⟨S64x64, .f32⟩
  | 63 => ⟨S1x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S_, .i32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S_, .f32⟩
  | 82 => ⟨S_, .f32⟩
  | 83 => ⟨S_, .f32⟩
  | 84 => ⟨S64, .f32⟩
  | 85 => ⟨S64, .f32⟩
  | 86 => ⟨S64, .f32⟩
  | 87 => ⟨S_, .f32⟩
  | 88 => ⟨S_, .i1⟩
  | 89 => ⟨S_, .f32⟩
  | 90 => ⟨S_, .f32⟩
  | 91 => ⟨S64, .f32⟩
  | 92 => ⟨S64, .f32⟩
  | 93 => ⟨S1x64, .f32⟩
  | 94 => ⟨S64, .f32⟩
  | 95 => ⟨S1x64, .f32⟩
  | 96 => ⟨S64, .f32⟩
  | 97 => ⟨S1x64, .f32⟩
  | 98 => ⟨S1x64, .f32⟩
  | 99 => ⟨S1x64, .f32⟩
  | 100 => ⟨S1x64, .f32⟩
  | 101 => ⟨S100000x64, .f32⟩
  | 102 => ⟨S_, .f32⟩
  | 103 => ⟨S100000, .f32⟩
  | 104 => ⟨S_, .f32⟩
  | 105 => ⟨S128, .f32⟩
  | 106 => ⟨S100000x1, .i32⟩
  | 107 => ⟨S128, .f32⟩
  | 108 => ⟨S_, .f32⟩
  | 109 => ⟨S128x64, .f32⟩
  | 110 => ⟨S100000x1, .i32⟩
  | 111 => ⟨S128x64, .f32⟩
  | 112 => ⟨S_, .f32⟩
  | 113 => ⟨S128, .f32⟩
  | 114 => ⟨S128, .f32⟩
  | 115 => ⟨S128x1, .f32⟩
  | 116 => ⟨S128x64, .f32⟩
  | 117 => ⟨S128x64, .f32⟩
  | 118 => ⟨S128x10, .f32⟩
  | 119 => ⟨S1x10, .f32⟩
  | 120 => ⟨S128x10, .f32⟩
  | 121 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_0 : Ref sig .tc := ⟨.hbm, 49, rfl⟩
abbrev main_v16 : Ref sig .tc := ⟨.hbm, 50, rfl⟩
abbrev main_cst_1 : Ref sig .tc := ⟨.hbm, 51, rfl⟩
abbrev main_v17 : Ref sig .tc := ⟨.hbm, 52, rfl⟩
abbrev main_v18 : Ref sig .tc := ⟨.hbm, 53, rfl⟩
abbrev main_c : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v29 : Ref sig .tc := ⟨.hbm, 108, rfl⟩
abbrev main_cst_2 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_cst_3 : Ref sig .tc := ⟨.hbm, 121, rfl⟩
abbrev main_v41 : Ref sig .tc := ⟨.hbm, 122, rfl⟩
abbrev main_cst_4 : Ref sig .tc := ⟨.hbm, 123, rfl⟩
abbrev main_v42 : Ref sig .tc := ⟨.hbm, 124, rfl⟩
abbrev main_v43 : Ref sig .tc := ⟨.hbm, 125, rfl⟩
abbrev main_c_5 : Ref sig .tc := ⟨.hbm, 126, rfl⟩
abbrev main_call3_cst : Ref sig .tc := ⟨.hbm, 127, rfl⟩
abbrev main_call3_v0 : Ref sig .tc := ⟨.hbm, 128, rfl⟩
abbrev main_call3_v1 : Ref sig .tc := ⟨.hbm, 129, rfl⟩
abbrev main_call3_cst_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_v7 : Ref sig .tc := ⟨.hbm, 136, rfl⟩
abbrev main_call3_cst_1 : Ref sig .tc := ⟨.hbm, 137, rfl⟩
abbrev main_call3_v8 : Ref sig .tc := ⟨.hbm, 138, rfl⟩
abbrev main_call3_cst_2 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_cst_3 : Ref sig .tc := ⟨.hbm, 143, rfl⟩
abbrev main_call3_v12 : Ref sig .tc := ⟨.hbm, 144, rfl⟩
abbrev main_call3_cst_4 : Ref sig .tc := ⟨.hbm, 145, rfl⟩
abbrev main_call3_call0_v0 : Ref sig .tc := ⟨.hbm, 146, rfl⟩
abbrev main_call3_call0_v1 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_call4_c : Ref sig .tc := ⟨.hbm, 158, rfl⟩
abbrev main_call4_v0 : Ref sig .tc := ⟨.hbm, 159, rfl⟩
abbrev main_call4_v1 : Ref sig .tc := ⟨.hbm, 160, rfl⟩
abbrev main_call4_c_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_c_1 : Ref sig .tc := ⟨.hbm, 166, rfl⟩
abbrev main_call4_c_2 : Ref sig .tc := ⟨.hbm, 167, rfl⟩
abbrev main_call4_v6 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_c_3 : Ref sig .tc := ⟨.hbm, 174, rfl⟩
abbrev main_call4_v12 : Ref sig .tc := ⟨.hbm, 175, rfl⟩
abbrev main_call4_v13 : Ref sig .tc := ⟨.hbm, 176, rfl⟩
abbrev main_call4_v14 : Ref sig .tc := ⟨.hbm, 177, rfl⟩
abbrev main_call4_cst : Ref sig .tc := ⟨.hbm, 178, rfl⟩
abbrev main_call4_v15 : Ref sig .tc := ⟨.hbm, 179, rfl⟩
abbrev main_v54 : Ref sig .tc := ⟨.hbm, 180, rfl⟩
abbrev main_cst_6 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_cst_7 : Ref sig .tc := ⟨.hbm, 193, rfl⟩
abbrev main_v66 : Ref sig .tc := ⟨.hbm, 194, rfl⟩
abbrev main_cst_8 : Ref sig .tc := ⟨.hbm, 195, rfl⟩
abbrev main_v67 : Ref sig .tc := ⟨.hbm, 196, rfl⟩
abbrev main_v68 : Ref sig .tc := ⟨.hbm, 197, rfl⟩
abbrev main_c_9 : Ref sig .tc := ⟨.hbm, 198, rfl⟩
abbrev main_call5_cst : Ref sig .tc := ⟨.hbm, 199, rfl⟩
abbrev main_call5_v0 : Ref sig .tc := ⟨.hbm, 200, rfl⟩
abbrev main_call5_v1 : Ref sig .tc := ⟨.hbm, 201, rfl⟩
abbrev main_call5_cst_0 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_call5_v5 : Ref sig .tc := ⟨.hbm, 206, rfl⟩
abbrev main_call5_v6 : Ref sig .tc := ⟨.hbm, 207, rfl⟩
abbrev main_call5_v7 : Ref sig .tc := ⟨.hbm, 208, rfl⟩
abbrev main_call5_cst_1 : Ref sig .tc := ⟨.hbm, 209, rfl⟩
abbrev main_call5_v8 : Ref sig .tc := ⟨.hbm, 210, rfl⟩
abbrev main_call5_cst_2 : Ref sig .tc := ⟨.hbm, 211, rfl⟩
abbrev main_call5_v9 : Ref sig .tc := ⟨.hbm, 212, rfl⟩
abbrev main_call5_v10 : Ref sig .tc := ⟨.hbm, 213, rfl⟩
abbrev main_call5_v11 : Ref sig .tc := ⟨.hbm, 214, rfl⟩
abbrev main_call5_cst_3 : Ref sig .tc := ⟨.hbm, 215, rfl⟩
abbrev main_call5_v12 : Ref sig .tc := ⟨.hbm, 216, rfl⟩
abbrev main_call5_cst_4 : Ref sig .tc := ⟨.hbm, 217, rfl⟩
abbrev main_call5_call0_v0 : Ref sig .tc := ⟨.hbm, 218, rfl⟩
abbrev main_call5_call0_v1 : Ref sig .tc := ⟨.hbm, 219, rfl⟩
abbrev main_v69 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_v73 : Ref sig .tc := ⟨.hbm, 224, rfl⟩
abbrev main_v74 : Ref sig .tc := ⟨.hbm, 225, rfl⟩
abbrev main_v75 : Ref sig .tc := ⟨.hbm, 226, rfl⟩
abbrev main_v76 : Ref sig .tc := ⟨.hbm, 227, rfl⟩
abbrev main_v77 : Ref sig .tc := ⟨.hbm, 228, rfl⟩
abbrev main_v78 : Ref sig .tc := ⟨.hbm, 229, rfl⟩
abbrev main_cst_10 : Ref sig .tc := ⟨.hbm, 230, rfl⟩
abbrev main_v79 : Ref sig .tc := ⟨.hbm, 231, rfl⟩
abbrev main_cst_11 : Ref sig .tc := ⟨.hbm, 232, rfl⟩
abbrev main_v80 : Ref sig .tc := ⟨.hbm, 233, rfl⟩
abbrev main_v81 : Ref sig .tc := ⟨.hbm, 234, rfl⟩
abbrev main_v82 : Ref sig .tc := ⟨.hbm, 235, rfl⟩
abbrev main_cst_12 : Ref sig .tc := ⟨.hbm, 236, rfl⟩
abbrev main_v83 : Ref sig .tc := ⟨.hbm, 237, rfl⟩
abbrev main_v84 : Ref sig .tc := ⟨.hbm, 238, rfl⟩
abbrev main_v85 : Ref sig .tc := ⟨.hbm, 239, rfl⟩
abbrev main_cst_13 : Ref sig .tc := ⟨.hbm, 240, rfl⟩
abbrev main_v86 : Ref sig .tc := ⟨.hbm, 241, rfl⟩
abbrev main_v87 : Ref sig .tc := ⟨.hbm, 242, rfl⟩
abbrev main_v88 : Ref sig .tc := ⟨.hbm, 243, rfl⟩
abbrev main_v89 : Ref sig .tc := ⟨.hbm, 244, rfl⟩
abbrev main_v90 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_v94 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v65) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128 : Shape := ⟨1, ![128]⟩
abbrev S100000x1 : Shape := ⟨2, ![100000, 1]⟩
abbrev S128x64 : Shape := ⟨2, ![128, 64]⟩
abbrev S128x1 : Shape := ⟨2, ![128, 1]⟩
abbrev S128x10 : Shape := ⟨2, ![128, 10]⟩
abbrev S1x10 : Shape := ⟨2, ![1, 10]⟩

abbrev nBuf : Space → Nat
  | .hbm => 262
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S64x10, .f32⟩
  | 9 => ⟨S10, .f32⟩
  | 10 => ⟨S1x1250000, .i32⟩
  | 11 => ⟨S1250000, .i32⟩
  | 12 => ⟨S1x1250000, .i32⟩
  | 13 => ⟨S1250000, .i32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1250000x64, .f32⟩
  | 23 => ⟨S_, .f32⟩
  | 24 => ⟨S100000x64, .f32⟩
  | 25 => ⟨S1250000x1, .i32⟩
  | 26 => ⟨S100000x64, .f32⟩
  | 27 => ⟨S1x64x64, .f32⟩
  | 28 => ⟨S64x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S100000x64, .f32⟩
  | 52 => ⟨S100000x64, .f32⟩
  | 53 => ⟨S100000x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S_, .i32⟩
  | 91 => ⟨S1250000, .i32⟩
  | 92 => ⟨S1250000, .i1⟩
  | 93 => ⟨S_, .i32⟩
  | 94 => ⟨S1250000, .i32⟩
  | 95 => ⟨S1250000, .i32⟩
  | 96 => ⟨S1250000, .i32⟩
  | 97 => ⟨S1250000x1, .i32⟩
  | 98 => ⟨S1250000x64, .f32⟩
  | 99 => ⟨S_, .f32⟩
  | 100 => ⟨S100000x64, .f32⟩
  | 101 => ⟨S1250000x1, .i32⟩
  | 102 => ⟨S100000x64, .f32⟩
  | 103 => ⟨S1x64x64, .f32⟩
  | 104 => ⟨S64x64, .f32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S100000x64, .f32⟩
  | 115 => ⟨S_, .f32⟩
  | 116 => ⟨S64, .f32⟩
  | 117 => ⟨S_, .f32⟩
  | 118 => ⟨S64, .f32⟩
  | 119 => ⟨S64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S_, .f32⟩
  | 4 => ⟨S_, .f32⟩
  | 5 => ⟨S_, .f32⟩
  | 6 => ⟨S64, .f32⟩
  | 7 => ⟨S64, .f32⟩
  | 8 => ⟨S64, .f32⟩
  | 9 => ⟨S_, .f32⟩
  | 10 => ⟨S_, .i1⟩
  | 11 => ⟨S_, .f32⟩
  | 12 => ⟨S_, .f32⟩
  | 13 => ⟨S64, .f32⟩
  | 14 => ⟨S64, .f32⟩
  | 15 => ⟨S1x64, .f32⟩
  | 16 => ⟨S100000x64, .f32⟩
  | 17 => ⟨S100000x64, .f32⟩
  | 18 => ⟨S_, .f32⟩
  | 19 => ⟨S64, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S_, .i32⟩
  | 39 => ⟨S1250000, .i32⟩
  | 40 => ⟨S1250000, .i1⟩
  | 41 => ⟨S_, .i32⟩
  | 42 => ⟨S1250000, .i32⟩
  | 43 => ⟨S1250000, .i32⟩
  | 44 => ⟨S1250000, .i32⟩
  | 45 => ⟨S1250000x1, .i32⟩
  | 46 => ⟨S1250000x64, .f32⟩
  | 47 => ⟨S_, .f32⟩
  | 48 => ⟨S100000x64, .f32⟩
  | 49 => ⟨S1250000x1, .i32⟩
  | 50 => ⟨S100000x64, .f32⟩
  | 51 => ⟨S1x64x64, .f32⟩
  | 52 => ⟨S64x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S1x64x64, .f32⟩
  | 60 => ⟨S64x64, .f32⟩
  | 61 => ⟨S100000x64, .f32⟩
  | 62 => ⟨S100000x64, .f32⟩
  | 63 => ⟨S_, .f32⟩
  | 64 => ⟨S64, .f32⟩
  | 65 => ⟨S_, .f32⟩
  | 66 => ⟨S64, .f32⟩
  | 67 => ⟨S64, .f32⟩
  | 68 => ⟨S_, .i32⟩
  | 69 => ⟨S_, .f32⟩
  | 70 => ⟨S64, .f32⟩
  | 71 => ⟨S1x64, .f32⟩
  | 72 => ⟨S_, .f32⟩
  | 73 => ⟨S1x64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S_, .f32⟩
  | 80 => ⟨S_, .f32⟩
  | 81 => ⟨S_, .f32⟩
  | 82 => ⟨S64, .f32⟩
  | 83 => ⟨S64, .f32⟩
  | 84 => ⟨S64, .f32⟩
  | 85 => ⟨S_, .f32⟩
  | 86 => ⟨S_, .i1⟩
  | 87 => ⟨S_, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000, .f32⟩
  | 116 => ⟨S_, .f32⟩
  | 117 => ⟨S128, .f32⟩
  | 118 => ⟨S100000x1, .i32⟩
  | 119 => ⟨S128, .f32⟩
  | 120 => ⟨S_, .f32⟩
  | 121 => ⟨S128x64, .f32⟩
  | 122 => ⟨S100000x1, .i32⟩
  | 123 => ⟨S128x64, .f32⟩
  | 124 => ⟨S_, .f32⟩
  | 125 => ⟨S128, .f32⟩
  | 126 => ⟨S128, .f32⟩
  | 127 => ⟨S128x1, .f32⟩
  | _ => ⟨S100000x64, .f32⟩

abbrev hbmTy0_2 (i : Nat) : BufTy := match i % 128 with
  | 0 => ⟨S128x64, .f32⟩
  | 1 => ⟨S128x64, .f32⟩
  | 2 => ⟨S128x10, .f32⟩
  | 3 => ⟨S1x10, .f32⟩
  | 4 => ⟨S128x10, .f32⟩
  | 5 => ⟨S128x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call1_cst : Ref sig .tc := ⟨.hbm, 87, rfl⟩
abbrev main_call1_v0 : Ref sig .tc := ⟨.hbm, 88, rfl⟩
abbrev main_v49 : Ref sig .tc := ⟨.hbm, 89, rfl⟩
abbrev main_c_5 : Ref sig .tc := ⟨.hbm, 90, rfl⟩
abbrev main_v50 : Ref sig .tc := ⟨.hbm, 91, rfl⟩
abbrev main_v51 : Ref sig .tc := ⟨.hbm, 92, rfl⟩
abbrev main_c_6 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_7 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_8 : Ref sig .tc := ⟨.hbm, 115, rfl⟩
abbrev main_v72 : Ref sig .tc := ⟨.hbm, 116, rfl⟩
abbrev main_cst_9 : Ref sig .tc := ⟨.hbm, 117, rfl⟩
abbrev main_v73 : Ref sig .tc := ⟨.hbm, 118, rfl⟩
abbrev main_v74 : Ref sig .tc := ⟨.hbm, 119, rfl⟩
abbrev main_c_10 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_11 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_call3_cst : Ref sig .tc := ⟨.hbm, 163, rfl⟩
abbrev main_call3_v0 : Ref sig .tc := ⟨.hbm, 164, rfl⟩
abbrev main_v95 : Ref sig .tc := ⟨.hbm, 165, rfl⟩
abbrev main_c_12 : Ref sig .tc := ⟨.hbm, 166, rfl⟩
abbrev main_v96 : Ref sig .tc := ⟨.hbm, 167, rfl⟩
abbrev main_v97 : Ref sig .tc := ⟨.hbm, 168, rfl⟩
abbrev main_c_13 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_cst_14 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_cst_15 : Ref sig .tc := ⟨.hbm, 191, rfl⟩
abbrev main_v118 : Ref sig .tc := ⟨.hbm, 192, rfl⟩
abbrev main_cst_16 : Ref sig .tc := ⟨.hbm, 193, rfl⟩
abbrev main_v119 : Ref sig .tc := ⟨.hbm, 194, rfl⟩
abbrev main_v120 : Ref sig .tc := ⟨.hbm, 195, rfl⟩
abbrev main_c_17 : Ref sig .tc := ⟨.hbm, 196, rfl⟩
abbrev main_call4_cst : Ref sig .tc := ⟨.hbm, 197, rfl⟩
abbrev main_call4_v0 : Ref sig .tc := ⟨.hbm, 198, rfl⟩
abbrev main_call4_v1 : Ref sig .tc := ⟨.hbm, 199, rfl⟩
abbrev main_call4_cst_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_v5 : Ref sig .tc := ⟨.hbm, 204, rfl⟩
abbrev main_call4_v6 : Ref sig .tc := ⟨.hbm, 205, rfl⟩
abbrev main_call4_v7 : Ref sig .tc := ⟨.hbm, 206, rfl⟩
abbrev main_call4_cst_1 : Ref sig .tc := ⟨.hbm, 207, rfl⟩
abbrev main_call4_v8 : Ref sig .tc := ⟨.hbm, 208, rfl⟩
abbrev main_call4_cst_2 : Ref sig .tc := ⟨.hbm, 209, rfl⟩
abbrev main_call4_v9 : Ref sig .tc := ⟨.hbm, 210, rfl⟩
abbrev main_call4_v10 : Ref sig .tc := ⟨.hbm, 211, rfl⟩
abbrev main_call4_v11 : Ref sig .tc := ⟨.hbm, 212, rfl⟩
abbrev main_call4_cst_3 : Ref sig .tc := ⟨.hbm, 213, rfl⟩
abbrev main_call4_v12 : Ref sig .tc := ⟨.hbm, 214, rfl⟩
abbrev main_call4_cst_4 : Ref sig .tc := ⟨.hbm, 215, rfl⟩
abbrev main_call4_call0_v0 : Ref sig .tc := ⟨.hbm, 216, rfl⟩
abbrev main_call4_call0_v1 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_18 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_call5_cst : Ref sig .tc := ⟨.hbm, 239, rfl⟩
abbrev main_call5_v0 : Ref sig .tc := ⟨.hbm, 240, rfl⟩
abbrev main_v141 : Ref sig .tc := ⟨.hbm, 241, rfl⟩
abbrev main_cst_19 : Ref sig .tc := ⟨.hbm, 242, rfl⟩
abbrev main_v142 : Ref sig .tc := ⟨.hbm, 243, rfl⟩
abbrev main_cst_20 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_cst_21 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_cst_22 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x10_S128x10_1_0_0_1_n_n_wf : DotDims.WF S128x64 S64x10 S128x10 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Spec.lean ====
/-
  The two programs as pure functions of the argument arrays.

  A graph network of three layers over N = 100000 nodes with 64 features and E = 1250000 edges, then a mean over
  128 graphs and a linear head. One layer: gather the rows x[src], add them into msg[dst], form
  h = msg · W_rel + x · W_root + b_rel, take each column's mean and variance over the nodes, and put
  max ((h - mean) · rsqrt (var + ε) · γ + β, 0).

  Both programs spell the gather, the scatter-add, the column statistics and the pooling head by the same host
  operations; those are written here ONCE, as the operations' own terms, and are never opened. The programs differ in
  two places. The kernel's gather fills a row whose (wrapped) index lies outside [0, N) with the not-a-number pattern,
  where the reference's gather clamps the index; on indices in [-N, N) the two agree. And the kernel forms h and the
  normalised layer block by block on the accelerator, which is stated here index by index on the extended reals
  (`hK`, `bnK`), where the reference uses whole-array host operations (`hR`, `bnR`).
-/
import proofs.«419033_j51049981280318_2_alg».proof.KernelIdeal
import proofs.«419033_j51049981280318_2_alg».proof.ReferenceIdeal
import Idealize.ShloMosaic.PureOps.Ideal
import Idealize.ShloMosaic.Lib.ValueIdx

noncomputable section

namespace Cert.Net

open Idealize.ShloMosaic Idealize.ShloMosaic.ValueIdx Cert.KernelIdeal Cert.KernelIdeal.Facts₀ Cert.KernelIdeal.Facts

variable {F : FTy → Type} [FloatOps F] [Cert.KernelIdeal.Facts]

/-! ## The edge list's two rows -/

/-- Row 0 of the edge list: each edge's source node. -/
def src (E : IVec S2x1250000 32) : IVec S1250000 32 :=
  shapeCast S1250000 (extractStridedSlice S1x1250000 ![0, 0] E slices_S2x1250000_S1x1250000_0_0) shapeCasts_S1x1250000_S1250000

/-- Row 1 of the edge list: each edge's destination node. -/
def dst (E : IVec S2x1250000 32) : IVec S1250000 32 :=
  shapeCast S1250000 (extractStridedSlice S1x1250000 ![1, 0] E slices_S2x1250000_S1x1250000_1_0) shapeCasts_S1x1250000_S1250000

/-- Every source index lies in [-N, N): the range on which indexing a length-N axis is defined. -/
def InRange (s : IVec S1250000 32) : Prop :=
  ∀ e : S1250000.Idx, (-100000 : Int) ≤ (s e).toInt ∧ (s e).toInt < 100000

/-! ## The gather, in its two spellings -/

/-- A negative index counts from the end: s < 0 becomes s + N; as a column of start indices. -/
def wrapCol (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 100000#32))) s)

/-- The reference's gather: row (wrapped index, clamped into the table) of x, for every edge. -/
def takeR (x : FVec F S100000x64 .f32) (s : IVec S1250000 32) : FVec F S1250000x64 .f32 :=
  Host.gather gather_S100000x64_S1250000x1_S1250000x64_1_0_n_n_0_1_164 x (wrapCol s)

/-- Per edge and feature: does the wrapped index lie in [0, N - 1]? -/
def inBounds (w : IVec S1250000x1 32) : IVec S1250000x64 1 :=
  broadcastInDim S1250000x64 ![0] bcast_S1250000_S1250000x64_0
    (Host.reduce IntOp.andi
      (andi (cmpi .sge w (broadcastInDim S1250000x1 ![] bcast_S_S1250000x1 (constantI S_ 32 0#32)))
        (cmpi .sle w (broadcastInDim S1250000x1 ![0, 1] bcast_S1x1_S1250000x1_0_1
          (broadcastInDim S1x1 ![1] bcast_S1_S1x1_1 (constantI S1 32 99999#32)))))
      (constantI S_ 1 1#1) reducesTo_S1250000x1_S1250000_d1 h_S_)

/-- The kernel's gather: the same rows where the wrapped index is in bounds, the fill pattern elsewhere. -/
def takeK (x : FVec F S100000x64 .f32) (s : IVec S1250000 32) : FVec F S1250000x64 .f32 :=
  select (inBounds (wrapCol s)) (takeR x s)
    (broadcastInDim S1250000x64 ![] bcast_S_S1250000x64 (constant S_ .f32 0x7FC00000#32))

/-! ## The shared host chains -/

/-- msg[d] = the sum of the gathered rows g[e] over the edges e with destination d. -/
def msg (g : FVec F S1250000x64 .f32) (d : IVec S1250000 32) : FVec F S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d) g

/-- Layer l's 64 × 64 matrix out of a stack of three. -/
def mat0 (W : FVec F S3x64x64 .f32) : FVec F S64x64 .f32 :=
  shapeCast S64x64 (extractStridedSlice S1x64x64 ![0, 0, 0] W slices_S3x64x64_S1x64x64_0_0_0) shapeCasts_S1x64x64_S64x64
def mat1 (W : FVec F S3x64x64 .f32) : FVec F S64x64 .f32 :=
  shapeCast S64x64 (extractStridedSlice S1x64x64 ![1, 0, 0] W slices_S3x64x64_S1x64x64_1_0_0) shapeCasts_S1x64x64_S64x64
def mat2 (W : FVec F S3x64x64 .f32) : FVec F S64x64 .f32 :=
  shapeCast S64x64 (extractStridedSlice S1x64x64 ![2, 0, 0] W slices_S3x64x64_S1x64x64_2_0_0) shapeCasts_S1x64x64_S64x64

/-- Layer l's 64-vector out of a stack of three. -/
def row0 (v : FVec F S3x64 .f32) : FVec F S64 .f32 :=
  shapeCast S64 (extractStridedSlice S1x64 ![0, 0] v slices_S3x64_S1x64_0_0) shapeCasts_S1x64_S64
def row1 (v : FVec F S3x64 .f32) : FVec F S64 .f32 :=
  shapeCast S64 (extractStridedSlice S1x64 ![1, 0] v slices_S3x64_S1x64_1_0) shapeCasts_S1x64_S64
def row2 (v : FVec F S3x64 .f32) : FVec F S64 .f32 :=
  shapeCast S64 (extractStridedSlice S1x64 ![2, 0] v slices_S3x64_S1x64_2_0) shapeCasts_S1x64_S64

/-- A 64-vector as a 1 × 64 row (what the kernel's windows stage). -/
def asRow (v : FVec F S64 .f32) : FVec F S1x64 .f32 := shapeCast S1x64 v shapeCasts_S64_S1x64

/-- Each column's mean over the N nodes. -/
def meanOf (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

/-- The centred squares whose column sums the variance divides. -/
def sqDev (h : FVec F S100000x64 .f32) : FVec F S100000x64 .f32 :=
  mulf
    (subf h (broadcastInDim S100000x64 ![0, 1] bcast_S1x64_S100000x64_0_1
      (Host.divf (broadcastInDim S1x64 ![1] bcast_S64_S1x64_1
          (Host.reduceAdd h (constant S_ .f32 0x00000000#32) reducesTo_S100000x64_S64_d0 h_S_))
        (broadcastInDim S1x64 ![] bcast_S_S1x64 (constant S_ .f32 0x47C35000#32)))))
    (subf h (broadcastInDim S100000x64 ![0, 1] bcast_S1x64_S100000x64_0_1
      (Host.divf (broadcastInDim S1x64 ![1] bcast_S64_S1x64_1
          (Host.reduceAdd h (constant S_ .f32 0x00000000#32) reducesTo_S100000x64_S64_d0 h_S_))
        (broadcastInDim S1x64 ![] bcast_S_S1x64 (constant S_ .f32 0x47C35000#32)))))

/-- The divisor N - ddof of the variance, with ddof = 0. -/
def varDen : FVec F S_ .f32 :=
  subf (constant S_ .f32 0x47C35000#32) (sitofp .f32 (constantI S_ 32 0#32))

/-- Each column's variance over the N nodes (the fill pattern were the divisor not positive). -/
def varOf (h : FVec F S100000x64 .f32) : FVec F S64 .f32 :=
  select (broadcastInDim S64 ![] bcast_S_S64 (cmpf .ogt (varDen (F := F)) (constant S_ .f32 0x00000000#32)))
    (Host.divf (Host.reduceAdd (sqDev h) (constant S_ .f32 0x00000000#32) reducesTo_S100000x64_S64_d0 h_S_)
      (broadcastInDim S64 ![] bcast_S_S64 (varDen (F := F))))
    (broadcastInDim S64 ![] bcast_S_S64 (id (constant S_ .f32 0x7FC00000#32)))

/-- The head: per graph the mean of its nodes' rows (a graph with no node divides by 1), times W_cls, plus b_cls. -/
def tailOf (x : FVec F S100000x64 .f32) (B : IVec S100000 32) (Wc : FVec F S64x10 .f32) (bc : FVec F S10 .f32) :
    FVec F S128x10 .f32 :=
  addf
    (Host.dotGeneral dot_S128x64_S64x10_S128x10_1_0_0_1_n_n none
      (Host.divf
        (Host.scatterAdd scatter_S128x64_S100000x1_S100000x64_1_0_0_1
          (broadcastInDim S128x64 ![] bcast_S_S128x64 (constant S_ .f32 0x00000000#32))
          (broadcastInDim S100000x1 ![0] bcast_S100000_S100000x1_0 B) x)
        (broadcastInDim S128x64 ![0, 1] bcast_S128x1_S128x64_0_1
          (broadcastInDim S128x1 ![0] bcast_S128_S128x1_0
            (maximumf
              (Host.scatterAdd scatter_S128_S100000x1_S100000_n_0_0_1
                (broadcastInDim S128 ![] bcast_S_S128 (constant S_ .f32 0x00000000#32))
                (broadcastInDim S100000x1 ![0] bcast_S100000_S100000x1_0 B)
                (broadcastInDim S100000 ![] bcast_S_S100000 (constant S_ .f32 0x3F800000#32)))
              (broadcastInDim S128 ![] bcast_S_S128 (constant S_ .f32 0x3F800000#32))))))
      Wc)
    (broadcastInDim S128x10 ![0, 1] bcast_S1x10_S128x10_0_1 (broadcastInDim S1x10 ![1] bcast_S10_S1x10_1 bc))

/-! ## What the accelerator regions compute, index by index on the extended reals -/

/-- h = msg · W_rel + x · W_root + b, entry (n, j): the two 64-term sums, then the bias row's entry j. -/
def hK (ms x : FVec Ideal S100000x64 .f32) (Wrel : FVec Ideal S64x64 .f32) (b : FVec Ideal S1x64 .f32)
    (Wroot : FVec Ideal S64x64 .f32) : FVec Ideal S100000x64 .f32 :=
  fun i => ((∑ k : Fin 64, ms (ix2 (i 0) k) * Wrel (ix2 k (i 1)))
    + (∑ k : Fin 64, x (ix2 (i 0) k) * Wroot (ix2 k (i 1)))) + b (ix2 (0 : Fin 1) (i 1))

/-- The normalised, rectified layer, entry (n, j), from the column statistics and parameters as 1 × 64 rows. -/
def bnK (h : FVec Ideal S100000x64 .f32) (mean var g b : FVec Ideal S1x64 .f32) : FVec Ideal S100000x64 .f32 :=
  fun i => max ((((h i - mean (ix2 (0 : Fin 1) (i 1)))
      * Ideal.rsqrt (var (ix2 (0 : Fin 1) (i 1)) + Ideal.ofBits .f32 0x3727C5AC#32)) * g (ix2 (0 : Fin 1) (i 1)))
    + b (ix2 (0 : Fin 1) (i 1))) (Ideal.ofBits .f32 0x00000000#32)

/-! ## The same two steps as the reference spells them, by whole-array host operations -/

section Reference
variable [Cert.ReferenceIdeal.Facts]

/-- A 64-vector laid along every row of an N × 64 array. -/
def alongRows (v : FVec F S64 .f32) : FVec F S100000x64 .f32 :=
  broadcastInDim S100000x64 ![0, 1] bcast_S1x64_S100000x64_0_1 (broadcastInDim S1x64 ![1] bcast_S64_S1x64_1 v)

/-- h = (msg · W_rel + b) + x · W_root. -/
def hR (ms x : FVec F S100000x64 .f32) (Wrel : FVec F S64x64 .f32) (b : FVec F S64 .f32) (Wroot : FVec F S64x64 .f32) :
    FVec F S100000x64 .f32 :=
  addf
    (addf (Host.dotGeneral Cert.ReferenceIdeal.dot_S100000x64_S64x64_S100000x64_1_0_0_1_n_n none ms Wrel) (alongRows b))
    (Host.dotGeneral Cert.ReferenceIdeal.dot_S100000x64_S64x64_S100000x64_1_0_0_1_n_n none x Wroot)

/-- max ((h - mean) · rsqrt (var + ε) · γ + β, 0). -/
def bnR (h : FVec F S100000x64 .f32) (mean var g b : FVec F S64 .f32) : FVec F S100000x64 .f32 :=
  maximumf
    (addf
      (mulf
        (mulf (subf h (alongRows mean))
          (alongRows (Host.rsqrt (addf var (broadcastInDim S64 ![] bcast_S_S64 (constant S_ .f32 0x3727C5AC#32))))))
        (alongRows g))
      (alongRows b))
    (broadcastInDim S100000x64 ![] bcast_S_S100000x64 (constant S_ .f32 0x00000000#32))

end Reference

/-! ## One layer, and the network, in each program's spelling -/

/-- One layer as the kernel computes it. -/
def layerK (x : FVec Ideal S100000x64 .f32) (s d : IVec S1250000 32) (Wrel : FVec Ideal S64x64 .f32)
    (brel : FVec Ideal S64 .f32) (Wroot : FVec Ideal S64x64 .f32) (g b : FVec Ideal S64 .f32) :
    FVec Ideal S100000x64 .f32 :=
  bnK (hK (msg (takeK x s) d) x Wrel (asRow brel) Wroot)
    (asRow (meanOf (hK (msg (takeK x s) d) x Wrel (asRow brel) Wroot)))
    (asRow (varOf (hK (msg (takeK x s) d) x Wrel (asRow brel) Wroot))) (asRow g) (asRow b)

/-- The kernel's result as a function of its ten arguments. -/
def netK (x : FVec Ideal S100000x64 .f32) (E : IVec S2x1250000 32) (B : IVec S100000 32)
    (Wr : FVec Ideal S3x64x64 .f32) (br : FVec Ideal S3x64 .f32) (Wo : FVec Ideal S3x64x64 .f32)
    (ga be : FVec Ideal S3x64 .f32) (Wc : FVec Ideal S64x10 .f32) (bc : FVec Ideal S10 .f32) : FVec Ideal S128x10 .f32 :=
  tailOf
    (layerK
      (layerK
        (layerK x (src E) (dst E) (mat0 Wr) (row0 br) (mat0 Wo) (row0 ga) (row0 be))
        (src E) (dst E) (mat1 Wr) (row1 br) (mat1 Wo) (row1 ga) (row1 be))
      (src E) (dst E) (mat2 Wr) (row2 br) (mat2 Wo) (row2 ga) (row2 be))
    B Wc bc

section Reference
variable [Cert.ReferenceIdeal.Facts]

/-- One layer as the reference computes it. -/
def layerR (x : FVec Ideal S100000x64 .f32) (s d : IVec S1250000 32) (Wrel : FVec Ideal S64x64 .f32)
    (brel : FVec Ideal S64 .f32) (Wroot : FVec Ideal S64x64 .f32) (g b : FVec Ideal S64 .f32) :
    FVec Ideal S100000x64 .f32 :=
  bnR (hR (msg (takeR x s) d) x Wrel brel Wroot)
    (meanOf (hR (msg (takeR x s) d) x Wrel brel Wroot))
    (varOf (hR (msg (takeR x s) d) x Wrel brel Wroot)) g b

/-- The reference's result as a function of its ten arguments. -/
def netR (x : FVec Ideal S100000x64 .f32) (E : IVec S2x1250000 32) (B : IVec S100000 32)
    (Wr : FVec Ideal S3x64x64 .f32) (br : FVec Ideal S3x64 .f32) (Wo : FVec Ideal S3x64x64 .f32)
    (ga be : FVec Ideal S3x64 .f32) (Wc : FVec Ideal S64x10 .f32) (bc : FVec Ideal S10 .f32) : FVec Ideal S128x10 .f32 :=
  tailOf
    (layerR
      (layerR
        (layerR x (src E) (dst E) (mat0 Wr) (row0 br) (mat0 Wo) (row0 ga) (row0 be))
        (src E) (dst E) (mat1 Wr) (row1 br) (mat1 Wo) (row1 ga) (row1 be))
      (src E) (dst E) (mat2 Wr) (row2 br) (mat2 Wo) (row2 ga) (row2 be))
    B Wc bc

end Reference

end Cert.Net

end
-- ==== Proof.RegH0.lean ====
import proofs.«419033_j51049981280318_2_alg».proof.Proof.Gen.KernelIdeal.Frame
import proofs.«419033_j51049981280318_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

/-! ## One entry of a block product

The block product contracts the left block's second axis with the right matrix's first. Its operand indices at result
entry (p, q) and contraction position k are (p, k) on the left and (k, q) on the right. -/

theorem h0_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem h0_lhs_mid (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem h0_rhs_mid (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem h0_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block product into the zero block, at entry (p, q): the 64-term sum of row p of the left block against column q
    of the right matrix. -/
theorem h0_prod_at (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k := funext fun a => Fin.ext (by
    match a with
    | ⟨0, _⟩ => exact h0_lhs_row _ _
    | ⟨1, _⟩ => exact (h0_lhs_mid _ _).trans hk)
  have er : dot_S10000x64_S64x64_S10000x64_1_0_0_1_n_n.rhsIdx (ix2 p q)
      ((contrEquiv1 dot_S10000x64_S64x64_S10000x64_1_0_0_1_n_n 64 rfl rfl).symm k) = ix2 k q := funext fun a => Fin.ext (by
    match a with
    | ⟨0, _⟩ => exact (h0_rhs_mid _ _).trans hk
    | ⟨1, _⟩ => exact h0_rhs_col _ _)
  rw [el, er]

/-! ## One entry of the stored block -/

/-- The block the body stores, at entry (p, q): the two products' entries added, then entry q of the bias row. The
    roundings of the four operands to the narrow format are the identity on the extended reals, and the casts to the
    same shape are the identity. -/
theorem h0_pay_at (ms x : FVec Ideal S10000x64 .f32) (Wrel Wroot : FVec Ideal S64x64 .f32) (b : FVec Ideal S1x64 .f32)
    (p : Fin 10000) (q : Fin 64) :
    Gen.k0_pay1 ms x Wrel Wroot b (ix2 p q)
      = ((∑ k : Fin 64, ms (ix2 p k) * Wrel (ix2 k q)) + (∑ k : Fin 64, x (ix2 p k) * Wroot (ix2 k q)))
          + b (ix2 (0 : Fin 1) q) := by
  unfold Gen.k0_pay1
  simp only [shapeCast_self]
  refine (addf_apply _ _ _).trans ?_
  refine congrArg₂ (· + ·) ((addf_apply _ _ _).trans (congrArg₂ (· + ·) ?_ ?_)) ?_
  · exact h0_prod_at _ _ p q
  · exact h0_prod_at _ _ p q
  · exact broadcastTo_1b_ab_apply _ _ p q

/-- When the five blocks are read off five arrays — row p of each big block is row n of its array, the small blocks
    are their arrays — entry (p, q) of the stored block is entry (n, q) of `hK` of the arrays. -/
theorem h0_block_at (x0 x1 : FVec Ideal S10000x64 .f32) (x2 x4 : FVec Ideal S64x64 .f32) (x3 : FVec Ideal S1x64 .f32)
    (A0 A1 : FVec Ideal S100000x64 .f32) (A2 A4 : FVec Ideal S64x64 .f32) (A3 : FVec Ideal S1x64 .f32)
    (p : Fin 10000) (q : Fin 64) (n : Fin 100000)
    (e0 : ∀ k : Fin 64, x0 (ix2 p k) = A0 (ix2 n k)) (e1 : ∀ k : Fin 64, x1 (ix2 p k) = A1 (ix2 n k))
    (e2 : ∀ k : Fin 64, x2 (ix2 k q) = A2 (ix2 k q)) (e4 : ∀ k : Fin 64, x4 (ix2 k q) = A4 (ix2 k q))
    (e3 : x3 (ix2 (0 : Fin 1) q) = A3 (ix2 (0 : Fin 1) q)) :
    Gen.k0_pay1 x0 x1 x2 x4 x3 (ix2 p q) = Cert.Net.hK A0 A1 A2 A3 A4 (ix2 n q) := by
  rw [h0_pay_at]
  show _ = ((∑ k : Fin 64, A0 (ix2 n k) * A2 (ix2 k q)) + (∑ k : Fin 64, A1 (ix2 n k) * A4 (ix2 k q)))
      + A3 (ix2 (0 : Fin 1) q)
  simp only [e0, e1, e2, e4, e3]

/-! ## From the blocks to the array -/

variable (V : (c : Dev nD) → (b : Ref sig .tc) → Buf (Elt Ideal) ((c : Thread nD τ).loc b))

theorem h0_hz : (![0, 0] : Fin 2 → Nat) = fun _ => 0 := funext fun a => by fin_cases a <;> rfl

/-- The index maps over the grid: at point t the three big windows are on row block t, column block 0; the three small
    windows are on their one block. -/
theorem h0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first big window's block at point t is row 10000 t + p of its array. -/
theorem h0_rows_0 (c : Dev nD) (t : Fin cfg0.N) (p : Fin 10000) (k : Fin 64) (n : Fin 100000)
    (hn : n.val = 10000 * t.val + p.val) :
    (iblk0 V c 0 t : FVec Ideal S10000x64 .f32) (ix2 p k)
      = (V c (Pipeline.arrRef spec0 0) : FVec Ideal S100000x64 .f32) (ix2 n k) := by
  obtain ⟨i00, i01, -⟩ := h0_idx t
  show V c (Pipeline.arrRef spec0 0) (((cfg0.win 0).blk t).view.emb (ix2 p k)) = _
  refine congrArg _ (funext fun a => Fin.ext ?_)
  match a with
  | ⟨0, _⟩ => show win0_0.index t (0 : Fin 2) * 10000 + 1 * p.val = n.val; omega
  | ⟨1, _⟩ => show win0_0.index t (1 : Fin 2) * 64 + 1 * k.val = k.val; omega

/-- The same for the second big window. -/
theorem h0_rows_1 (c : Dev nD) (t : Fin cfg0.N) (p : Fin 10000) (k : Fin 64) (n : Fin 100000)
    (hn : n.val = 10000 * t.val + p.val) :
    (iblk0 V c 1 t : FVec Ideal S10000x64 .f32) (ix2 p k)
      = (V c (Pipeline.arrRef spec0 1) : FVec Ideal S100000x64 .f32) (ix2 n k) := by
  obtain ⟨-, -, i10, i11, -⟩ := h0_idx t
  show V c (Pipeline.arrRef spec0 1) (((cfg0.win 1).blk t).view.emb (ix2 p k)) = _
  refine congrArg _ (funext fun a => Fin.ext ?_)
  match a with
  | ⟨0, _⟩ => show win0_1.index t (0 : Fin 2) * 10000 + 1 * p.val = n.val; omega
  | ⟨1, _⟩ => show win0_1.index t (1 : Fin 2) * 64 + 1 * k.val = k.val; omega

/-- Each small window's one block is its whole array, at every point. -/
theorem h0_whole_2 (c : Dev nD) (t : Fin cfg0.N) (k q : Fin 64) :
    (iblk0 V c 2 t : FVec Ideal S64x64 .f32) (ix2 k q) = (V c (Pipeline.arrRef spec0 2) : FVec Ideal S64x64 .f32) (ix2 k q) := by
  obtain ⟨-, -, -, -, i20, i21, -⟩ := h0_idx t
  show V c (Pipeline.arrRef spec0 2) (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem h0_whole_3 (c : Dev nD) (t : Fin cfg0.N) (q : Fin 64) :
    (iblk0 V c 3 t : FVec Ideal S1x64 .f32) (ix2 (0 : Fin 1) q)
      = (V c (Pipeline.arrRef spec0 3) : FVec Ideal S1x64 .f32) (ix2 (0 : Fin 1) q) := by
  obtain ⟨-, -, -, -, -, -, i30, i31, -⟩ := h0_idx t
  show V c (Pipeline.arrRef spec0 3) (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

theorem h0_whole_4 (c : Dev nD) (t : Fin cfg0.N) (k q : Fin 64) :
    (iblk0 V c 4 t : FVec Ideal S64x64 .f32) (ix2 k q) = (V c (Pipeline.arrRef spec0 4) : FVec Ideal S64x64 .f32) (ix2 k q) := by
  obtain ⟨-, -, -, -, -, -, -, -, i40, i41, -⟩ := h0_idx t
  show V c (Pipeline.arrRef spec0 4) (((cfg0.win 4).blk t).view.emb (ix2 k q)) = _
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- What the body leaves for point t's write-back: the stored block of the five input blocks at t (its one store and its
    five loads each go through the whole buffer). -/
theorem h0_left (c : Dev nD) (t : Fin cfg0.N) :
    (dat0 (F := Ideal) V c).flushed 5 t
      = (cfg0.win 5).cut (grid0.coords t)
          (Gen.k0_pay1 (iblk0 V c 0 t) (iblk0 V c 1 t) (iblk0 V c 2 t) (iblk0 V c 4 t) (iblk0 V c 3 t)) := by
  show (cfg0.win 5).cut (grid0.coords t) ((dat0 V c).after 5 t) = _
  rw [after0_5]
  unfold Gen.out0_5
  rw [View.canon_unit_zero h0_hz]
  simp only [View.ld_unit_zero (S := S10000x64) h0_hz, View.ld_unit_zero (S := S64x64) h0_hz,
    View.ld_unit_zero (S := S1x64) h0_hz]

/-- Entry (p, q) of the block stored at point t is entry (10000 t + p, q) of `hK` of the five arrays as the region
    finds them. -/
theorem h0_entry (c : Dev nD) (t : Fin cfg0.N) (p : Fin 10000) (q : Fin 64) (n : Fin 100000)
    (hn : n.val = 10000 * t.val + p.val) :
    Gen.k0_pay1 (iblk0 V c 0 t) (iblk0 V c 1 t) (iblk0 V c 2 t) (iblk0 V c 4 t) (iblk0 V c 3 t) (ix2 p q)
      = Cert.Net.hK (V c (Pipeline.arrRef spec0 0)) (V c (Pipeline.arrRef spec0 1)) (V c (Pipeline.arrRef spec0 2))
          (V c (Pipeline.arrRef spec0 3)) (V c (Pipeline.arrRef spec0 4)) (ix2 n q) :=
  h0_block_at (iblk0 V c 0 t) (iblk0 V c 1 t) (iblk0 V c 2 t) (iblk0 V c 4 t) (iblk0 V c 3 t)
    (V c (Pipeline.arrRef spec0 0)) (V c (Pipeline.arrRef spec0 1)) (V c (Pipeline.arrRef spec0 2))
    (V c (Pipeline.arrRef spec0 4)) (V c (Pipeline.arrRef spec0 3)) p q n
    (fun k => h0_rows_0 V c t p k n hn) (fun k => h0_rows_1 V c t p k n hn)
    (fun k => h0_whole_2 V c t k q) (fun k => h0_whole_4 V c t k q) (h0_whole_3 V c t q)

/-- The coordinates of an entry of the output window's block lie below the block's extents. -/
theorem h0_lt (t : Fin cfg0.N) (j : ((cfg0.win 5).xblock (grid0.coords t)).Idx) :
    (j 0).val < 10000 ∧ (j 1).val < 64 ∧ 10000 * t.val + (j 0).val < 100000 := by
  have hN : cfg0.N = 10 := N_0
  have ht : t.val < 10 := hN ▸ t.isLt
  have hj0 : (j 0).val < 10000 := (j 0).isLt
  have hj1 : (j 1).val < 64 := (j 1).isLt
  exact ⟨hj0, hj1, by omega⟩

/-- The write-back moves the whole block: any block P, cut to the part moved, reads P at the same entry. -/
theorem h0_cut_at (P : FVec Ideal S10000x64 .f32) (t : Fin cfg0.N) (j : ((cfg0.win 5).xblock (grid0.coords t)).Idx) :
    (cfg0.win 5).cut (grid0.coords t) P j
      = P (ix2 (⟨(j 0).val, (h0_lt t j).1⟩ : Fin 10000) (⟨(j 1).val, (h0_lt t j).2.1⟩ : Fin 64)) := by
  show P ((cfg0.win 5).xinj (grid0.coords t) j) = _
  refine congrArg P (funext fun a => Fin.ext ?_)
  match a with
  | ⟨0, _⟩ => rfl
  | ⟨1, _⟩ => rfl

/-- Any array G read through point t's block of the output window: entry (p, q) of the block is entry (10000 t + p, q)
    of G. -/
theorem h0_read_at (G : FVec Ideal S100000x64 .f32) (t : Fin cfg0.N)
    (j : ((cfg0.win 5).xblock (grid0.coords t)).Idx) :
    ((cfg0.win 5).blk t).view.read (Elt Ideal) G j
      = G (ix2 (⟨10000 * t.val + (j 0).val, (h0_lt t j).2.2⟩ : Fin 100000) (⟨(j 1).val, (h0_lt t j).2.1⟩ : Fin 64)) := by
  obtain ⟨-, -, -, -, -, -, -, -, -, -, i50, i51⟩ := h0_idx t
  show G (((cfg0.win 5).blk t).view.emb j) = _
  refine congrArg G (funext fun a => Fin.ext ?_)
  match a with
  | ⟨0, _⟩ => show win0_5.index t (0 : Fin 2) * 10000 + 1 * (j 0).val = 10000 * t.val + (j 0).val; omega
  | ⟨1, _⟩ => show win0_5.index t (1 : Fin 2) * 64 + 1 * (j 1).val = (j 1).val; omega

/-- What point t writes back is block t of `hK` of the five arrays as the region finds them. -/
theorem h0_flushed (c : Dev nD) (t : Fin cfg0.N) :
    (dat0 (F := Ideal) V c).flushed 5 t
      = ((cfg0.win 5).blk t).view.read (Elt Ideal)
          (Cert.Net.hK (V c (Pipeline.arrRef spec0 0)) (V c (Pipeline.arrRef spec0 1)) (V c (Pipeline.arrRef spec0 2))
            (V c (Pipeline.arrRef spec0 3)) (V c (Pipeline.arrRef spec0 4))) := by
  rw [h0_left]
  funext j
  refine (h0_cut_at _ t j).trans ?_
  refine Eq.trans ?_ (h0_read_at _ t j).symm
  exact h0_entry V c t _ _ _ rfl

/-- An entry of the array lies in point t's block iff each coordinate lies in the block's range on its axis. -/
theorem h0_mem_blk (t : Fin cfg0.N) (i : S100000x64.Idx) :
    i ∈ ((cfg0.win 5).blk t).view.set
      ↔ ∀ a : Fin 2, win0_5.index t a * S10000x64.size a ≤ (i a).val
          ∧ (i a).val < win0_5.index t a * S10000x64.size a + S10000x64.size a := by
  show i ∈ ((View.whole (Pipeline.arrRef spec0 5)).slice (win0_5.rect t)).set ↔ _
  rw [View.set_slice_whole, Rect.mem_set_unit]
  exact Iff.rfl

/-- Row r of the array lies in the block of point r / 10000: the ten blocks tile the rows. -/
theorem h0_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, i50, i51⟩ := h0_idx t
  refine ⟨t, flush0_5 t, ?_⟩
  rw [h0_mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- Region 0 forms h = msg · W_rel + x · W_root + b one block of 10000 rows at a time; the ten blocks tile the N rows,
    so the array it leaves is `hK` of the arrays it found, entry by entry. -/
theorem h0 (c : Dev nD) :
    (dat0 (F := Ideal) V c).arrAt 5 cfg0.N
      = Cert.Net.hK (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => h0_flushed V c t) h0_cover

end Cert.KernelIdeal.RegVal

end
-- ==== Proof.RegBN1.lean ====
import proofs.«419033_j51049981280318_2_alg».proof.Proof.Gen.KernelIdeal.Frame
import proofs.«419033_j51049981280318_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The body's arithmetic at one entry of a block -/

/-- A 1 × 64 row laid along the 10000 rows of a block reads, at (p, q), the row's entry q. -/
theorem bn1_row {α : Type} (v : S1x64.Idx → α) (p : Fin 10000) (q : Fin 64) :
    broadcastTo S10000x64 v broadcasts_S1x64_S10000x64 (ix2 p q) = v (ix2 (0 : Fin 1) q) := by
  refine broadcastTo_apply v broadcasts_S1x64_S10000x64 (ix2 p q) (ix2 (0 : Fin 1) q) fun a => ?_
  match a with
  | ⟨0, _⟩ => rfl
  | ⟨1, _⟩ => rfl

/-- Entry (p, q) of what the body stores: the block's entry, centred by the mean row, scaled by the reciprocal root of
    the variance row plus ε and by the γ row, shifted by the β row, and cut off below at zero. -/
theorem bn1_pay (h : Vec Ideal S10000x64 .f32) (var mean g b : Vec Ideal S1x64 .f32) (p : Fin 10000) (q : Fin 64) :
    k1_pay1 h var mean g b (ix2 p q)
      = max ((((h (ix2 p q) - mean (ix2 (0 : Fin 1) q))
          * Ideal.rsqrt (var (ix2 (0 : Fin 1) q) + Ideal.ofBits .f32 0x3727C5AC#32)) * g (ix2 (0 : Fin 1) q))
        + b (ix2 (0 : Fin 1) q)) (Ideal.ofBits .f32 0x00000000#32) := by
  unfold k1_pay1
  simp only [shapeCast_self]
  rw [maximumf_apply, addf_apply, mulf_apply, mulf_apply, subf_apply, broadcast_apply,
    bn1_row mean, bn1_row g, bn1_row b, bn1_row (rsqrt _)]
  rfl

/-- The same at any entry j of the block, against the entry i of the whole array that j's row and column name: if the
    block's entry j is the array's entry i, the four rows are the four small arrays, and i has j's column, then what the
    body stores at j is the normalised, rectified layer at i. -/
theorem bn1_point (A0 : Vec Ideal S100000x64 .f32) (A1 A2 A3 A4 : Vec Ideal S1x64 .f32)
    (x0 : Vec Ideal S10000x64 .f32) (x1 x2 x3 x4 : Vec Ideal S1x64 .f32) (j : S10000x64.Idx) (i : S100000x64.Idx)
    (hcol : (i 1).val = (j 1).val) (h0 : x0 j = A0 i) (h1 : x1 = A1) (h2 : x2 = A2) (h3 : x3 = A3) (h4 : x4 = A4) :
    k1_pay1 x0 x2 x1 x3 x4 j = Cert.Net.bnK A0 A1 A2 A3 A4 i := by
  subst h1 h2 h3 h4
  obtain ⟨p, q, rfl⟩ : ∃ (p : Fin 10000) (q : Fin 64), j = ix2 p q := ⟨j 0, j 1, eq_ix2 j⟩
  have hq : i 1 = q := Fin.ext hcol
  rw [bn1_pay, h0]
  unfold Cert.Net.bnK
  rw [hq]

/-! ## What one grid point writes back -/

/-- The zero offsets of a load or store through a whole staging buffer, in the two spellings met. -/
theorem bn1_hz : (![0, 0] : Fin 2 → Nat) = fun _ => 0 := funext fun a => by fin_cases a <;> rfl

/-- The windows' index maps over the grid: the two big windows' block index at point t is (t, 0), the four small
    windows' is (0, 0). -/
theorem bn1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean row's window has one block, the whole 1 × 64 array, at every grid point. -/
theorem bn1_small1 (c : Dev nD) (t : Fin cfg1.N) :
    (iblk1 V c 1 t : Vec Ideal S1x64 .f32) = (V c (Pipeline.arrRef spec1 1) : Vec Ideal S1x64 .f32) := by
  obtain ⟨e00, e01, e10, e11, e20, e21, e30, e31, e40, e41, e50, e51⟩ := bn1_idx t
  funext y
  unfold iblk1
  rw [View.read_apply]
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 1 + 1 * (y 0).val = (y 0).val; rw [e10]; omega
  | ⟨1, _⟩ => show win1_1.index t (1 : Fin 2) * 64 + 1 * (y 1).val = (y 1).val; rw [e11]; omega

/-- The variance row's window has one block, the whole 1 × 64 array, at every grid point. -/
theorem bn1_small2 (c : Dev nD) (t : Fin cfg1.N) :
    (iblk1 V c 2 t : Vec Ideal S1x64 .f32) = (V c (Pipeline.arrRef spec1 2) : Vec Ideal S1x64 .f32) := by
  obtain ⟨e00, e01, e10, e11, e20, e21, e30, e31, e40, e41, e50, e51⟩ := bn1_idx t
  funext y
  unfold iblk1
  rw [View.read_apply]
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; rw [e20]; omega
  | ⟨1, _⟩ => show win1_2.index t (1 : Fin 2) * 64 + 1 * (y 1).val = (y 1).val; rw [e21]; omega

/-- The γ row's window has one block, the whole 1 × 64 array, at every grid point. -/
theorem bn1_small3 (c : Dev nD) (t : Fin cfg1.N) :
    (iblk1 V c 3 t : Vec Ideal S1x64 .f32) = (V c (Pipeline.arrRef spec1 3) : Vec Ideal S1x64 .f32) := by
  obtain ⟨e00, e01, e10, e11, e20, e21, e30, e31, e40, e41, e50, e51⟩ := bn1_idx t
  funext y
  unfold iblk1
  rw [View.read_apply]
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

/-- The β row's window has one block, the whole 1 × 64 array, at every grid point. -/
theorem bn1_small4 (c : Dev nD) (t : Fin cfg1.N) :
    (iblk1 V c 4 t : Vec Ideal S1x64 .f32) = (V c (Pipeline.arrRef spec1 4) : Vec Ideal S1x64 .f32) := by
  obtain ⟨e00, e01, e10, e11, e20, e21, e30, e31, e40, e41, e50, e51⟩ := bn1_idx t
  funext y
  unfold iblk1
  rw [View.read_apply]
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [e40]; omega
  | ⟨1, _⟩ => show win1_4.index t (1 : Fin 2) * 64 + 1 * (y 1).val = (y 1).val; rw [e41]; omega

/-- The big input window's block at point t is rows 10000·t … 10000·t + 9999 of its array: its entry j is the array's
    entry i whenever i's row is 10000·t plus j's and i's column is j's. -/
theorem bn1_big (c : Dev nD) (t : Fin cfg1.N) (j : S10000x64.Idx) (i : S100000x64.Idx)
    (hrow : (i 0).val = 10000 * t.val + (j 0).val) (hcol : (i 1).val = (j 1).val) :
    (iblk1 V c 0 t : Vec Ideal S10000x64 .f32) j = (V c (Pipeline.arrRef spec1 0) : Vec Ideal S100000x64 .f32) i := by
  obtain ⟨e00, e01, e10, e11, e20, e21, e30, e31, e40, e41, e50, e51⟩ := bn1_idx t
  unfold iblk1
  rw [View.read_apply]
  show V c (Pipeline.arrRef spec1 0) (((cfg1.win 0).blk t).view.emb j) = V c (Pipeline.arrRef spec1 0) i
  refine congrArg _ (funext fun a => Fin.ext ?_)
  match a with
  | ⟨0, _⟩ => show win1_0.index t (0 : Fin 2) * 10000 + 1 * (j 0).val = (i 0).val; rw [e00, hrow]; omega
  | ⟨1, _⟩ => show win1_0.index t (1 : Fin 2) * 64 + 1 * (j 1).val = (i 1).val; rw [e01, hcol]; omega

/-- Entry j of what point t's body stores is the normalised, rectified layer at the array entry i in row 10000·t plus
    j's row and in j's column. -/
theorem bn1_at (c : Dev nD) (t : Fin cfg1.N) (j : S10000x64.Idx) (i : S100000x64.Idx)
    (hrow : (i 0).val = 10000 * t.val + (j 0).val) (hcol : (i 1).val = (j 1).val) :
    k1_pay1 (iblk1 V c 0 t) (iblk1 V c 2 t) (iblk1 V c 1 t) (iblk1 V c 3 t) (iblk1 V c 4 t) j
      = Cert.Net.bnK (V c (Pipeline.arrRef spec1 0)) (V c (Pipeline.arrRef spec1 1)) (V c (Pipeline.arrRef spec1 2))
          (V c (Pipeline.arrRef spec1 3)) (V c (Pipeline.arrRef spec1 4)) i :=
  bn1_point (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) j i hcol
    (bn1_big V c t j i hrow hcol) (bn1_small1 V c t) (bn1_small2 V c t) (bn1_small3 V c t) (bn1_small4 V c t)

/-- What point t writes back is block t of the normalised, rectified layer of the arrays the region found. -/
theorem bn1_flushed (c : Dev nD) (t : Fin cfg1.N) :
    (dat1 (F := Ideal) V c).flushed 5 t
      = ((cfg1.win 5).blk t).view.read (Elt Ideal)
          (Cert.Net.bnK (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero bn1_hz]
  simp only [View.ld_unit_zero (S := S10000x64) bn1_hz, View.ld_unit_zero (S := S1x64) bn1_hz]
  obtain ⟨e00, e01, e10, e11, e20, e21, e30, e31, e40, e41, e50, e51⟩ := bn1_idx t
  funext j
  rw [View.read_apply]
  show k1_pay1 (iblk1 V c 0 t) (iblk1 V c 2 t) (iblk1 V c 1 t) (iblk1 V c 3 t) (iblk1 V c 4 t)
        ((cfg1.win 5).xinj (grid1.coords t) j)
      = Cert.Net.bnK (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb j)
  refine bn1_at V c t _ _ ?_ ?_
  · show win1_5.index t (0 : Fin 2) * 10000 + 1 * (j 0).val = 10000 * t.val + (j 0).val
    rw [e50]; omega
  · show win1_5.index t (1 : Fin 2) * 64 + 1 * (j 1).val = (j 1).val
    rw [e51]; omega

/-- Region 1 normalises and rectifies one block of 10000 rows at a time; the ten blocks tile the N rows, so the array
    it leaves is `bnK` of the arrays it found, entry by entry. -/
theorem bn1 (c : Dev nD) :
    (dat1 (F := Ideal) V c).arrAt 5 cfg1.N
      = Cert.Net.bnK (V c (Pipeline.arrRef spec1 0)) (V c (Pipeline.arrRef spec1 1)) (V c (Pipeline.arrRef spec1 2))
          (V c (Pipeline.arrRef spec1 3)) (V c (Pipeline.arrRef spec1 4)) := by
  refine (dat1 (F := Ideal) V c).arrAt_eq_of_cover 5 _ (fun t _ => bn1_flushed V c t) fun i => ?_
  have h0 : (i 0).val < 100000 := (i 0).isLt
  have h1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, -, -, e50, e51⟩ := bn1_idx t
  refine ⟨t, flush1_5 t, ?_⟩
  show i ∈ ((View.whole (Pipeline.arrRef spec1 5)).slice (win1_5.rect t)).set
  rw [View.set_slice_whole, Rect.mem_set_unit]
  intro a
  match a with
  | ⟨0, _⟩ =>
    show win1_5.index t (0 : Fin 2) * 10000 ≤ (i 0).val ∧ (i 0).val < win1_5.index t (0 : Fin 2) * 10000 + 10000
    rw [e50]; omega
  | ⟨1, _⟩ =>
    show win1_5.index t (1 : Fin 2) * 64 ≤ (i 1).val ∧ (i 1).val < win1_5.index t (1 : Fin 2) * 64 + 64
    rw [e51]; omega

end Cert.KernelIdeal.RegVal

end
-- ==== Proof.KWalk0.lean ====
import proofs.«419033_j51049981280318_2_alg».proof.Proof.Gen.KernelIdeal.Frame
import proofs.«419033_j51049981280318_2_alg».proof.Proof.Spec
import proofs.«419033_j51049981280318_2_alg».proof.Proof.RegH0
import proofs.«419033_j51049981280318_2_alg».proof.Proof.RegBN1
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

namespace L0

/-! ## The host stretches of layer 0, over arbitrary starting contents

Each stretch is a straight line of array operations. For starting contents `V` the lemmas below say what the few
buffers the layer goes on to read hold after the line: a buffer the line writes holds the composite of the operations
that feed it, applied to `V` at the line's inputs; a buffer the line does not write holds what it held. -/

section Stretches

variable (V : Valuation τ sig (Elt Ideal))

/-- Reading a value back through the same typed reference it was stored through gives the value. -/
theorem ofBuf_toBuf {T : BufTy} (x : StableHlo.TRef sig T) (v : T.Contents (Elt Ideal)) :
    x.ofBuf (x.toBuf v) = v := by
  obtain ⟨r, h, h1, h2⟩ := x
  subst h
  rfl

/-! ### The edge list's two rows -/

theorem ops0_v1 :
    StableHlo.after (hostOps0 (F := Ideal)) V (Proc.devRef .tc main_v1) = Cert.Net.src (V (Proc.devRef .tc main_arg1)) := by
  after_results
  rfl

theorem ops0_v3 :
    StableHlo.after (hostOps0 (F := Ideal)) V (Proc.devRef .tc main_v3) = Cert.Net.dst (V (Proc.devRef .tc main_arg1)) := by
  after_results
  rfl

theorem ops0_arg0 :
    StableHlo.after (hostOps0 (F := Ideal)) V (Proc.devRef .tc main_arg0) = V (Proc.devRef .tc main_arg0) := by
  after_results

theorem ops0_arg3 :
    StableHlo.after (hostOps0 (F := Ideal)) V (Proc.devRef .tc main_arg3) = V (Proc.devRef .tc main_arg3) := by
  after_results

theorem ops0_arg4 :
    StableHlo.after (hostOps0 (F := Ideal)) V (Proc.devRef .tc main_arg4) = V (Proc.devRef .tc main_arg4) := by
  after_results

theorem ops0_arg5 :
    StableHlo.after (hostOps0 (F := Ideal)) V (Proc.devRef .tc main_arg5) = V (Proc.devRef .tc main_arg5) := by
  after_results

theorem ops0_arg6 :
    StableHlo.after (hostOps0 (F := Ideal)) V (Proc.devRef .tc main_arg6) = V (Proc.devRef .tc main_arg6) := by
  after_results

theorem ops0_arg7 :
    StableHlo.after (hostOps0 (F := Ideal)) V (Proc.devRef .tc main_arg7) = V (Proc.devRef .tc main_arg7) := by
  after_results

/-! ### The gather: the selected rows where the wrapped index is in bounds, the fill pattern elsewhere -/

theorem ops0_1_v4 :
    StableHlo.after (hostOps0_1 (F := Ideal)) V (Proc.devRef .tc main_v4)
      = Cert.Net.takeK (F := Ideal) (V (Proc.devRef .tc main_arg0)) (V (Proc.devRef .tc main_v1)) := by
  after_results_simp
  simp only [ofBuf_toBuf]
  refine eq_of_heq ((cast_heq _ _).trans (heq_of_eq ?_))
  rfl

theorem ops0_1_v3 :
    StableHlo.after (hostOps0_1 (F := Ideal)) V (Proc.devRef .tc main_v3) = V (Proc.devRef .tc main_v3) := by
  after_results_simp

theorem ops0_1_arg0 :
    StableHlo.after (hostOps0_1 (F := Ideal)) V (Proc.devRef .tc main_arg0) = V (Proc.devRef .tc main_arg0) := by
  after_results_simp

theorem ops0_1_arg3 :
    StableHlo.after (hostOps0_1 (F := Ideal)) V (Proc.devRef .tc main_arg3) = V (Proc.devRef .tc main_arg3) := by
  after_results_simp

theorem ops0_1_arg4 :
    StableHlo.after (hostOps0_1 (F := Ideal)) V (Proc.devRef .tc main_arg4) = V (Proc.devRef .tc main_arg4) := by
  after_results_simp

theorem ops0_1_arg5 :
    StableHlo.after (hostOps0_1 (F := Ideal)) V (Proc.devRef .tc main_arg5) = V (Proc.devRef .tc main_arg5) := by
  after_results_simp

theorem ops0_1_arg6 :
    StableHlo.after (hostOps0_1 (F := Ideal)) V (Proc.devRef .tc main_arg6) = V (Proc.devRef .tc main_arg6) := by
  after_results_simp

theorem ops0_1_arg7 :
    StableHlo.after (hostOps0_1 (F := Ideal)) V (Proc.devRef .tc main_arg7) = V (Proc.devRef .tc main_arg7) := by
  after_results_simp

/-! ### The scatter-add and layer 0's parameters -/

theorem ops0_2_v7 :
    StableHlo.after (hostOps0_2 (F := Ideal)) V (Proc.devRef .tc main_v7)
      = Cert.Net.msg (F := Ideal) (V (Proc.devRef .tc main_v4)) (V (Proc.devRef .tc main_v3)) := by
  after_results
  rfl

theorem ops0_2_v9 :
    StableHlo.after (hostOps0_2 (F := Ideal)) V (Proc.devRef .tc main_v9)
      = Cert.Net.mat0 (F := Ideal) (V (Proc.devRef .tc main_arg3)) := by
  after_results
  rfl

theorem ops0_2_v14 :
    StableHlo.after (hostOps0_2 (F := Ideal)) V (Proc.devRef .tc main_v14)
      = Cert.Net.asRow (F := Ideal) (Cert.Net.row0 (F := Ideal) (V (Proc.devRef .tc main_arg4))) := by
  after_results
  rfl

theorem ops0_2_v13 :
    StableHlo.after (hostOps0_2 (F := Ideal)) V (Proc.devRef .tc main_v13)
      = Cert.Net.mat0 (F := Ideal) (V (Proc.devRef .tc main_arg5)) := by
  after_results
  rfl

theorem ops0_2_arg0 :
    StableHlo.after (hostOps0_2 (F := Ideal)) V (Proc.devRef .tc main_arg0) = V (Proc.devRef .tc main_arg0) := by
  after_results

theorem ops0_2_arg6 :
    StableHlo.after (hostOps0_2 (F := Ideal)) V (Proc.devRef .tc main_arg6) = V (Proc.devRef .tc main_arg6) := by
  after_results

theorem ops0_2_arg7 :
    StableHlo.after (hostOps0_2 (F := Ideal)) V (Proc.devRef .tc main_arg7) = V (Proc.devRef .tc main_arg7) := by
  after_results

/-! ### The column means (and the zero the variance's divisor is formed from) -/

theorem ops1_v18 :
    StableHlo.after (hostOps1 (F := Ideal)) V (Proc.devRef .tc main_v18)
      = Cert.Net.meanOf (F := Ideal) (V (Proc.devRef .tc main_v15)) := by
  after_results
  rfl

theorem ops1_c :
    StableHlo.after (hostOps1 (F := Ideal)) V (Proc.devRef .tc main_c) = constantI S_ 32 0#32 := by
  after_results

theorem ops1_v15 :
    StableHlo.after (hostOps1 (F := Ideal)) V (Proc.devRef .tc main_v15) = V (Proc.devRef .tc main_v15) := by
  after_results

theorem ops1_arg6 :
    StableHlo.after (hostOps1 (F := Ideal)) V (Proc.devRef .tc main_arg6) = V (Proc.devRef .tc main_arg6) := by
  after_results

theorem ops1_arg7 :
    StableHlo.after (hostOps1 (F := Ideal)) V (Proc.devRef .tc main_arg7) = V (Proc.devRef .tc main_arg7) := by
  after_results

/-! ### The column variances: the divisor is N - 0, read off the constant the previous stretch left -/

theorem ops1_1_v19 (hc : V (Proc.devRef .tc main_c) = constantI S_ 32 0#32) :
    StableHlo.after (hostOps1_1 (F := Ideal)) V (Proc.devRef .tc main_v19)
      = Cert.Net.varOf (F := Ideal) (V (Proc.devRef .tc main_v15)) := by
  after_results_simp
  simp only [ofBuf_toBuf]
  refine eq_of_heq ((cast_heq _ _).trans (heq_of_eq ?_))
  rw [hc]
  rfl

theorem ops1_1_v15 :
    StableHlo.after (hostOps1_1 (F := Ideal)) V (Proc.devRef .tc main_v15) = V (Proc.devRef .tc main_v15) := by
  after_results_simp

theorem ops1_1_v18 :
    StableHlo.after (hostOps1_1 (F := Ideal)) V (Proc.devRef .tc main_v18) = V (Proc.devRef .tc main_v18) := by
  after_results_simp

theorem ops1_1_arg6 :
    StableHlo.after (hostOps1_1 (F := Ideal)) V (Proc.devRef .tc main_arg6) = V (Proc.devRef .tc main_arg6) := by
  after_results_simp

theorem ops1_1_arg7 :
    StableHlo.after (hostOps1_1 (F := Ideal)) V (Proc.devRef .tc main_arg7) = V (Proc.devRef .tc main_arg7) := by
  after_results_simp

/-! ### The statistics and layer 0's scale and shift, each as a 1 × 64 row -/

theorem ops1_2_v24 :
    StableHlo.after (hostOps1_2 (F := Ideal)) V (Proc.devRef .tc main_v24)
      = Cert.Net.asRow (F := Ideal) (V (Proc.devRef .tc main_v18)) := by
  after_results
  rfl

theorem ops1_2_v25 :
    StableHlo.after (hostOps1_2 (F := Ideal)) V (Proc.devRef .tc main_v25)
      = Cert.Net.asRow (F := Ideal) (V (Proc.devRef .tc main_v19)) := by
  after_results
  rfl

theorem ops1_2_v26 :
    StableHlo.after (hostOps1_2 (F := Ideal)) V (Proc.devRef .tc main_v26)
      = Cert.Net.asRow (F := Ideal) (Cert.Net.row0 (F := Ideal) (V (Proc.devRef .tc main_arg6))) := by
  after_results
  rfl

theorem ops1_2_v27 :
    StableHlo.after (hostOps1_2 (F := Ideal)) V (Proc.devRef .tc main_v27)
      = Cert.Net.asRow (F := Ideal) (Cert.Net.row0 (F := Ideal) (V (Proc.devRef .tc main_arg7))) := by
  after_results
  rfl

theorem ops1_2_v15 :
    StableHlo.after (hostOps1_2 (F := Ideal)) V (Proc.devRef .tc main_v15) = V (Proc.devRef .tc main_v15) := by
  after_results

end Stretches

/-! ## Layer 0, boundary by boundary

From the launch memory `m` through the three host stretches, the first accelerator region (which forms h), three more
host stretches (mean, variance, rows) and the second region (which normalises and rectifies). An argument's buffer is
written by nothing on the way, so it holds its launch contents at every boundary. -/

section Walk

variable (m : (ℓ : Loc nD τ sig) → Buf (Elt Ideal) ℓ) (ρ : Dev nD → PrngReg)

/-! ### After the edge list is split -/

theorem W1_v1 (c : Dev nD) : W1 (F := Ideal) m ρ c (Proc.devRef .tc main_v1) = Cert.Net.src (m ((c : Thread nD τ).loc main_arg1)) :=
  ops0_v1 (W0 m ρ c)

theorem W1_v3 (c : Dev nD) : W1 (F := Ideal) m ρ c (Proc.devRef .tc main_v3) = Cert.Net.dst (m ((c : Thread nD τ).loc main_arg1)) :=
  ops0_v3 (W0 m ρ c)

theorem W1_arg0 (c : Dev nD) : W1 (F := Ideal) m ρ c (Proc.devRef .tc main_arg0) = (m ((c : Thread nD τ).loc main_arg0)) :=
  ops0_arg0 (W0 m ρ c)

theorem W1_arg3 (c : Dev nD) : W1 (F := Ideal) m ρ c (Proc.devRef .tc main_arg3) = (m ((c : Thread nD τ).loc main_arg3)) :=
  ops0_arg3 (W0 m ρ c)

theorem W1_arg4 (c : Dev nD) : W1 (F := Ideal) m ρ c (Proc.devRef .tc main_arg4) = (m ((c : Thread nD τ).loc main_arg4)) :=
  ops0_arg4 (W0 m ρ c)

theorem W1_arg5 (c : Dev nD) : W1 (F := Ideal) m ρ c (Proc.devRef .tc main_arg5) = (m ((c : Thread nD τ).loc main_arg5)) :=
  ops0_arg5 (W0 m ρ c)

theorem W1_arg6 (c : Dev nD) : W1 (F := Ideal) m ρ c (Proc.devRef .tc main_arg6) = (m ((c : Thread nD τ).loc main_arg6)) :=
  ops0_arg6 (W0 m ρ c)

theorem W1_arg7 (c : Dev nD) : W1 (F := Ideal) m ρ c (Proc.devRef .tc main_arg7) = (m ((c : Thread nD τ).loc main_arg7)) :=
  ops0_arg7 (W0 m ρ c)

/-! ### After the gather -/

theorem W2_v4 (c : Dev nD) :
    W2 (F := Ideal) m ρ c (Proc.devRef .tc main_v4) = Cert.Net.takeK (F := Ideal) (m ((c : Thread nD τ).loc main_arg0)) (Cert.Net.src (m ((c : Thread nD τ).loc main_arg1))) :=
  (ops0_1_v4 (W1 m ρ c)).trans (by rw [W1_arg0, W1_v1])

theorem W2_v3 (c : Dev nD) : W2 (F := Ideal) m ρ c (Proc.devRef .tc main_v3) = Cert.Net.dst (m ((c : Thread nD τ).loc main_arg1)) :=
  (ops0_1_v3 (W1 m ρ c)).trans (W1_v3 m ρ c)

theorem W2_arg0 (c : Dev nD) : W2 (F := Ideal) m ρ c (Proc.devRef .tc main_arg0) = (m ((c : Thread nD τ).loc main_arg0)) :=
  (ops0_1_arg0 (W1 m ρ c)).trans (W1_arg0 m ρ c)

theorem W2_arg3 (c : Dev nD) : W2 (F := Ideal) m ρ c (Proc.devRef .tc main_arg3) = (m ((c : Thread nD τ).loc main_arg3)) :=
  (ops0_1_arg3 (W1 m ρ c)).trans (W1_arg3 m ρ c)

theorem W2_arg4 (c : Dev nD) : W2 (F := Ideal) m ρ c (Proc.devRef .tc main_arg4) = (m ((c : Thread nD τ).loc main_arg4)) :=
  (ops0_1_arg4 (W1 m ρ c)).trans (W1_arg4 m ρ c)

theorem W2_arg5 (c : Dev nD) : W2 (F := Ideal) m ρ c (Proc.devRef .tc main_arg5) = (m ((c : Thread nD τ).loc main_arg5)) :=
  (ops0_1_arg5 (W1 m ρ c)).trans (W1_arg5 m ρ c)

theorem W2_arg6 (c : Dev nD) : W2 (F := Ideal) m ρ c (Proc.devRef .tc main_arg6) = (m ((c : Thread nD τ).loc main_arg6)) :=
  (ops0_1_arg6 (W1 m ρ c)).trans (W1_arg6 m ρ c)

theorem W2_arg7 (c : Dev nD) : W2 (F := Ideal) m ρ c (Proc.devRef .tc main_arg7) = (m ((c : Thread nD τ).loc main_arg7)) :=
  (ops0_1_arg7 (W1 m ρ c)).trans (W1_arg7 m ρ c)

/-! ### At the first region's entry -/

theorem W3_v7 (c : Dev nD) :
    W3 (F := Ideal) m ρ c (Proc.devRef .tc main_v7)
      = Cert.Net.msg (F := Ideal) (Cert.Net.takeK (F := Ideal) (m ((c : Thread nD τ).loc main_arg0)) (Cert.Net.src (m ((c : Thread nD τ).loc main_arg1)))) (Cert.Net.dst (m ((c : Thread nD τ).loc main_arg1))) :=
  (ops0_2_v7 (W2 m ρ c)).trans (by rw [W2_v4, W2_v3])

theorem W3_v9 (c : Dev nD) : W3 (F := Ideal) m ρ c (Proc.devRef .tc main_v9) = Cert.Net.mat0 (F := Ideal) (m ((c : Thread nD τ).loc main_arg3)) :=
  (ops0_2_v9 (W2 m ρ c)).trans (by rw [W2_arg3])

theorem W3_v14 (c : Dev nD) :
    W3 (F := Ideal) m ρ c (Proc.devRef .tc main_v14) = Cert.Net.asRow (F := Ideal) (Cert.Net.row0 (F := Ideal) (m ((c : Thread nD τ).loc main_arg4))) :=
  (ops0_2_v14 (W2 m ρ c)).trans (by rw [W2_arg4])

theorem W3_v13 (c : Dev nD) : W3 (F := Ideal) m ρ c (Proc.devRef .tc main_v13) = Cert.Net.mat0 (F := Ideal) (m ((c : Thread nD τ).loc main_arg5)) :=
  (ops0_2_v13 (W2 m ρ c)).trans (by rw [W2_arg5])

theorem W3_arg0 (c : Dev nD) : W3 (F := Ideal) m ρ c (Proc.devRef .tc main_arg0) = (m ((c : Thread nD τ).loc main_arg0)) :=
  (ops0_2_arg0 (W2 m ρ c)).trans (W2_arg0 m ρ c)

theorem W3_arg6 (c : Dev nD) : W3 (F := Ideal) m ρ c (Proc.devRef .tc main_arg6) = (m ((c : Thread nD τ).loc main_arg6)) :=
  (ops0_2_arg6 (W2 m ρ c)).trans (W2_arg6 m ρ c)

theorem W3_arg7 (c : Dev nD) : W3 (F := Ideal) m ρ c (Proc.devRef .tc main_arg7) = (m ((c : Thread nD τ).loc main_arg7)) :=
  (ops0_2_arg7 (W2 m ρ c)).trans (W2_arg7 m ρ c)

/-! ### At the first region's exit: h -/

/-- The region's output array is `hK` of the five arrays its input windows read. -/
theorem W4_v15_of (c : Dev nD) :
    W4 (F := Ideal) m ρ c (Proc.devRef .tc main_v15)
      = Cert.Net.hK (W3 (F := Ideal) m ρ c (Proc.devRef .tc main_v7)) (W3 (F := Ideal) m ρ c (Proc.devRef .tc main_arg0)) (W3 (F := Ideal) m ρ c (Proc.devRef .tc main_v9))
          (W3 (F := Ideal) m ρ c (Proc.devRef .tc main_v14)) (W3 (F := Ideal) m ρ c (Proc.devRef .tc main_v13)) :=
  (W4_arr m ρ c 5).trans (Cert.KernelIdeal.RegVal.h0 (V3 m ρ) c)

theorem W4_v15 (c : Dev nD) :
    W4 (F := Ideal) m ρ c (Proc.devRef .tc main_v15)
      = (Cert.Net.hK (Cert.Net.msg (F := Ideal) (Cert.Net.takeK (F := Ideal) (m ((c : Thread nD τ).loc main_arg0)) (Cert.Net.src (m ((c : Thread nD τ).loc main_arg1)))) (Cert.Net.dst (m ((c : Thread nD τ).loc main_arg1)))) (m ((c : Thread nD τ).loc main_arg0))
        (Cert.Net.mat0 (F := Ideal) (m ((c : Thread nD τ).loc main_arg3))) (Cert.Net.asRow (F := Ideal) (Cert.Net.row0 (F := Ideal) (m ((c : Thread nD τ).loc main_arg4)))) (Cert.Net.mat0 (F := Ideal) (m ((c : Thread nD τ).loc main_arg5)))) := by
  rw [W4_v15_of, W3_v7, W3_arg0, W3_v9, W3_v14, W3_v13]

theorem W4_arg6 (c : Dev nD) : W4 (F := Ideal) m ρ c (Proc.devRef .tc main_arg6) = (m ((c : Thread nD τ).loc main_arg6)) :=
  (W4_of_ne m ρ c main_arg6 (by decide)).trans (W3_arg6 m ρ c)

theorem W4_arg7 (c : Dev nD) : W4 (F := Ideal) m ρ c (Proc.devRef .tc main_arg7) = (m ((c : Thread nD τ).loc main_arg7)) :=
  (W4_of_ne m ρ c main_arg7 (by decide)).trans (W3_arg7 m ρ c)

/-! ### After the column means -/

theorem W5_v18 (c : Dev nD) :
    W5 (F := Ideal) m ρ c (Proc.devRef .tc main_v18) = Cert.Net.meanOf (F := Ideal) (W4 (F := Ideal) m ρ c (Proc.devRef .tc main_v15)) :=
  ops1_v18 (W4 m ρ c)

theorem W5_c (c : Dev nD) : W5 (F := Ideal) m ρ c (Proc.devRef .tc main_c) = constantI S_ 32 0#32 :=
  ops1_c (W4 m ρ c)

theorem W5_v15 (c : Dev nD) : W5 (F := Ideal) m ρ c (Proc.devRef .tc main_v15) = W4 (F := Ideal) m ρ c (Proc.devRef .tc main_v15) :=
  ops1_v15 (W4 m ρ c)

theorem W5_arg6 (c : Dev nD) : W5 (F := Ideal) m ρ c (Proc.devRef .tc main_arg6) = (m ((c : Thread nD τ).loc main_arg6)) :=
  (ops1_arg6 (W4 m ρ c)).trans (W4_arg6 m ρ c)

theorem W5_arg7 (c : Dev nD) : W5 (F := Ideal) m ρ c (Proc.devRef .tc main_arg7) = (m ((c : Thread nD τ).loc main_arg7)) :=
  (ops1_arg7 (W4 m ρ c)).trans (W4_arg7 m ρ c)

/-! ### After the column variances -/

theorem W6_v19 (c : Dev nD) :
    W6 (F := Ideal) m ρ c (Proc.devRef .tc main_v19) = Cert.Net.varOf (F := Ideal) (W4 (F := Ideal) m ρ c (Proc.devRef .tc main_v15)) :=
  (ops1_1_v19 (W5 m ρ c) (W5_c m ρ c)).trans (by rw [W5_v15])

theorem W6_v18 (c : Dev nD) :
    W6 (F := Ideal) m ρ c (Proc.devRef .tc main_v18) = Cert.Net.meanOf (F := Ideal) (W4 (F := Ideal) m ρ c (Proc.devRef .tc main_v15)) :=
  (ops1_1_v18 (W5 m ρ c)).trans (W5_v18 m ρ c)

theorem W6_v15 (c : Dev nD) : W6 (F := Ideal) m ρ c (Proc.devRef .tc main_v15) = W4 (F := Ideal) m ρ c (Proc.devRef .tc main_v15) :=
  (ops1_1_v15 (W5 m ρ c)).trans (W5_v15 m ρ c)

theorem W6_arg6 (c : Dev nD) : W6 (F := Ideal) m ρ c (Proc.devRef .tc main_arg6) = (m ((c : Thread nD τ).loc main_arg6)) :=
  (ops1_1_arg6 (W5 m ρ c)).trans (W5_arg6 m ρ c)

theorem W6_arg7 (c : Dev nD) : W6 (F := Ideal) m ρ c (Proc.devRef .tc main_arg7) = (m ((c : Thread nD τ).loc main_arg7)) :=
  (ops1_1_arg7 (W5 m ρ c)).trans (W5_arg7 m ρ c)

/-! ### At the second region's entry -/

theorem W7_v24 (c : Dev nD) :
    W7 (F := Ideal) m ρ c (Proc.devRef .tc main_v24) = Cert.Net.asRow (F := Ideal) (Cert.Net.meanOf (F := Ideal) (W4 (F := Ideal) m ρ c (Proc.devRef .tc main_v15))) :=
  (ops1_2_v24 (W6 m ρ c)).trans (by rw [W6_v18])

theorem W7_v25 (c : Dev nD) :
    W7 (F := Ideal) m ρ c (Proc.devRef .tc main_v25) = Cert.Net.asRow (F := Ideal) (Cert.Net.varOf (F := Ideal) (W4 (F := Ideal) m ρ c (Proc.devRef .tc main_v15))) :=
  (ops1_2_v25 (W6 m ρ c)).trans (by rw [W6_v19])

theorem W7_v26 (c : Dev nD) :
    W7 (F := Ideal) m ρ c (Proc.devRef .tc main_v26) = Cert.Net.asRow (F := Ideal) (Cert.Net.row0 (F := Ideal) (m ((c : Thread nD τ).loc main_arg6))) :=
  (ops1_2_v26 (W6 m ρ c)).trans (by rw [W6_arg6])

theorem W7_v27 (c : Dev nD) :
    W7 (F := Ideal) m ρ c (Proc.devRef .tc main_v27) = Cert.Net.asRow (F := Ideal) (Cert.Net.row0 (F := Ideal) (m ((c : Thread nD τ).loc main_arg7))) :=
  (ops1_2_v27 (W6 m ρ c)).trans (by rw [W6_arg7])

theorem W7_v15 (c : Dev nD) : W7 (F := Ideal) m ρ c (Proc.devRef .tc main_v15) = W4 (F := Ideal) m ρ c (Proc.devRef .tc main_v15) :=
  (ops1_2_v15 (W6 m ρ c)).trans (W6_v15 m ρ c)

/-! ### At the second region's exit: the normalised layer -/

/-- The region's output array is `bnK` of the five arrays its input windows read. -/
theorem W8_v28_of (c : Dev nD) :
    W8 (F := Ideal) m ρ c (Proc.devRef .tc main_v28)
      = Cert.Net.bnK (W7 (F := Ideal) m ρ c (Proc.devRef .tc main_v15)) (W7 (F := Ideal) m ρ c (Proc.devRef .tc main_v24)) (W7 (F := Ideal) m ρ c (Proc.devRef .tc main_v25))
          (W7 (F := Ideal) m ρ c (Proc.devRef .tc main_v26)) (W7 (F := Ideal) m ρ c (Proc.devRef .tc main_v27)) :=
  (W8_arr m ρ c 5).trans (Cert.KernelIdeal.RegVal.bn1 (V7 m ρ) c)

end Walk

end L0

open L0

variable (m : (ℓ : Loc nD τ sig) → Buf (Elt Ideal) ℓ) (ρ : Dev nD → PrngReg)

/-- Layer 0: the first normalised layer's array, as region 1 leaves it, is `layerK` of the launch arguments. -/
theorem x1_eq (c : Dev nD) :
    V8 (F := Ideal) m ρ c main_v28
      = Cert.Net.layerK (m ((c : Thread nD τ).loc main_arg0)) (Cert.Net.src (m ((c : Thread nD τ).loc main_arg1))) (Cert.Net.dst (m ((c : Thread nD τ).loc main_arg1)))
        (Cert.Net.mat0 (m ((c : Thread nD τ).loc main_arg3))) (Cert.Net.row0 (m ((c : Thread nD τ).loc main_arg4))) (Cert.Net.mat0 (m ((c : Thread nD τ).loc main_arg5)))
        (Cert.Net.row0 (m ((c : Thread nD τ).loc main_arg6))) (Cert.Net.row0 (m ((c : Thread nD τ).loc main_arg7))) := by
  show W8 (F := Ideal) m ρ c (Proc.devRef .tc main_v28) = _
  rw [W8_v28_of, W7_v15, W7_v24, W7_v25, W7_v26, W7_v27, W4_v15]
  rfl

end Cert.KernelIdeal.Walk

end
-- ==== Proof.RegH2.lean ====
import proofs.«419033_j51049981280318_2_alg».proof.Proof.Gen.KernelIdeal.Frame
import proofs.«419033_j51049981280318_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

/-! ## One entry of a block product

The block product contracts the left block's second axis with the right matrix's first. Its operand indices at result
entry (p, q) and contraction position k are (p, k) on the left and (k, q) on the right. -/

theorem h2_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem h2_lhs_mid (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem h2_rhs_mid (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem h2_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block product into the zero block, at entry (p, q): the 64-term sum of row p of the left block against column q
    of the right matrix. -/
theorem h2_prod_at (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k := funext fun a => Fin.ext (by
    match a with
    | ⟨0, _⟩ => exact h2_lhs_row _ _
    | ⟨1, _⟩ => exact (h2_lhs_mid _ _).trans hk)
  have er : dot_S10000x64_S64x64_S10000x64_1_0_0_1_n_n.rhsIdx (ix2 p q)
      ((contrEquiv1 dot_S10000x64_S64x64_S10000x64_1_0_0_1_n_n 64 rfl rfl).symm k) = ix2 k q := funext fun a => Fin.ext (by
    match a with
    | ⟨0, _⟩ => exact (h2_rhs_mid _ _).trans hk
    | ⟨1, _⟩ => exact h2_rhs_col _ _)
  rw [el, er]

/-! ## One entry of the stored block -/

/-- The block the body stores, at entry (p, q): the two products' entries added, then entry q of the bias row. The
    roundings of the four operands to the narrow format are the identity on the extended reals, and the casts to the
    same shape are the identity. -/
theorem h2_pay_at (ms x : FVec Ideal S10000x64 .f32) (Wrel Wroot : FVec Ideal S64x64 .f32) (b : FVec Ideal S1x64 .f32)
    (p : Fin 10000) (q : Fin 64) :
    Gen.k2_pay1 ms x Wrel Wroot b (ix2 p q)
      = ((∑ k : Fin 64, ms (ix2 p k) * Wrel (ix2 k q)) + (∑ k : Fin 64, x (ix2 p k) * Wroot (ix2 k q)))
          + b (ix2 (0 : Fin 1) q) := by
  unfold Gen.k2_pay1
  simp only [shapeCast_self]
  refine (addf_apply _ _ _).trans ?_
  refine congrArg₂ (· + ·) ((addf_apply _ _ _).trans (congrArg₂ (· + ·) ?_ ?_)) ?_
  · exact h2_prod_at _ _ p q
  · exact h2_prod_at _ _ p q
  · exact broadcastTo_1b_ab_apply _ _ p q

/-- When the five blocks are read off five arrays — row p of each big block is row n of its array, the small blocks
    are their arrays — entry (p, q) of the stored block is entry (n, q) of `hK` of the arrays. -/
theorem h2_block_at (x0 x1 : FVec Ideal S10000x64 .f32) (x2 x4 : FVec Ideal S64x64 .f32) (x3 : FVec Ideal S1x64 .f32)
    (A0 A1 : FVec Ideal S100000x64 .f32) (A2 A4 : FVec Ideal S64x64 .f32) (A3 : FVec Ideal S1x64 .f32)
    (p : Fin 10000) (q : Fin 64) (n : Fin 100000)
    (e0 : ∀ k : Fin 64, x0 (ix2 p k) = A0 (ix2 n k)) (e1 : ∀ k : Fin 64, x1 (ix2 p k) = A1 (ix2 n k))
    (e2 : ∀ k : Fin 64, x2 (ix2 k q) = A2 (ix2 k q)) (e4 : ∀ k : Fin 64, x4 (ix2 k q) = A4 (ix2 k q))
    (e3 : x3 (ix2 (0 : Fin 1) q) = A3 (ix2 (0 : Fin 1) q)) :
    Gen.k2_pay1 x0 x1 x2 x4 x3 (ix2 p q) = Cert.Net.hK A0 A1 A2 A3 A4 (ix2 n q) := by
  rw [h2_pay_at]
  show _ = ((∑ k : Fin 64, A0 (ix2 n k) * A2 (ix2 k q)) + (∑ k : Fin 64, A1 (ix2 n k) * A4 (ix2 k q)))
      + A3 (ix2 (0 : Fin 1) q)
  simp only [e0, e1, e2, e4, e3]

/-! ## From the blocks to the array -/

variable (V : (c : Dev nD) → (b : Ref sig .tc) → Buf (Elt Ideal) ((c : Thread nD τ).loc b))

theorem h2_hz : (![0, 0] : Fin 2 → Nat) = fun _ => 0 := funext fun a => by fin_cases a <;> rfl

/-- The index maps over the grid: at point t the three big windows are on row block t, column block 0; the three small
    windows are on their one block. -/
theorem h2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the first big window's block at point t is row 10000 t + p of its array. -/
theorem h2_rows_0 (c : Dev nD) (t : Fin cfg2.N) (p : Fin 10000) (k : Fin 64) (n : Fin 100000)
    (hn : n.val = 10000 * t.val + p.val) :
    (iblk2 V c 0 t : FVec Ideal S10000x64 .f32) (ix2 p k)
      = (V c (Pipeline.arrRef spec2 0) : FVec Ideal S100000x64 .f32) (ix2 n k) := by
  obtain ⟨i00, i01, -⟩ := h2_idx t
  show V c (Pipeline.arrRef spec2 0) (((cfg2.win 0).blk t).view.emb (ix2 p k)) = _
  refine congrArg _ (funext fun a => Fin.ext ?_)
  match a with
  | ⟨0, _⟩ => show win2_0.index t (0 : Fin 2) * 10000 + 1 * p.val = n.val; omega
  | ⟨1, _⟩ => show win2_0.index t (1 : Fin 2) * 64 + 1 * k.val = k.val; omega

/-- The same for the second big window. -/
theorem h2_rows_1 (c : Dev nD) (t : Fin cfg2.N) (p : Fin 10000) (k : Fin 64) (n : Fin 100000)
    (hn : n.val = 10000 * t.val + p.val) :
    (iblk2 V c 1 t : FVec Ideal S10000x64 .f32) (ix2 p k)
      = (V c (Pipeline.arrRef spec2 1) : FVec Ideal S100000x64 .f32) (ix2 n k) := by
  obtain ⟨-, -, i10, i11, -⟩ := h2_idx t
  show V c (Pipeline.arrRef spec2 1) (((cfg2.win 1).blk t).view.emb (ix2 p k)) = _
  refine congrArg _ (funext fun a => Fin.ext ?_)
  match a with
  | ⟨0, _⟩ => show win2_1.index t (0 : Fin 2) * 10000 + 1 * p.val = n.val; omega
  | ⟨1, _⟩ => show win2_1.index t (1 : Fin 2) * 64 + 1 * k.val = k.val; omega

/-- Each small window's one block is its whole array, at every point. -/
theorem h2_whole_2 (c : Dev nD) (t : Fin cfg2.N) (k q : Fin 64) :
    (iblk2 V c 2 t : FVec Ideal S64x64 .f32) (ix2 k q) = (V c (Pipeline.arrRef spec2 2) : FVec Ideal S64x64 .f32) (ix2 k q) := by
  obtain ⟨-, -, -, -, i20, i21, -⟩ := h2_idx t
  show V c (Pipeline.arrRef spec2 2) (((cfg2.win 2).blk t).view.emb (ix2 k q)) = _
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

theorem h2_whole_3 (c : Dev nD) (t : Fin cfg2.N) (q : Fin 64) :
    (iblk2 V c 3 t : FVec Ideal S1x64 .f32) (ix2 (0 : Fin 1) q)
      = (V c (Pipeline.arrRef spec2 3) : FVec Ideal S1x64 .f32) (ix2 (0 : Fin 1) q) := by
  obtain ⟨-, -, -, -, -, -, i30, i31, -⟩ := h2_idx t
  show V c (Pipeline.arrRef spec2 3) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

theorem h2_whole_4 (c : Dev nD) (t : Fin cfg2.N) (k q : Fin 64) :
    (iblk2 V c 4 t : FVec Ideal S64x64 .f32) (ix2 k q) = (V c (Pipeline.arrRef spec2 4) : FVec Ideal S64x64 .f32) (ix2 k q) := by
  obtain ⟨-, -, -, -, -, -, -, -, i40, i41, -⟩ := h2_idx t
  show V c (Pipeline.arrRef spec2 4) (((cfg2.win 4).blk t).view.emb (ix2 k q)) = _
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

/-- What the body leaves for point t's write-back: the stored block of the five input blocks at t (its one store and its
    five loads each go through the whole buffer). -/
theorem h2_left (c : Dev nD) (t : Fin cfg2.N) :
    (dat2 (F := Ideal) V c).flushed 5 t
      = (cfg2.win 5).cut (grid2.coords t)
          (Gen.k2_pay1 (iblk2 V c 0 t) (iblk2 V c 1 t) (iblk2 V c 2 t) (iblk2 V c 4 t) (iblk2 V c 3 t)) := by
  show (cfg2.win 5).cut (grid2.coords t) ((dat2 V c).after 5 t) = _
  rw [after2_5]
  unfold Gen.out2_5
  rw [View.canon_unit_zero h2_hz]
  simp only [View.ld_unit_zero (S := S10000x64) h2_hz, View.ld_unit_zero (S := S64x64) h2_hz,
    View.ld_unit_zero (S := S1x64) h2_hz]

/-- Entry (p, q) of the block stored at point t is entry (10000 t + p, q) of `hK` of the five arrays as the region
    finds them. -/
theorem h2_entry (c : Dev nD) (t : Fin cfg2.N) (p : Fin 10000) (q : Fin 64) (n : Fin 100000)
    (hn : n.val = 10000 * t.val + p.val) :
    Gen.k2_pay1 (iblk2 V c 0 t) (iblk2 V c 1 t) (iblk2 V c 2 t) (iblk2 V c 4 t) (iblk2 V c 3 t) (ix2 p q)
      = Cert.Net.hK (V c (Pipeline.arrRef spec2 0)) (V c (Pipeline.arrRef spec2 1)) (V c (Pipeline.arrRef spec2 2))
          (V c (Pipeline.arrRef spec2 3)) (V c (Pipeline.arrRef spec2 4)) (ix2 n q) :=
  h2_block_at (iblk2 V c 0 t) (iblk2 V c 1 t) (iblk2 V c 2 t) (iblk2 V c 4 t) (iblk2 V c 3 t)
    (V c (Pipeline.arrRef spec2 0)) (V c (Pipeline.arrRef spec2 1)) (V c (Pipeline.arrRef spec2 2))
    (V c (Pipeline.arrRef spec2 4)) (V c (Pipeline.arrRef spec2 3)) p q n
    (fun k => h2_rows_0 V c t p k n hn) (fun k => h2_rows_1 V c t p k n hn)
    (fun k => h2_whole_2 V c t k q) (fun k => h2_whole_4 V c t k q) (h2_whole_3 V c t q)

/-- The coordinates of an entry of the output window's block lie below the block's extents. -/
theorem h2_lt (t : Fin cfg2.N) (j : ((cfg2.win 5).xblock (grid2.coords t)).Idx) :
    (j 0).val < 10000 ∧ (j 1).val < 64 ∧ 10000 * t.val + (j 0).val < 100000 := by
  have hN : cfg2.N = 10 := N_2
  have ht : t.val < 10 := hN ▸ t.isLt
  have hj0 : (j 0).val < 10000 := (j 0).isLt
  have hj1 : (j 1).val < 64 := (j 1).isLt
  exact ⟨hj0, hj1, by omega⟩

/-- The write-back moves the whole block: any block P, cut to the part moved, reads P at the same entry. -/
theorem h2_cut_at (P : FVec Ideal S10000x64 .f32) (t : Fin cfg2.N) (j : ((cfg2.win 5).xblock (grid2.coords t)).Idx) :
    (cfg2.win 5).cut (grid2.coords t) P j
      = P (ix2 (⟨(j 0).val, (h2_lt t j).1⟩ : Fin 10000) (⟨(j 1).val, (h2_lt t j).2.1⟩ : Fin 64)) := by
  show P ((cfg2.win 5).xinj (grid2.coords t) j) = _
  refine congrArg P (funext fun a => Fin.ext ?_)
  match a with
  | ⟨0, _⟩ => rfl
  | ⟨1, _⟩ => rfl

/-- Any array G read through point t's block of the output window: entry (p, q) of the block is entry (10000 t + p, q)
    of G. -/
theorem h2_read_at (G : FVec Ideal S100000x64 .f32) (t : Fin cfg2.N)
    (j : ((cfg2.win 5).xblock (grid2.coords t)).Idx) :
    ((cfg2.win 5).blk t).view.read (Elt Ideal) G j
      = G (ix2 (⟨10000 * t.val + (j 0).val, (h2_lt t j).2.2⟩ : Fin 100000) (⟨(j 1).val, (h2_lt t j).2.1⟩ : Fin 64)) := by
  obtain ⟨-, -, -, -, -, -, -, -, -, -, i50, i51⟩ := h2_idx t
  show G (((cfg2.win 5).blk t).view.emb j) = _
  refine congrArg G (funext fun a => Fin.ext ?_)
  match a with
  | ⟨0, _⟩ => show win2_5.index t (0 : Fin 2) * 10000 + 1 * (j 0).val = 10000 * t.val + (j 0).val; omega
  | ⟨1, _⟩ => show win2_5.index t (1 : Fin 2) * 64 + 1 * (j 1).val = (j 1).val; omega

/-- What point t writes back is block t of `hK` of the five arrays as the region finds them. -/
theorem h2_flushed (c : Dev nD) (t : Fin cfg2.N) :
    (dat2 (F := Ideal) V c).flushed 5 t
      = ((cfg2.win 5).blk t).view.read (Elt Ideal)
          (Cert.Net.hK (V c (Pipeline.arrRef spec2 0)) (V c (Pipeline.arrRef spec2 1)) (V c (Pipeline.arrRef spec2 2))
            (V c (Pipeline.arrRef spec2 3)) (V c (Pipeline.arrRef spec2 4))) := by
  rw [h2_left]
  funext j
  refine (h2_cut_at _ t j).trans ?_
  refine Eq.trans ?_ (h2_read_at _ t j).symm
  exact h2_entry V c t _ _ _ rfl

/-- An entry of the array lies in point t's block iff each coordinate lies in the block's range on its axis. -/
theorem h2_mem_blk (t : Fin cfg2.N) (i : S100000x64.Idx) :
    i ∈ ((cfg2.win 5).blk t).view.set
      ↔ ∀ a : Fin 2, win2_5.index t a * S10000x64.size a ≤ (i a).val
          ∧ (i a).val < win2_5.index t a * S10000x64.size a + S10000x64.size a := by
  show i ∈ ((View.whole (Pipeline.arrRef spec2 5)).slice (win2_5.rect t)).set ↔ _
  rw [View.set_slice_whole, Rect.mem_set_unit]
  exact Iff.rfl

/-- Row r of the array lies in the block of point r / 10000: the ten blocks tile the rows. -/
theorem h2_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, i50, i51⟩ := h2_idx t
  refine ⟨t, flush2_5 t, ?_⟩
  rw [h2_mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- Region 2 forms h = msg · W_rel + x · W_root + b one block of 10000 rows at a time; the ten blocks tile the N rows,
    so the array it leaves is `hK` of the arrays it found, entry by entry. -/
theorem h2 (c : Dev nD) :
    (dat2 (F := Ideal) V c).arrAt 5 cfg2.N
      = Cert.Net.hK (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => h2_flushed V c t) h2_cover

end Cert.KernelIdeal.RegVal

end
-- ==== Proof.RegBN3.lean ====
import proofs.«419033_j51049981280318_2_alg».proof.Proof.Gen.KernelIdeal.Frame
import proofs.«419033_j51049981280318_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The body's arithmetic at one entry of a block -/

/-- A 1 × 64 row laid along the 10000 rows of a block reads, at (p, q), the row's entry q. -/
theorem bn3_row {α : Type} (v : S1x64.Idx → α) (p : Fin 10000) (q : Fin 64) :
    broadcastTo S10000x64 v broadcasts_S1x64_S10000x64 (ix2 p q) = v (ix2 (0 : Fin 1) q) := by
  refine broadcastTo_apply v broadcasts_S1x64_S10000x64 (ix2 p q) (ix2 (0 : Fin 1) q) fun a => ?_
  match a with
  | ⟨0, _⟩ => rfl
  | ⟨1, _⟩ => rfl

/-- Entry (p, q) of what the body stores: the block's entry, centred by the mean row, scaled by the reciprocal root of
    the variance row plus ε and by the γ row, shifted by the β row, and cut off below at zero. -/
theorem bn3_pay (h : Vec Ideal S10000x64 .f32) (var mean g b : Vec Ideal S1x64 .f32) (p : Fin 10000) (q : Fin 64) :
    k3_pay1 h var mean g b (ix2 p q)
      = max ((((h (ix2 p q) - mean (ix2 (0 : Fin 1) q))
          * Ideal.rsqrt (var (ix2 (0 : Fin 1) q) + Ideal.ofBits .f32 0x3727C5AC#32)) * g (ix2 (0 : Fin 1) q))
        + b (ix2 (0 : Fin 1) q)) (Ideal.ofBits .f32 0x00000000#32) := by
  unfold k3_pay1
  simp only [shapeCast_self]
  rw [maximumf_apply, addf_apply, mulf_apply, mulf_apply, subf_apply, broadcast_apply,
    bn3_row mean, bn3_row g, bn3_row b, bn3_row (rsqrt _)]
  rfl

/-- The same at any entry j of the block, against the entry i of the whole array that j's row and column name: if the
    block's entry j is the array's entry i, the four rows are the four small arrays, and i has j's column, then what the
    body stores at j is the normalised, rectified layer at i. -/
theorem bn3_point (A0 : Vec Ideal S100000x64 .f32) (A1 A2 A3 A4 : Vec Ideal S1x64 .f32)
    (x0 : Vec Ideal S10000x64 .f32) (x1 x2 x3 x4 : Vec Ideal S1x64 .f32) (j : S10000x64.Idx) (i : S100000x64.Idx)
    (hcol : (i 1).val = (j 1).val) (h0 : x0 j = A0 i) (h1 : x1 = A1) (h2 : x2 = A2) (h3 : x3 = A3) (h4 : x4 = A4) :
    k3_pay1 x0 x2 x1 x3 x4 j = Cert.Net.bnK A0 A1 A2 A3 A4 i := by
  subst h1 h2 h3 h4
  obtain ⟨p, q, rfl⟩ : ∃ (p : Fin 10000) (q : Fin 64), j = ix2 p q := ⟨j 0, j 1, eq_ix2 j⟩
  have hq : i 1 = q := Fin.ext hcol
  rw [bn3_pay, h0]
  unfold Cert.Net.bnK
  rw [hq]

/-! ## What one grid point writes back -/

/-- The zero offsets of a load or store through a whole staging buffer, in the two spellings met. -/
theorem bn3_hz : (![0, 0] : Fin 2 → Nat) = fun _ => 0 := funext fun a => by fin_cases a <;> rfl

/-- The windows' index maps over the grid: the two big windows' block index at point t is (t, 0), the four small
    windows' is (0, 0). -/
theorem bn3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The mean row's window has one block, the whole 1 × 64 array, at every grid point. -/
theorem bn3_small1 (c : Dev nD) (t : Fin cfg3.N) :
    (iblk3 V c 1 t : Vec Ideal S1x64 .f32) = (V c (Pipeline.arrRef spec3 1) : Vec Ideal S1x64 .f32) := by
  obtain ⟨e00, e01, e10, e11, e20, e21, e30, e31, e40, e41, e50, e51⟩ := bn3_idx t
  funext y
  unfold iblk3
  rw [View.read_apply]
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 1 + 1 * (y 0).val = (y 0).val; rw [e10]; omega
  | ⟨1, _⟩ => show win3_1.index t (1 : Fin 2) * 64 + 1 * (y 1).val = (y 1).val; rw [e11]; omega

/-- The variance row's window has one block, the whole 1 × 64 array, at every grid point. -/
theorem bn3_small2 (c : Dev nD) (t : Fin cfg3.N) :
    (iblk3 V c 2 t : Vec Ideal S1x64 .f32) = (V c (Pipeline.arrRef spec3 2) : Vec Ideal S1x64 .f32) := by
  obtain ⟨e00, e01, e10, e11, e20, e21, e30, e31, e40, e41, e50, e51⟩ := bn3_idx t
  funext y
  unfold iblk3
  rw [View.read_apply]
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; rw [e20]; omega
  | ⟨1, _⟩ => show win3_2.index t (1 : Fin 2) * 64 + 1 * (y 1).val = (y 1).val; rw [e21]; omega

/-- The γ row's window has one block, the whole 1 × 64 array, at every grid point. -/
theorem bn3_small3 (c : Dev nD) (t : Fin cfg3.N) :
    (iblk3 V c 3 t : Vec Ideal S1x64 .f32) = (V c (Pipeline.arrRef spec3 3) : Vec Ideal S1x64 .f32) := by
  obtain ⟨e00, e01, e10, e11, e20, e21, e30, e31, e40, e41, e50, e51⟩ := bn3_idx t
  funext y
  unfold iblk3
  rw [View.read_apply]
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; rw [e30]; omega
  | ⟨1, _⟩ => show win3_3.index t (1 : Fin 2) * 64 + 1 * (y 1).val = (y 1).val; rw [e31]; omega

/-- The β row's window has one block, the whole 1 × 64 array, at every grid point. -/
theorem bn3_small4 (c : Dev nD) (t : Fin cfg3.N) :
    (iblk3 V c 4 t : Vec Ideal S1x64 .f32) = (V c (Pipeline.arrRef spec3 4) : Vec Ideal S1x64 .f32) := by
  obtain ⟨e00, e01, e10, e11, e20, e21, e30, e31, e40, e41, e50, e51⟩ := bn3_idx t
  funext y
  unfold iblk3
  rw [View.read_apply]
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; rw [e40]; omega
  | ⟨1, _⟩ => show win3_4.index t (1 : Fin 2) * 64 + 1 * (y 1).val = (y 1).val; rw [e41]; omega

/-- The big input window's block at point t is rows 10000·t … 10000·t + 9999 of its array: its entry j is the array's
    entry i whenever i's row is 10000·t plus j's and i's column is j's. -/
theorem bn3_big (c : Dev nD) (t : Fin cfg3.N) (j : S10000x64.Idx) (i : S100000x64.Idx)
    (hrow : (i 0).val = 10000 * t.val + (j 0).val) (hcol : (i 1).val = (j 1).val) :
    (iblk3 V c 0 t : Vec Ideal S10000x64 .f32) j = (V c (Pipeline.arrRef spec3 0) : Vec Ideal S100000x64 .f32) i := by
  obtain ⟨e00, e01, e10, e11, e20, e21, e30, e31, e40, e41, e50, e51⟩ := bn3_idx t
  unfold iblk3
  rw [View.read_apply]
  show V c (Pipeline.arrRef spec3 0) (((cfg3.win 0).blk t).view.emb j) = V c (Pipeline.arrRef spec3 0) i
  refine congrArg _ (funext fun a => Fin.ext ?_)
  match a with
  | ⟨0, _⟩ => show win3_0.index t (0 : Fin 2) * 10000 + 1 * (j 0).val = (i 0).val; rw [e00, hrow]; omega
  | ⟨1, _⟩ => show win3_0.index t (1 : Fin 2) * 64 + 1 * (j 1).val = (i 1).val; rw [e01, hcol]; omega

/-- Entry j of what point t's body stores is the normalised, rectified layer at the array entry i in row 10000·t plus
    j's row and in j's column. -/
theorem bn3_at (c : Dev nD) (t : Fin cfg3.N) (j : S10000x64.Idx) (i : S100000x64.Idx)
    (hrow : (i 0).val = 10000 * t.val + (j 0).val) (hcol : (i 1).val = (j 1).val) :
    k3_pay1 (iblk3 V c 0 t) (iblk3 V c 2 t) (iblk3 V c 1 t) (iblk3 V c 3 t) (iblk3 V c 4 t) j
      = Cert.Net.bnK (V c (Pipeline.arrRef spec3 0)) (V c (Pipeline.arrRef spec3 1)) (V c (Pipeline.arrRef spec3 2))
          (V c (Pipeline.arrRef spec3 3)) (V c (Pipeline.arrRef spec3 4)) i :=
  bn3_point (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) j i hcol
    (bn3_big V c t j i hrow hcol) (bn3_small1 V c t) (bn3_small2 V c t) (bn3_small3 V c t) (bn3_small4 V c t)

/-- What point t writes back is block t of the normalised, rectified layer of the arrays the region found. -/
theorem bn3_flushed (c : Dev nD) (t : Fin cfg3.N) :
    (dat3 (F := Ideal) V c).flushed 5 t
      = ((cfg3.win 5).blk t).view.read (Elt Ideal)
          (Cert.Net.bnK (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 V c).after 5 t) = _
  rw [after3_5]
  unfold out3_5
  rw [View.canon_unit_zero bn3_hz]
  simp only [View.ld_unit_zero (S := S10000x64) bn3_hz, View.ld_unit_zero (S := S1x64) bn3_hz]
  obtain ⟨e00, e01, e10, e11, e20, e21, e30, e31, e40, e41, e50, e51⟩ := bn3_idx t
  funext j
  rw [View.read_apply]
  show k3_pay1 (iblk3 V c 0 t) (iblk3 V c 2 t) (iblk3 V c 1 t) (iblk3 V c 3 t) (iblk3 V c 4 t)
        ((cfg3.win 5).xinj (grid3.coords t) j)
      = Cert.Net.bnK (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb j)
  refine bn3_at V c t _ _ ?_ ?_
  · show win3_5.index t (0 : Fin 2) * 10000 + 1 * (j 0).val = 10000 * t.val + (j 0).val
    rw [e50]; omega
  · show win3_5.index t (1 : Fin 2) * 64 + 1 * (j 1).val = (j 1).val
    rw [e51]; omega

/-- Region 3 normalises and rectifies one block of 10000 rows at a time; the ten blocks tile the N rows, so the array
    it leaves is `bnK` of the arrays it found, entry by entry. -/
theorem bn3 (c : Dev nD) :
    (dat3 (F := Ideal) V c).arrAt 5 cfg3.N
      = Cert.Net.bnK (V c (Pipeline.arrRef spec3 0)) (V c (Pipeline.arrRef spec3 1)) (V c (Pipeline.arrRef spec3 2))
          (V c (Pipeline.arrRef spec3 3)) (V c (Pipeline.arrRef spec3 4)) := by
  refine (dat3 (F := Ideal) V c).arrAt_eq_of_cover 5 _ (fun t _ => bn3_flushed V c t) fun i => ?_
  have h0 : (i 0).val < 100000 := (i 0).isLt
  have h1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, -, -, -, -, e50, e51⟩ := bn3_idx t
  refine ⟨t, flush3_5 t, ?_⟩
  show i ∈ ((View.whole (Pipeline.arrRef spec3 5)).slice (win3_5.rect t)).set
  rw [View.set_slice_whole, Rect.mem_set_unit]
  intro a
  match a with
  | ⟨0, _⟩ =>
    show win3_5.index t (0 : Fin 2) * 10000 ≤ (i 0).val ∧ (i 0).val < win3_5.index t (0 : Fin 2) * 10000 + 10000
    rw [e50]; omega
  | ⟨1, _⟩ =>
    show win3_5.index t (1 : Fin 2) * 64 ≤ (i 1).val ∧ (i 1).val < win3_5.index t (1 : Fin 2) * 64 + 64
    rw [e51]; omega

end Cert.KernelIdeal.RegVal

end
-- ==== Proof.KWalk1.lean ====
import proofs.«419033_j51049981280318_2_alg».proof.Proof.Gen.KernelIdeal.Frame
import proofs.«419033_j51049981280318_2_alg».proof.Proof.Spec
import proofs.«419033_j51049981280318_2_alg».proof.Proof.RegH2
import proofs.«419033_j51049981280318_2_alg».proof.Proof.RegBN3
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! # Layer 1, from region 1's exit to region 3's exit

The buffers' contents at a boundary are a fold of the operations run so far. The layer reads the previous layer's
array, the two rows of the edge list and five parameter arrays; everything else it reads it has written itself. The
walk below evaluates the fold at the few buffers the layer needs: the gather, the scatter-add, the parameter slices,
region 2 (h), the column mean and variance, their rows, region 3 (the normalised, rectified layer). -/

namespace L1

/-! ## Two general facts -/

/-- Running two lists of operations one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A value stored at a typed reference's buffer and read back at the reference's type is the value. -/
theorem ofBuf_toBuf {Val : EltTy → Type} {T : BufTy} (x : StableHlo.TRef sig T) (v : T.Contents Val) :
    x.ofBuf (x.toBuf v) = v := by
  obtain ⟨r, h, h2, h3⟩ := x
  subst h
  rfl

/-- What a valuation holds at a typed reference's buffer, read at the tensor type the reference carries. -/
abbrev rd {T : BufTy} (x : StableHlo.TRef sig T) (V : Valuation τ sig (Elt Ideal)) : T.Contents (Elt Ideal) :=
  x.ofBuf (V (Proc.devRef .tc x.ref))

/-! ## The gather's twenty-three operations, in three steps

The first eight operations wrap the source indices into a column of start indices; the next ten test the wrapped
indices against [0, N - 1]; the last five gather the rows and select between them and the fill pattern. Each step is
stated from ANY valuation, so that the step before it stays a variable and no term grows. -/

abbrev x1 : StableHlo.TRef sig ⟨S1250000, .i32⟩ := .of main_v1
abbrev x28 : StableHlo.TRef sig ⟨S100000x64, .f32⟩ := .of main_v28
abbrev x29 : StableHlo.TRef sig ⟨S1250000x64, .f32⟩ := .of main_v29
abbrev y5 : StableHlo.TRef sig ⟨S1250000x1, .i32⟩ := .of main_call2_v5
abbrev y12 : StableHlo.TRef sig ⟨S1250000, .i1⟩ := .of main_call2_v12

abbrev take2a : List (HloOp τ sig (Elt Ideal)) := (hostOps2 (F := Ideal)).take 8
abbrev take2b : List (HloOp τ sig (Elt Ideal)) := ((hostOps2 (F := Ideal)).drop 8).take 10
abbrev take2c : List (HloOp τ sig (Elt Ideal)) := ((hostOps2 (F := Ideal)).drop 8).drop 10

/-- The gather's operations are the three steps in order. -/
theorem take2_split : hostOps2 (F := Ideal) = take2a ++ (take2b ++ take2c) := by
  rw [take2b, take2c, List.take_append_drop, take2a, List.take_append_drop]

/-- After the first step the column of start indices is the wrapped source indices. -/
theorem take2a_v5 (V : Valuation τ sig (Elt Ideal)) :
    rd y5 (StableHlo.after take2a V) = Cert.Net.wrapCol (rd x1 V) := by
  simp only [rd, take2a, hostOps2, List.take]
  after_results_simp
  simp only [ofBuf_toBuf]
  rfl

/-- The first step leaves the table of rows as it was. -/
theorem take2a_v28 (V : Valuation τ sig (Elt Ideal)) :
    rd x28 (StableHlo.after take2a V) = rd x28 V := by
  simp only [rd, take2a, hostOps2, List.take]
  after_results_simp

/-- After the second step the mask row says, edge by edge, whether the wrapped index lies in [0, N - 1]. -/
theorem take2b_v12 (V : Valuation τ sig (Elt Ideal)) :
    rd y12 (StableHlo.after take2b V)
      = Host.reduce IntOp.andi
      (andi (cmpi .sge (rd y5 V) (broadcastInDim S1250000x1 ![] bcast_S_S1250000x1 (constantI S_ 32 0#32)))
        (cmpi .sle (rd y5 V) (broadcastInDim S1250000x1 ![0, 1] bcast_S1x1_S1250000x1_0_1
          (broadcastInDim S1x1 ![1] bcast_S1_S1x1_1 (constantI S1 32 99999#32)))))
      (constantI S_ 1 1#1) reducesTo_S1250000x1_S1250000_d1 h_S_ := by
  simp only [rd, take2b, hostOps2, List.drop, List.take]
  after_results_simp
  simp only [ofBuf_toBuf]

/-- The second step leaves the start indices as they were. -/
theorem take2b_v5 (V : Valuation τ sig (Elt Ideal)) :
    rd y5 (StableHlo.after take2b V) = rd y5 V := by
  simp only [rd, take2b, hostOps2, List.drop, List.take]
  after_results_simp

/-- The second step leaves the table of rows as it was. -/
theorem take2b_v28 (V : Valuation τ sig (Elt Ideal)) :
    rd x28 (StableHlo.after take2b V) = rd x28 V := by
  simp only [rd, take2b, hostOps2, List.drop, List.take]
  after_results_simp

/-- The third step: the gathered rows where the mask holds, the fill pattern elsewhere. -/
theorem take2c_v29 (V : Valuation τ sig (Elt Ideal)) :
    rd x29 (StableHlo.after take2c V)
      = select (broadcastInDim S1250000x64 ![0] bcast_S1250000_S1250000x64_0 (rd y12 V))
          (Host.gather gather_S100000x64_S1250000x1_S1250000x64_1_0_n_n_0_1_164 (rd x28 V) (rd y5 V))
          (broadcastInDim S1250000x64 ![] bcast_S_S1250000x64 (constant (F := Ideal) S_ .f32 0x7FC00000#32)) := by
  simp only [rd, take2c, hostOps2, List.drop]
  after_results_simp
  simp only [ofBuf_toBuf]

/-- The whole stretch, from any valuation: the kernel's gather of the table at main_v28 by the indices at main_v1. -/
theorem take2_v29 (V : Valuation τ sig (Elt Ideal)) :
    StableHlo.after hostOps2 V (Proc.devRef .tc main_v29)
      = Cert.Net.takeK (F := Ideal) (V (Proc.devRef .tc main_v28)) (V (Proc.devRef .tc main_v1)) := by
  have h := take2c_v29 (StableHlo.after take2b (StableHlo.after take2a V))
  rw [take2b_v12, take2b_v5, take2b_v28, take2a_v5, take2a_v28, ← after_append, ← after_append, ← take2_split] at h
  unfold Cert.Net.takeK Cert.Net.takeR Cert.Net.inBounds
  generalize StableHlo.after hostOps2 V = Z at h ⊢
  exact h

/-! ## The variance's twenty-two operations, in two steps: the centred squares, then the rest -/

abbrev var3a : List (HloOp τ sig (Elt Ideal)) := (hostOps3_1 (F := Ideal)).take 9
abbrev var3b : List (HloOp τ sig (Elt Ideal)) := (hostOps3_1 (F := Ideal)).drop 9

/-- The variance's operations are the two steps in order. -/
theorem var3_split : hostOps3_1 (F := Ideal) = var3a ++ var3b := (List.take_append_drop 9 _).symm

/-- After the first step: the centred squares of the array at main_v40. -/
theorem var3a_v6 (V : Valuation τ sig (Elt Ideal)) :
    StableHlo.after var3a V (Proc.devRef .tc main_call3_v6) = Cert.Net.sqDev (F := Ideal) (V (Proc.devRef .tc main_v40)) := by
  simp only [var3a, hostOps3_1, List.take]
  after_results_simp
  rfl

/-- The first step leaves the ddof buffer as it was. -/
theorem var3a_c5 (V : Valuation τ sig (Elt Ideal)) :
    StableHlo.after var3a V (Proc.devRef .tc main_c_5) = V (Proc.devRef .tc main_c_5) := by
  simp only [var3a, hostOps3_1, List.take]
  after_results_simp

/-- The second step: the column sums of the squares over the divisor N - ddof, guarded by the divisor's sign. -/
theorem var3b_v44 (V : Valuation τ sig (Elt Ideal)) :
    StableHlo.after var3b V (Proc.devRef .tc main_v44)
      = select (broadcastInDim S64 ![] bcast_S_S64 (cmpf .ogt
            (subf (constant (F := Ideal) S_ .f32 0x47C35000#32) (sitofp .f32 (V (Proc.devRef .tc main_c_5))))
            (constant (F := Ideal) S_ .f32 0x00000000#32)))
          (Host.divf (Host.reduceAdd (V (Proc.devRef .tc main_call3_v6)) (constant (F := Ideal) S_ .f32 0x00000000#32) reducesTo_S100000x64_S64_d0 h_S_)
            (broadcastInDim S64 ![] bcast_S_S64
              (subf (constant (F := Ideal) S_ .f32 0x47C35000#32) (sitofp .f32 (V (Proc.devRef .tc main_c_5))))))
          (broadcastInDim S64 ![] bcast_S_S64 (id (constant (F := Ideal) S_ .f32 0x7FC00000#32))) := by
  simp only [var3b, hostOps3_1, List.drop]
  after_results_simp
  rfl

/-- The whole stretch: from a valuation whose ddof buffer holds 0, the variance of the array at main_v40. -/
theorem var3_v44 (V : Valuation τ sig (Elt Ideal)) (hc : V (Proc.devRef .tc main_c_5) = constantI S_ 32 0#32) :
    StableHlo.after hostOps3_1 V (Proc.devRef .tc main_v44) = Cert.Net.varOf (F := Ideal) (V (Proc.devRef .tc main_v40)) := by
  rw [var3_split, after_append, var3b_v44, var3a_v6, var3a_c5, hc]
  rfl

/-! ## The short host stretches, each from any valuation -/

/-- The scatter-add of the gathered rows into their destination nodes. -/
theorem ops21_v32 (V : Valuation τ sig (Elt Ideal)) :
    StableHlo.after hostOps2_1 V (Proc.devRef .tc main_v32)
      = Cert.Net.msg (F := Ideal) (V (Proc.devRef .tc main_v29)) (V (Proc.devRef .tc main_v3)) := by
  after_results_simp
  rfl

/-- Layer 1's slice of the stack W_rel. -/
theorem ops21_v34 (V : Valuation τ sig (Elt Ideal)) :
    StableHlo.after hostOps2_1 V (Proc.devRef .tc main_v34) = Cert.Net.mat1 (F := Ideal) (V (Proc.devRef .tc main_arg3)) := by
  after_results_simp
  rfl

/-- Layer 1's slice of the stack b_rel, as a row. -/
theorem ops21_v39 (V : Valuation τ sig (Elt Ideal)) :
    StableHlo.after hostOps2_1 V (Proc.devRef .tc main_v39)
      = Cert.Net.asRow (F := Ideal) (Cert.Net.row1 (V (Proc.devRef .tc main_arg4))) := by
  after_results_simp
  rfl

/-- Layer 1's slice of the stack W_root. -/
theorem ops21_v38 (V : Valuation τ sig (Elt Ideal)) :
    StableHlo.after hostOps2_1 V (Proc.devRef .tc main_v38) = Cert.Net.mat1 (F := Ideal) (V (Proc.devRef .tc main_arg5)) := by
  after_results_simp
  rfl

/-- The column means of the array at main_v40. -/
theorem ops3_v43 (V : Valuation τ sig (Elt Ideal)) :
    StableHlo.after hostOps3 V (Proc.devRef .tc main_v43) = Cert.Net.meanOf (F := Ideal) (V (Proc.devRef .tc main_v40)) := by
  after_results_simp
  rfl

/-- The column means as a row. -/
theorem ops32_v49 (V : Valuation τ sig (Elt Ideal)) :
    StableHlo.after hostOps3_2 V (Proc.devRef .tc main_v49) = Cert.Net.asRow (F := Ideal) (V (Proc.devRef .tc main_v43)) := by
  after_results_simp
  rfl

/-- The column variances as a row. -/
theorem ops32_v50 (V : Valuation τ sig (Elt Ideal)) :
    StableHlo.after hostOps3_2 V (Proc.devRef .tc main_v50) = Cert.Net.asRow (F := Ideal) (V (Proc.devRef .tc main_v44)) := by
  after_results_simp
  rfl

/-- Layer 1's slice of the stack γ, as a row. -/
theorem ops32_v51 (V : Valuation τ sig (Elt Ideal)) :
    StableHlo.after hostOps3_2 V (Proc.devRef .tc main_v51)
      = Cert.Net.asRow (F := Ideal) (Cert.Net.row1 (V (Proc.devRef .tc main_arg6))) := by
  after_results_simp
  rfl

/-- Layer 1's slice of the stack β, as a row. -/
theorem ops32_v52 (V : Valuation τ sig (Elt Ideal)) :
    StableHlo.after hostOps3_2 V (Proc.devRef .tc main_v52)
      = Cert.Net.asRow (F := Ideal) (Cert.Net.row1 (V (Proc.devRef .tc main_arg7))) := by
  after_results_simp
  rfl

/-! ## Buffers carried unchanged up to the stretch that reads them

A host stretch leaves a buffer none of its operations writes as it was, and so does a region for a buffer that is not
one of its arrays; the fold at such a buffer walks back, boundary by boundary, to where the buffer was written. -/

/-- Rewrite the fold at a buffer back through the host stretches down to the last region's exit (or to the launch). -/
local macro "back_host" : tactic => `(tactic| (show StableHlo.after _ _ _ = _; after_results_simp))

/-- The source row, written by the first four operations of the program, reaches region 1's exit unchanged. -/
theorem W8_v1 (c : Dev nD) : W8 (F := Ideal) m ρ c (Proc.devRef .tc main_v1)
    = Cert.Net.src (m ((c : Thread nD τ).loc main_arg1)) := by
  rw [W8_of_ne m ρ c _ (by decide)]
  back_host
  rw [W4_of_ne m ρ c _ (by decide)]
  back_host
  rfl

/-- The destination row reaches the scatter-add unchanged. -/
theorem W9_v3 (c : Dev nD) : W9 (F := Ideal) m ρ c (Proc.devRef .tc main_v3)
    = Cert.Net.dst (m ((c : Thread nD τ).loc main_arg1)) := by
  back_host
  rw [W8_of_ne m ρ c _ (by decide)]
  back_host
  rw [W4_of_ne m ρ c _ (by decide)]
  back_host
  rfl

/-- The stack W_rel is as launched when layer 1 slices it. -/
theorem W9_arg3 (c : Dev nD) : W9 (F := Ideal) m ρ c (Proc.devRef .tc main_arg3) = m ((c : Thread nD τ).loc main_arg3) := by
  back_host
  rw [W8_of_ne m ρ c _ (by decide)]
  back_host
  rw [W4_of_ne m ρ c _ (by decide)]
  back_host

/-- The stack b_rel is as launched when layer 1 slices it. -/
theorem W9_arg4 (c : Dev nD) : W9 (F := Ideal) m ρ c (Proc.devRef .tc main_arg4) = m ((c : Thread nD τ).loc main_arg4) := by
  back_host
  rw [W8_of_ne m ρ c _ (by decide)]
  back_host
  rw [W4_of_ne m ρ c _ (by decide)]
  back_host

/-- The stack W_root is as launched when layer 1 slices it. -/
theorem W9_arg5 (c : Dev nD) : W9 (F := Ideal) m ρ c (Proc.devRef .tc main_arg5) = m ((c : Thread nD τ).loc main_arg5) := by
  back_host
  rw [W8_of_ne m ρ c _ (by decide)]
  back_host
  rw [W4_of_ne m ρ c _ (by decide)]
  back_host

/-- The stack γ is as launched when layer 1 slices it. -/
theorem W13_arg6 (c : Dev nD) : W13 (F := Ideal) m ρ c (Proc.devRef .tc main_arg6) = m ((c : Thread nD τ).loc main_arg6) := by
  back_host
  rw [W11_of_ne m ρ c _ (by decide)]
  back_host
  rw [W8_of_ne m ρ c _ (by decide)]
  back_host
  rw [W4_of_ne m ρ c _ (by decide)]
  back_host

/-- The stack β is as launched when layer 1 slices it. -/
theorem W13_arg7 (c : Dev nD) : W13 (F := Ideal) m ρ c (Proc.devRef .tc main_arg7) = m ((c : Thread nD τ).loc main_arg7) := by
  back_host
  rw [W11_of_ne m ρ c _ (by decide)]
  back_host
  rw [W8_of_ne m ρ c _ (by decide)]
  back_host
  rw [W4_of_ne m ρ c _ (by decide)]
  back_host

/-- The previous layer's array reaches region 2 as region 1 left it. -/
theorem W10_v28 (c : Dev nD) : W10 (F := Ideal) m ρ c (Proc.devRef .tc main_v28) = W8 (F := Ideal) m ρ c (Proc.devRef .tc main_v28) := by
  back_host

/-- Region 2's output reaches region 3 as region 2 left it. -/
theorem W14_v40 (c : Dev nD) : W14 (F := Ideal) m ρ c (Proc.devRef .tc main_v40) = W11 (F := Ideal) m ρ c (Proc.devRef .tc main_v40) := by
  back_host

/-- The mean's stretch leaves region 2's output as it was. -/
theorem W12_v40 (c : Dev nD) : W12 (F := Ideal) m ρ c (Proc.devRef .tc main_v40) = W11 (F := Ideal) m ρ c (Proc.devRef .tc main_v40) := by
  back_host

/-- The ddof buffer holds 0 when the variance reads it. -/
theorem W12_c5 (c : Dev nD) : W12 (F := Ideal) m ρ c (Proc.devRef .tc main_c_5) = constantI S_ 32 0#32 := by
  back_host

/-- The variance's stretch leaves the column means as they were. -/
theorem W13_v43 (c : Dev nD) : W13 (F := Ideal) m ρ c (Proc.devRef .tc main_v43) = W12 (F := Ideal) m ρ c (Proc.devRef .tc main_v43) := by
  show StableHlo.after hostOps3_1 (W12 m ρ c) _ = _
  generalize W12 (F := Ideal) m ρ c = V
  after_results_simp

/-! ## The layer, boundary by boundary -/

/-- The gathered rows: the kernel's gather of the previous layer's array by the source row. -/
theorem W9_v29 (c : Dev nD) : W9 (F := Ideal) m ρ c (Proc.devRef .tc main_v29)
    = Cert.Net.takeK (F := Ideal) (W8 (F := Ideal) m ρ c (Proc.devRef .tc main_v28)) (Cert.Net.src (m ((c : Thread nD τ).loc main_arg1))) := by
  rw [← W8_v1 m ρ c]
  exact take2_v29 (W8 m ρ c)

/-- The messages: the gathered rows added into their destination nodes. -/
theorem W10_v32 (c : Dev nD) : W10 (F := Ideal) m ρ c (Proc.devRef .tc main_v32)
    = Cert.Net.msg (F := Ideal) (W9 (F := Ideal) m ρ c (Proc.devRef .tc main_v29)) (Cert.Net.dst (m ((c : Thread nD τ).loc main_arg1))) := by
  rw [← W9_v3 m ρ c]
  exact ops21_v32 (W9 m ρ c)

/-- Region 2's W_rel window holds layer 1's matrix. -/
theorem W10_v34 (c : Dev nD) : W10 (F := Ideal) m ρ c (Proc.devRef .tc main_v34)
    = Cert.Net.mat1 (F := Ideal) (m ((c : Thread nD τ).loc main_arg3)) := by
  rw [← W9_arg3 m ρ c]
  exact ops21_v34 (W9 m ρ c)

/-- Region 2's bias window holds layer 1's row. -/
theorem W10_v39 (c : Dev nD) : W10 (F := Ideal) m ρ c (Proc.devRef .tc main_v39)
    = Cert.Net.asRow (F := Ideal) (Cert.Net.row1 (m ((c : Thread nD τ).loc main_arg4))) := by
  rw [← W9_arg4 m ρ c]
  exact ops21_v39 (W9 m ρ c)

/-- Region 2's W_root window holds layer 1's matrix. -/
theorem W10_v38 (c : Dev nD) : W10 (F := Ideal) m ρ c (Proc.devRef .tc main_v38)
    = Cert.Net.mat1 (F := Ideal) (m ((c : Thread nD τ).loc main_arg5)) := by
  rw [← W9_arg5 m ρ c]
  exact ops21_v38 (W9 m ρ c)

/-- Region 2's output is `hK` of its five input arrays as region 2 found them. -/
theorem W11_v40 (c : Dev nD) : W11 (F := Ideal) m ρ c (Proc.devRef .tc main_v40)
    = Cert.Net.hK (W10 (F := Ideal) m ρ c (Proc.devRef .tc main_v32)) (W10 (F := Ideal) m ρ c (Proc.devRef .tc main_v28))
        (W10 (F := Ideal) m ρ c (Proc.devRef .tc main_v34)) (W10 (F := Ideal) m ρ c (Proc.devRef .tc main_v39))
        (W10 (F := Ideal) m ρ c (Proc.devRef .tc main_v38)) :=
  (W11_arr m ρ c 5).trans (Cert.KernelIdeal.RegVal.h2 (V10 (F := Ideal) m ρ) c)

/-- The column means of region 2's output. -/
theorem W12_v43 (c : Dev nD) : W12 (F := Ideal) m ρ c (Proc.devRef .tc main_v43)
    = Cert.Net.meanOf (F := Ideal) (W11 (F := Ideal) m ρ c (Proc.devRef .tc main_v40)) :=
  ops3_v43 (W11 m ρ c)

/-- The column variances of region 2's output. -/
theorem W13_v44 (c : Dev nD) : W13 (F := Ideal) m ρ c (Proc.devRef .tc main_v44)
    = Cert.Net.varOf (F := Ideal) (W11 (F := Ideal) m ρ c (Proc.devRef .tc main_v40)) := by
  rw [← W12_v40 m ρ c]
  exact var3_v44 (W12 m ρ c) (W12_c5 m ρ c)

/-- Region 3's mean window. -/
theorem W14_v49 (c : Dev nD) : W14 (F := Ideal) m ρ c (Proc.devRef .tc main_v49)
    = Cert.Net.asRow (F := Ideal) (Cert.Net.meanOf (F := Ideal) (W11 (F := Ideal) m ρ c (Proc.devRef .tc main_v40))) := by
  rw [← W12_v43 m ρ c, ← W13_v43 m ρ c]
  exact ops32_v49 (W13 m ρ c)

/-- Region 3's variance window. -/
theorem W14_v50 (c : Dev nD) : W14 (F := Ideal) m ρ c (Proc.devRef .tc main_v50)
    = Cert.Net.asRow (F := Ideal) (Cert.Net.varOf (F := Ideal) (W11 (F := Ideal) m ρ c (Proc.devRef .tc main_v40))) := by
  rw [← W13_v44 m ρ c]
  exact ops32_v50 (W13 m ρ c)

/-- Region 3's γ window. -/
theorem W14_v51 (c : Dev nD) : W14 (F := Ideal) m ρ c (Proc.devRef .tc main_v51)
    = Cert.Net.asRow (F := Ideal) (Cert.Net.row1 (m ((c : Thread nD τ).loc main_arg6))) := by
  rw [← W13_arg6 m ρ c]
  exact ops32_v51 (W13 m ρ c)

/-- Region 3's β window. -/
theorem W14_v52 (c : Dev nD) : W14 (F := Ideal) m ρ c (Proc.devRef .tc main_v52)
    = Cert.Net.asRow (F := Ideal) (Cert.Net.row1 (m ((c : Thread nD τ).loc main_arg7))) := by
  rw [← W13_arg7 m ρ c]
  exact ops32_v52 (W13 m ρ c)

/-- Region 3's output is `bnK` of its five input arrays as region 3 found them. -/
theorem W15_v53 (c : Dev nD) : W15 (F := Ideal) m ρ c (Proc.devRef .tc main_v53)
    = Cert.Net.bnK (W14 (F := Ideal) m ρ c (Proc.devRef .tc main_v40)) (W14 (F := Ideal) m ρ c (Proc.devRef .tc main_v49))
        (W14 (F := Ideal) m ρ c (Proc.devRef .tc main_v50)) (W14 (F := Ideal) m ρ c (Proc.devRef .tc main_v51))
        (W14 (F := Ideal) m ρ c (Proc.devRef .tc main_v52)) :=
  (W15_arr m ρ c 5).trans (Cert.KernelIdeal.RegVal.bn3 (V14 (F := Ideal) m ρ) c)

end L1

open L1 in
/-- Layer 1: the second normalised layer's array, as region 3 leaves it, is `layerK` of the first layer's array. -/
theorem x2_eq (c : Dev nD) :
    V15 (F := Ideal) m ρ c main_v53
      = Cert.Net.layerK (V8 (F := Ideal) m ρ c main_v28) (Cert.Net.src (m ((c : Thread nD τ).loc main_arg1))) (Cert.Net.dst (m ((c : Thread nD τ).loc main_arg1)))
        (Cert.Net.mat1 (m ((c : Thread nD τ).loc main_arg3))) (Cert.Net.row1 (m ((c : Thread nD τ).loc main_arg4))) (Cert.Net.mat1 (m ((c : Thread nD τ).loc main_arg5)))
        (Cert.Net.row1 (m ((c : Thread nD τ).loc main_arg6))) (Cert.Net.row1 (m ((c : Thread nD τ).loc main_arg7))) := by
  show W15 (F := Ideal) m ρ c (Proc.devRef .tc main_v53) = _
  rw [W15_v53, W14_v40, W14_v49, W14_v50, W14_v51, W14_v52, W11_v40, W10_v32, W9_v29, W10_v28, W10_v34, W10_v39, W10_v38]
  unfold Cert.Net.layerK
  rfl

end Cert.KernelIdeal.Walk

end
-- ==== Proof.RegH4.lean ====
import proofs.«419033_j51049981280318_2_alg».proof.Proof.Gen.KernelIdeal.Frame
import proofs.«419033_j51049981280318_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

/-! ## One entry of a block product

The block product contracts the left block's second axis with the right matrix's first. Its operand indices at result
entry (p, q) and contraction position k are (p, k) on the left and (k, q) on the right. -/

theorem h4_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem h4_lhs_mid (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem h4_rhs_mid (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem h4_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block product into the zero block, at entry (p, q): the 64-term sum of row p of the left block against column q
    of the right matrix. -/
theorem h4_prod_at (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k := funext fun a => Fin.ext (by
    match a with
    | ⟨0, _⟩ => exact h4_lhs_row _ _
    | ⟨1, _⟩ => exact (h4_lhs_mid _ _).trans hk)
  have er : dot_S10000x64_S64x64_S10000x64_1_0_0_1_n_n.rhsIdx (ix2 p q)
      ((contrEquiv1 dot_S10000x64_S64x64_S10000x64_1_0_0_1_n_n 64 rfl rfl).symm k) = ix2 k q := funext fun a => Fin.ext (by
    match a with
    | ⟨0, _⟩ => exact (h4_rhs_mid _ _).trans hk
    | ⟨1, _⟩ => exact h4_rhs_col _ _)
  rw [el, er]

/-! ## One entry of the stored block -/

/-- The block the body stores, at entry (p, q): the two products' entries added, then entry q of the bias row. The
    roundings of the four operands to the narrow format are the identity on the extended reals, and the casts to the
    same shape are the identity. -/
theorem h4_pay_at (ms x : FVec Ideal S10000x64 .f32) (Wrel Wroot : FVec Ideal S64x64 .f32) (b : FVec Ideal S1x64 .f32)
    (p : Fin 10000) (q : Fin 64) :
    Gen.k4_pay1 ms x Wrel Wroot b (ix2 p q)
      = ((∑ k : Fin 64, ms (ix2 p k) * Wrel (ix2 k q)) + (∑ k : Fin 64, x (ix2 p k) * Wroot (ix2 k q)))
          + b (ix2 (0 : Fin 1) q) := by
  unfold Gen.k4_pay1
  simp only [shapeCast_self]
  refine (addf_apply _ _ _).trans ?_
  refine congrArg₂ (· + ·) ((addf_apply _ _ _).trans (congrArg₂ (· + ·) ?_ ?_)) ?_
  · exact h4_prod_at _ _ p q
  · exact h4_prod_at _ _ p q
  · exact broadcastTo_1b_ab_apply _ _ p q

/-- When the five blocks are read off five arrays — row p of each big block is row n of its array, the small blocks
    are their arrays — entry (p, q) of the stored block is entry (n, q) of `hK` of the arrays. -/
theorem h4_block_at (x0 x1 : FVec Ideal S10000x64 .f32) (x2 x4 : FVec Ideal S64x64 .f32) (x3 : FVec Ideal S1x64 .f32)
    (A0 A1 : FVec Ideal S100000x64 .f32) (A2 A4 : FVec Ideal S64x64 .f32) (A3 : FVec Ideal S1x64 .f32)
    (p : Fin 10000) (q : Fin 64) (n : Fin 100000)
    (e0 : ∀ k : Fin 64, x0 (ix2 p k) = A0 (ix2 n k)) (e1 : ∀ k : Fin 64, x1 (ix2 p k) = A1 (ix2 n k))
    (e2 : ∀ k : Fin 64, x2 (ix2 k q) = A2 (ix2 k q)) (e4 : ∀ k : Fin 64, x4 (ix2 k q) = A4 (ix2 k q))
    (e3 : x3 (ix2 (0 : Fin 1) q) = A3 (ix2 (0 : Fin 1) q)) :
    Gen.k4_pay1 x0 x1 x2 x4 x3 (ix2 p q) = Cert.Net.hK A0 A1 A2 A3 A4 (ix2 n q) := by
  rw [h4_pay_at]
  show _ = ((∑ k : Fin 64, A0 (ix2 n k) * A2 (ix2 k q)) + (∑ k : Fin 64, A1 (ix2 n k) * A4 (ix2 k q)))
      + A3 (ix2 (0 : Fin 1) q)
  simp only [e0, e1, e2, e4, e3]

/-! ## From the blocks to the array -/

variable (V : (c : Dev nD) → (b : Ref sig .tc) → Buf (Elt Ideal) ((c : Thread nD τ).loc b))

theorem h4_hz : (![0, 0] : Fin 2 → Nat) = fun _ => 0 := funext fun a => by fin_cases a <;> rfl

/-- The index maps over the grid: at point t the three big windows are on row block t, column block 0; the three small
    windows are on their one block. -/
theorem h4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of the first big window's block at point t is row 10000 t + p of its array. -/
theorem h4_rows_0 (c : Dev nD) (t : Fin cfg4.N) (p : Fin 10000) (k : Fin 64) (n : Fin 100000)
    (hn : n.val = 10000 * t.val + p.val) :
    (iblk4 V c 0 t : FVec Ideal S10000x64 .f32) (ix2 p k)
      = (V c (Pipeline.arrRef spec4 0) : FVec Ideal S100000x64 .f32) (ix2 n k) := by
  obtain ⟨i00, i01, -⟩ := h4_idx t
  show V c (Pipeline.arrRef spec4 0) (((cfg4.win 0).blk t).view.emb (ix2 p k)) = _
  refine congrArg _ (funext fun a => Fin.ext ?_)
  match a with
  | ⟨0, _⟩ => show win4_0.index t (0 : Fin 2) * 10000 + 1 * p.val = n.val; omega
  | ⟨1, _⟩ => show win4_0.index t (1 : Fin 2) * 64 + 1 * k.val = k.val; omega

/-- The same for the second big window. -/
theorem h4_rows_1 (c : Dev nD) (t : Fin cfg4.N) (p : Fin 10000) (k : Fin 64) (n : Fin 100000)
    (hn : n.val = 10000 * t.val + p.val) :
    (iblk4 V c 1 t : FVec Ideal S10000x64 .f32) (ix2 p k)
      = (V c (Pipeline.arrRef spec4 1) : FVec Ideal S100000x64 .f32) (ix2 n k) := by
  obtain ⟨-, -, i10, i11, -⟩ := h4_idx t
  show V c (Pipeline.arrRef spec4 1) (((cfg4.win 1).blk t).view.emb (ix2 p k)) = _
  refine congrArg _ (funext fun a => Fin.ext ?_)
  match a with
  | ⟨0, _⟩ => show win4_1.index t (0 : Fin 2) * 10000 + 1 * p.val = n.val; omega
  | ⟨1, _⟩ => show win4_1.index t (1 : Fin 2) * 64 + 1 * k.val = k.val; omega

/-- Each small window's one block is its whole array, at every point. -/
theorem h4_whole_2 (c : Dev nD) (t : Fin cfg4.N) (k q : Fin 64) :
    (iblk4 V c 2 t : FVec Ideal S64x64 .f32) (ix2 k q) = (V c (Pipeline.arrRef spec4 2) : FVec Ideal S64x64 .f32) (ix2 k q) := by
  obtain ⟨-, -, -, -, i20, i21, -⟩ := h4_idx t
  show V c (Pipeline.arrRef spec4 2) (((cfg4.win 2).blk t).view.emb (ix2 k q)) = _
  refine congrArg _ (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

theorem h4_whole_3 (c : Dev nD) (t : Fin cfg4.N) (q : Fin 64) :
    (iblk4 V c 3 t : FVec Ideal S1x64 .f32) (ix2 (0 : Fin 1) q)
      = (V c (Pipeline.arrRef spec4 3) : FVec Ideal S1x64 .f32) (ix2 (0 : Fin 1) q) := by
  obtain ⟨-, -, -, -, -, -, i30, i31, -⟩ := h4_idx t
  show V c (Pipeline.arrRef spec4 3) (((cfg4.win 3).blk t).view.emb (ix2 (0 : Fin 1) q)) = _
  refine congrArg _ (funext fun a => Fin.ext ?_)
  match a with
  | ⟨0, _⟩ => show win4_3.index t (0 : Fin 2) * 1 + 1 * 0 = 0; omega
  | ⟨1, _⟩ => show win4_3.index t (1 : Fin 2) * 64 + 1 * q.val = q.val; omega

theorem h4_whole_4 (c : Dev nD) (t : Fin cfg4.N) (k q : Fin 64) :
    (iblk4 V c 4 t : FVec Ideal S64x64 .f32) (ix2 k q) = (V c (Pipeline.arrRef spec4 4) : FVec Ideal S64x64 .f32) (ix2 k q) := by
  obtain ⟨-, -, -, -, -, -, -, -, i40, i41, -⟩ := h4_idx t
  show V c (Pipeline.arrRef spec4 4) (((cfg4.win 4).blk t).view.emb (ix2 k q)) = _
  refine congrArg _ (funext fun a => Fin.ext ?_)
  match a with
  | ⟨0, _⟩ => show win4_4.index t (0 : Fin 2) * 64 + 1 * k.val = k.val; omega
  | ⟨1, _⟩ => show win4_4.index t (1 : Fin 2) * 64 + 1 * q.val = q.val; omega

/-- What the body leaves for point t's write-back: the stored block of the five input blocks at t (its one store and its
    five loads each go through the whole buffer). -/
theorem h4_left (c : Dev nD) (t : Fin cfg4.N) :
    (dat4 (F := Ideal) V c).flushed 5 t
      = (cfg4.win 5).cut (grid4.coords t)
          (Gen.k4_pay1 (iblk4 V c 0 t) (iblk4 V c 1 t) (iblk4 V c 2 t) (iblk4 V c 4 t) (iblk4 V c 3 t)) := by
  show (cfg4.win 5).cut (grid4.coords t) ((dat4 V c).after 5 t) = _
  rw [after4_5]
  unfold Gen.out4_5
  rw [View.canon_unit_zero h4_hz]
  simp only [View.ld_unit_zero (S := S10000x64) h4_hz, View.ld_unit_zero (S := S64x64) h4_hz,
    View.ld_unit_zero (S := S1x64) h4_hz]

/-- Entry (p, q) of the block stored at point t is entry (10000 t + p, q) of `hK` of the five arrays as the region
    finds them. -/
theorem h4_entry (c : Dev nD) (t : Fin cfg4.N) (p : Fin 10000) (q : Fin 64) (n : Fin 100000)
    (hn : n.val = 10000 * t.val + p.val) :
    Gen.k4_pay1 (iblk4 V c 0 t) (iblk4 V c 1 t) (iblk4 V c 2 t) (iblk4 V c 4 t) (iblk4 V c 3 t) (ix2 p q)
      = Cert.Net.hK (V c (Pipeline.arrRef spec4 0)) (V c (Pipeline.arrRef spec4 1)) (V c (Pipeline.arrRef spec4 2))
          (V c (Pipeline.arrRef spec4 3)) (V c (Pipeline.arrRef spec4 4)) (ix2 n q) :=
  h4_block_at (iblk4 V c 0 t) (iblk4 V c 1 t) (iblk4 V c 2 t) (iblk4 V c 4 t) (iblk4 V c 3 t)
    (V c (Pipeline.arrRef spec4 0)) (V c (Pipeline.arrRef spec4 1)) (V c (Pipeline.arrRef spec4 2))
    (V c (Pipeline.arrRef spec4 4)) (V c (Pipeline.arrRef spec4 3)) p q n
    (fun k => h4_rows_0 V c t p k n hn) (fun k => h4_rows_1 V c t p k n hn)
    (fun k => h4_whole_2 V c t k q) (fun k => h4_whole_4 V c t k q) (h4_whole_3 V c t q)

/-- The coordinates of an entry of the output window's block lie below the block's extents. -/
theorem h4_lt (t : Fin cfg4.N) (j : ((cfg4.win 5).xblock (grid4.coords t)).Idx) :
    (j 0).val < 10000 ∧ (j 1).val < 64 ∧ 10000 * t.val + (j 0).val < 100000 := by
  have hN : cfg4.N = 10 := N_4
  have ht : t.val < 10 := hN ▸ t.isLt
  have hj0 : (j 0).val < 10000 := (j 0).isLt
  have hj1 : (j 1).val < 64 := (j 1).isLt
  exact ⟨hj0, hj1, by omega⟩

/-- The write-back moves the whole block: any block P, cut to the part moved, reads P at the same entry. -/
theorem h4_cut_at (P : FVec Ideal S10000x64 .f32) (t : Fin cfg4.N) (j : ((cfg4.win 5).xblock (grid4.coords t)).Idx) :
    (cfg4.win 5).cut (grid4.coords t) P j
      = P (ix2 (⟨(j 0).val, (h4_lt t j).1⟩ : Fin 10000) (⟨(j 1).val, (h4_lt t j).2.1⟩ : Fin 64)) := by
  show P ((cfg4.win 5).xinj (grid4.coords t) j) = _
  refine congrArg P (funext fun a => Fin.ext ?_)
  match a with
  | ⟨0, _⟩ => rfl
  | ⟨1, _⟩ => rfl

/-- Any array G read through point t's block of the output window: entry (p, q) of the block is entry (10000 t + p, q)
    of G. -/
theorem h4_read_at (G : FVec Ideal S100000x64 .f32) (t : Fin cfg4.N)
    (j : ((cfg4.win 5).xblock (grid4.coords t)).Idx) :
    ((cfg4.win 5).blk t).view.read (Elt Ideal) G j
      = G (ix2 (⟨10000 * t.val + (j 0).val, (h4_lt t j).2.2⟩ : Fin 100000) (⟨(j 1).val, (h4_lt t j).2.1⟩ : Fin 64)) := by
  obtain ⟨-, -, -, -, -, -, -, -, -, -, i50, i51⟩ := h4_idx t
  show G (((cfg4.win 5).blk t).view.emb j) = _
  refine congrArg G (funext fun a => Fin.ext ?_)
  match a with
  | ⟨0, _⟩ => show win4_5.index t (0 : Fin 2) * 10000 + 1 * (j 0).val = 10000 * t.val + (j 0).val; omega
  | ⟨1, _⟩ => show win4_5.index t (1 : Fin 2) * 64 + 1 * (j 1).val = (j 1).val; omega

/-- What point t writes back is block t of `hK` of the five arrays as the region finds them. -/
theorem h4_flushed (c : Dev nD) (t : Fin cfg4.N) :
    (dat4 (F := Ideal) V c).flushed 5 t
      = ((cfg4.win 5).blk t).view.read (Elt Ideal)
          (Cert.Net.hK (V c (Pipeline.arrRef spec4 0)) (V c (Pipeline.arrRef spec4 1)) (V c (Pipeline.arrRef spec4 2))
            (V c (Pipeline.arrRef spec4 3)) (V c (Pipeline.arrRef spec4 4))) := by
  rw [h4_left]
  funext j
  refine (h4_cut_at _ t j).trans ?_
  refine Eq.trans ?_ (h4_read_at _ t j).symm
  exact h4_entry V c t _ _ _ rfl

/-- An entry of the array lies in point t's block iff each coordinate lies in the block's range on its axis. -/
theorem h4_mem_blk (t : Fin cfg4.N) (i : S100000x64.Idx) :
    i ∈ ((cfg4.win 5).blk t).view.set
      ↔ ∀ a : Fin 2, win4_5.index t a * S10000x64.size a ≤ (i a).val
          ∧ (i a).val < win4_5.index t a * S10000x64.size a + S10000x64.size a := by
  show i ∈ ((View.whole (Pipeline.arrRef spec4 5)).slice (win4_5.rect t)).set ↔ _
  rw [View.set_slice_whole, Rect.mem_set_unit]
  exact Iff.rfl

/-- Row r of the array lies in the block of point r / 10000: the ten blocks tile the rows. -/
theorem h4_cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, -, -, -, -, -, -, i50, i51⟩ := h4_idx t
  refine ⟨t, flush4_5 t, ?_⟩
  rw [h4_mem_blk]
  intro a
  match a with
  | ⟨0, _⟩ =>
    show win4_5.index t (0 : Fin 2) * 10000 ≤ (i 0).val ∧ (i 0).val < win4_5.index t (0 : Fin 2) * 10000 + 10000
    omega
  | ⟨1, _⟩ =>
    show win4_5.index t (1 : Fin 2) * 64 ≤ (i 1).val ∧ (i 1).val < win4_5.index t (1 : Fin 2) * 64 + 64
    omega

/-- Region 4 forms h = msg · W_rel + x · W_root + b one block of 10000 rows at a time; the ten blocks tile the N rows,
    so the array it leaves is `hK` of the arrays it found, entry by entry. -/
theorem h4 (c : Dev nD) :
    (dat4 (F := Ideal) V c).arrAt 5 cfg4.N
      = Cert.Net.hK (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => h4_flushed V c t) h4_cover

end Cert.KernelIdeal.RegVal

end
-- ==== Proof.RegBN5.lean ====
import proofs.«419033_j51049981280318_2_alg».proof.Proof.Gen.KernelIdeal.Frame
import proofs.«419033_j51049981280318_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The body's arithmetic at one entry of a block -/

/-- A 1 × 64 row laid along the 10000 rows of a block reads, at (p, q), the row's entry q. -/
theorem bn5_row {α : Type} (v : S1x64.Idx → α) (p : Fin 10000) (q : Fin 64) :
    broadcastTo S10000x64 v broadcasts_S1x64_S10000x64 (ix2 p q) = v (ix2 (0 : Fin 1) q) := by
  refine broadcastTo_apply v broadcasts_S1x64_S10000x64 (ix2 p q) (ix2 (0 : Fin 1) q) fun a => ?_
  match a with
  | ⟨0, _⟩ => rfl
  | ⟨1, _⟩ => rfl

/-- Entry (p, q) of what the body stores: the block's entry, centred by the mean row, scaled by the reciprocal root of
    the variance row plus ε and by the γ row, shifted by the β row, and cut off below at zero. -/
theorem bn5_pay (h : Vec Ideal S10000x64 .f32) (var mean g b : Vec Ideal S1x64 .f32) (p : Fin 10000) (q : Fin 64) :
    k5_pay1 h var mean g b (ix2 p q)
      = max ((((h (ix2 p q) - mean (ix2 (0 : Fin 1) q))
          * Ideal.rsqrt (var (ix2 (0 : Fin 1) q) + Ideal.ofBits .f32 0x3727C5AC#32)) * g (ix2 (0 : Fin 1) q))
        + b (ix2 (0 : Fin 1) q)) (Ideal.ofBits .f32 0x00000000#32) := by
  unfold k5_pay1
  simp only [shapeCast_self]
  rw [maximumf_apply, addf_apply, mulf_apply, mulf_apply, subf_apply, broadcast_apply,
    bn5_row mean, bn5_row g, bn5_row b, bn5_row (rsqrt _)]
  rfl

/-- The same at any entry j of the block, against the entry i of the whole array that j's row and column name: if the
    block's entry j is the array's entry i, the four rows are the four small arrays, and i has j's column, then what the
    body stores at j is the normalised, rectified layer at i. -/
theorem bn5_point (A0 : Vec Ideal S100000x64 .f32) (A1 A2 A3 A4 : Vec Ideal S1x64 .f32)
    (x0 : Vec Ideal S10000x64 .f32) (x1 x2 x3 x4 : Vec Ideal S1x64 .f32) (j : S10000x64.Idx) (i : S100000x64.Idx)
    (hcol : (i 1).val = (j 1).val) (h0 : x0 j = A0 i) (h1 : x1 = A1) (h2 : x2 = A2) (h3 : x3 = A3) (h4 : x4 = A4) :
    k5_pay1 x0 x2 x1 x3 x4 j = Cert.Net.bnK A0 A1 A2 A3 A4 i := by
  subst h1 h2 h3 h4
  obtain ⟨p, q, rfl⟩ : ∃ (p : Fin 10000) (q : Fin 64), j = ix2 p q := ⟨j 0, j 1, eq_ix2 j⟩
  have hq : i 1 = q := Fin.ext hcol
  rw [bn5_pay, h0]
  unfold Cert.Net.bnK
  rw [hq]

/-! ## What one grid point writes back -/

/-- The zero offsets of a load or store through a whole staging buffer, in the two spellings met. -/
theorem bn5_hz : (![0, 0] : Fin 2 → Nat) = fun _ => 0 := funext fun a => by fin_cases a <;> rfl

/-- The windows' index maps over the grid: the two big windows' block index at point t is (t, 0), the four small
    windows' is (0, 0). -/
theorem bn5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The mean row's window has one block, the whole 1 × 64 array, at every grid point. -/
theorem bn5_small1 (c : Dev nD) (t : Fin cfg5.N) :
    (iblk5 V c 1 t : Vec Ideal S1x64 .f32) = (V c (Pipeline.arrRef spec5 1) : Vec Ideal S1x64 .f32) := by
  obtain ⟨e00, e01, e10, e11, e20, e21, e30, e31, e40, e41, e50, e51⟩ := bn5_idx t
  funext y
  unfold iblk5
  rw [View.read_apply]
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1 + 1 * (y 0).val = (y 0).val; rw [e10]; omega
  | ⟨1, _⟩ => show win5_1.index t (1 : Fin 2) * 64 + 1 * (y 1).val = (y 1).val; rw [e11]; omega

/-- The variance row's window has one block, the whole 1 × 64 array, at every grid point. -/
theorem bn5_small2 (c : Dev nD) (t : Fin cfg5.N) :
    (iblk5 V c 2 t : Vec Ideal S1x64 .f32) = (V c (Pipeline.arrRef spec5 2) : Vec Ideal S1x64 .f32) := by
  obtain ⟨e00, e01, e10, e11, e20, e21, e30, e31, e40, e41, e50, e51⟩ := bn5_idx t
  funext y
  unfold iblk5
  rw [View.read_apply]
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; rw [e20]; omega
  | ⟨1, _⟩ => show win5_2.index t (1 : Fin 2) * 64 + 1 * (y 1).val = (y 1).val; rw [e21]; omega

/-- The γ row's window has one block, the whole 1 × 64 array, at every grid point. -/
theorem bn5_small3 (c : Dev nD) (t : Fin cfg5.N) :
    (iblk5 V c 3 t : Vec Ideal S1x64 .f32) = (V c (Pipeline.arrRef spec5 3) : Vec Ideal S1x64 .f32) := by
  obtain ⟨e00, e01, e10, e11, e20, e21, e30, e31, e40, e41, e50, e51⟩ := bn5_idx t
  funext y
  unfold iblk5
  rw [View.read_apply]
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; rw [e30]; omega
  | ⟨1, _⟩ => show win5_3.index t (1 : Fin 2) * 64 + 1 * (y 1).val = (y 1).val; rw [e31]; omega

/-- The β row's window has one block, the whole 1 × 64 array, at every grid point. -/
theorem bn5_small4 (c : Dev nD) (t : Fin cfg5.N) :
    (iblk5 V c 4 t : Vec Ideal S1x64 .f32) = (V c (Pipeline.arrRef spec5 4) : Vec Ideal S1x64 .f32) := by
  obtain ⟨e00, e01, e10, e11, e20, e21, e30, e31, e40, e41, e50, e51⟩ := bn5_idx t
  funext y
  unfold iblk5
  rw [View.read_apply]
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; rw [e40]; omega
  | ⟨1, _⟩ => show win5_4.index t (1 : Fin 2) * 64 + 1 * (y 1).val = (y 1).val; rw [e41]; omega

/-- The big input window's block at point t is rows 10000·t … 10000·t + 9999 of its array: its entry j is the array's
    entry i whenever i's row is 10000·t plus j's and i's column is j's. -/
theorem bn5_big (c : Dev nD) (t : Fin cfg5.N) (j : S10000x64.Idx) (i : S100000x64.Idx)
    (hrow : (i 0).val = 10000 * t.val + (j 0).val) (hcol : (i 1).val = (j 1).val) :
    (iblk5 V c 0 t : Vec Ideal S10000x64 .f32) j = (V c (Pipeline.arrRef spec5 0) : Vec Ideal S100000x64 .f32) i := by
  obtain ⟨e00, e01, e10, e11, e20, e21, e30, e31, e40, e41, e50, e51⟩ := bn5_idx t
  unfold iblk5
  rw [View.read_apply]
  show V c (Pipeline.arrRef spec5 0) (((cfg5.win 0).blk t).view.emb j) = V c (Pipeline.arrRef spec5 0) i
  refine congrArg _ (funext fun a => Fin.ext ?_)
  match a with
  | ⟨0, _⟩ => show win5_0.index t (0 : Fin 2) * 10000 + 1 * (j 0).val = (i 0).val; rw [e00, hrow]; omega
  | ⟨1, _⟩ => show win5_0.index t (1 : Fin 2) * 64 + 1 * (j 1).val = (i 1).val; rw [e01, hcol]; omega

/-- Entry j of what point t's body stores is the normalised, rectified layer at the array entry i in row 10000·t plus
    j's row and in j's column. -/
theorem bn5_at (c : Dev nD) (t : Fin cfg5.N) (j : S10000x64.Idx) (i : S100000x64.Idx)
    (hrow : (i 0).val = 10000 * t.val + (j 0).val) (hcol : (i 1).val = (j 1).val) :
    k5_pay1 (iblk5 V c 0 t) (iblk5 V c 2 t) (iblk5 V c 1 t) (iblk5 V c 3 t) (iblk5 V c 4 t) j
      = Cert.Net.bnK (V c (Pipeline.arrRef spec5 0)) (V c (Pipeline.arrRef spec5 1)) (V c (Pipeline.arrRef spec5 2))
          (V c (Pipeline.arrRef spec5 3)) (V c (Pipeline.arrRef spec5 4)) i :=
  bn5_point (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t) j i hcol
    (bn5_big V c t j i hrow hcol) (bn5_small1 V c t) (bn5_small2 V c t) (bn5_small3 V c t) (bn5_small4 V c t)

/-- What point t writes back is block t of the normalised, rectified layer of the arrays the region found. -/
theorem bn5_flushed (c : Dev nD) (t : Fin cfg5.N) :
    (dat5 (F := Ideal) V c).flushed 5 t
      = ((cfg5.win 5).blk t).view.read (Elt Ideal)
          (Cert.Net.bnK (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 V c).after 5 t) = _
  rw [after5_5]
  unfold out5_5
  rw [View.canon_unit_zero bn5_hz]
  simp only [View.ld_unit_zero (S := S10000x64) bn5_hz, View.ld_unit_zero (S := S1x64) bn5_hz]
  obtain ⟨e00, e01, e10, e11, e20, e21, e30, e31, e40, e41, e50, e51⟩ := bn5_idx t
  funext j
  rw [View.read_apply]
  show k5_pay1 (iblk5 V c 0 t) (iblk5 V c 2 t) (iblk5 V c 1 t) (iblk5 V c 3 t) (iblk5 V c 4 t)
        ((cfg5.win 5).xinj (grid5.coords t) j)
      = Cert.Net.bnK (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb j)
  refine bn5_at V c t _ _ ?_ ?_
  · show win5_5.index t (0 : Fin 2) * 10000 + 1 * (j 0).val = 10000 * t.val + (j 0).val
    rw [e50]; omega
  · show win5_5.index t (1 : Fin 2) * 64 + 1 * (j 1).val = (j 1).val
    rw [e51]; omega

/-- Region 5 normalises and rectifies one block of 10000 rows at a time; the ten blocks tile the N rows, so the array
    it leaves is `bnK` of the arrays it found, entry by entry. -/
theorem bn5 (c : Dev nD) :
    (dat5 (F := Ideal) V c).arrAt 5 cfg5.N
      = Cert.Net.bnK (V c (Pipeline.arrRef spec5 0)) (V c (Pipeline.arrRef spec5 1)) (V c (Pipeline.arrRef spec5 2))
          (V c (Pipeline.arrRef spec5 3)) (V c (Pipeline.arrRef spec5 4)) := by
  refine (dat5 (F := Ideal) V c).arrAt_eq_of_cover 5 _ (fun t _ => bn5_flushed V c t) fun i => ?_
  have h0 : (i 0).val < 100000 := (i 0).isLt
  have h1 : (i 1).val < 64 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, -, -, -, -, -, -, -, e50, e51⟩ := bn5_idx t
  refine ⟨t, flush5_5 t, ?_⟩
  show i ∈ ((View.whole (Pipeline.arrRef spec5 5)).slice (win5_5.rect t)).set
  rw [View.set_slice_whole, Rect.mem_set_unit]
  intro a
  match a with
  | ⟨0, _⟩ =>
    show win5_5.index t (0 : Fin 2) * 10000 ≤ (i 0).val ∧ (i 0).val < win5_5.index t (0 : Fin 2) * 10000 + 10000
    rw [e50]; omega
  | ⟨1, _⟩ =>
    show win5_5.index t (1 : Fin 2) * 64 ≤ (i 1).val ∧ (i 1).val < win5_5.index t (1 : Fin 2) * 64 + 64
    rw [e51]; omega

end Cert.KernelIdeal.RegVal

end
-- ==== Proof.KWalk2.lean ====
import proofs.«419033_j51049981280318_2_alg».proof.Proof.Gen.KernelIdeal.Frame
import proofs.«419033_j51049981280318_2_alg».proof.Proof.Spec
import proofs.«419033_j51049981280318_2_alg».proof.Proof.RegH4
import proofs.«419033_j51049981280318_2_alg».proof.Proof.RegBN5
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Reading a typed reference

The operations of a function the program calls are stated over references that carry their value's type; the contents
of such a reference's buffer, read at that type, are what the operation before wrote, with no transport left over. -/

section Typed

variable {T Tx Ta Tb Tc Ty : BufTy}

/-- The contents a valuation gives a typed reference's buffer, read at the value's own type. -/
private def rd (F : Valuation τ sig (Elt Ideal)) (x : StableHlo.TRef sig T) : T.Contents (Elt Ideal) :=
  x.ofBuf (F (Proc.devRef .tc x.ref))

/-- Transport there and back is the identity. -/
private theorem cast_inv {α β : Type} (h : α = β) (h' : β = α) (v : α) : cast h' (cast h v) = v := by
  subst h; rfl

private theorem rd_nullary (y : StableHlo.TRef sig Ty) (v : Ty.Contents (Elt Ideal)) (F : Valuation τ sig (Elt Ideal)) :
    rd (no_index ((StableHlo.TRef.nullary (τ := τ) y v).result F)) y = v := by
  unfold rd; rw [StableHlo.nullary_result]; exact cast_inv _ _ _

private theorem rd_unary (x : StableHlo.TRef sig Tx) (y : StableHlo.TRef sig Ty)
    (f : Tx.Contents (Elt Ideal) → Ty.Contents (Elt Ideal)) (F : Valuation τ sig (Elt Ideal)) :
    rd (no_index ((StableHlo.TRef.unary (τ := τ) x y f).result F)) y = f (rd F x) := by
  unfold rd; rw [StableHlo.unary_result]; exact cast_inv _ _ _

private theorem rd_binary (a : StableHlo.TRef sig Ta) (b : StableHlo.TRef sig Tb) (y : StableHlo.TRef sig Ty)
    (f : Ta.Contents (Elt Ideal) → Tb.Contents (Elt Ideal) → Ty.Contents (Elt Ideal)) (F : Valuation τ sig (Elt Ideal)) :
    rd (no_index ((StableHlo.TRef.binary (τ := τ) a b y f).result F)) y = f (rd F a) (rd F b) := by
  unfold rd; rw [StableHlo.binary_result]; exact cast_inv _ _ _

private theorem rd_ternary (c : StableHlo.TRef sig Tc) (a : StableHlo.TRef sig Ta) (b : StableHlo.TRef sig Tb)
    (y : StableHlo.TRef sig Ty)
    (f : Tc.Contents (Elt Ideal) → Ta.Contents (Elt Ideal) → Tb.Contents (Elt Ideal) → Ty.Contents (Elt Ideal))
    (F : Valuation τ sig (Elt Ideal)) :
    rd (no_index ((StableHlo.TRef.ternary (τ := τ) c a b y f).result F)) y = f (rd F c) (rd F a) (rd F b) := by
  unfold rd; rw [StableHlo.ternary_result]; exact cast_inv _ _ _

private theorem rd_nullary_ne (y : StableHlo.TRef sig Ty) (v : Ty.Contents (Elt Ideal)) (F : Valuation τ sig (Elt Ideal))
    {r : StableHlo.TRef sig T} (h : r.ref ≠ y.ref) :
    rd (no_index ((StableHlo.TRef.nullary (τ := τ) y v).result F)) r = rd F r := by
  unfold rd; rw [StableHlo.nullary_result_ne (h := h)]

private theorem rd_unary_ne (x : StableHlo.TRef sig Tx) (y : StableHlo.TRef sig Ty)
    (f : Tx.Contents (Elt Ideal) → Ty.Contents (Elt Ideal)) (F : Valuation τ sig (Elt Ideal))
    {r : StableHlo.TRef sig T} (h : r.ref ≠ y.ref) :
    rd (no_index ((StableHlo.TRef.unary (τ := τ) x y f).result F)) r = rd F r := by
  unfold rd; rw [StableHlo.unary_result_ne (h := h)]

private theorem rd_binary_ne (a : StableHlo.TRef sig Ta) (b : StableHlo.TRef sig Tb) (y : StableHlo.TRef sig Ty)
    (f : Ta.Contents (Elt Ideal) → Tb.Contents (Elt Ideal) → Ty.Contents (Elt Ideal)) (F : Valuation τ sig (Elt Ideal))
    {r : StableHlo.TRef sig T} (h : r.ref ≠ y.ref) :
    rd (no_index ((StableHlo.TRef.binary (τ := τ) a b y f).result F)) r = rd F r := by
  unfold rd; rw [StableHlo.binary_result_ne (h := h)]

private theorem rd_ternary_ne (c : StableHlo.TRef sig Tc) (a : StableHlo.TRef sig Ta) (b : StableHlo.TRef sig Tb)
    (y : StableHlo.TRef sig Ty)
    (f : Tc.Contents (Elt Ideal) → Ta.Contents (Elt Ideal) → Tb.Contents (Elt Ideal) → Ty.Contents (Elt Ideal))
    (F : Valuation τ sig (Elt Ideal)) {r : StableHlo.TRef sig T} (h : r.ref ≠ y.ref) :
    rd (no_index ((StableHlo.TRef.ternary (τ := τ) c a b y f).result F)) r = rd F r := by
  unfold rd; rw [StableHlo.ternary_result_ne (h := h)]

end Typed

/-- The fold through a called function's operations, read at a typed reference: each operation's result at its own
    reference is its function of the operands' readings, and at any other reference what was there. -/
local macro "typed_results" : tactic =>
  `(tactic| simp (disch := decide) only [StableHlo.after_cons, StableHlo.after_nil,
      rd_nullary, rd_unary, rd_binary, rd_ternary, rd_nullary_ne, rd_unary_ne, rd_binary_ne, rd_ternary_ne])

/-! ## The two called functions of the layer, over any contents -/

section Called

variable (V : Valuation τ sig (Elt Ideal))

/-- A typed reference at a literal buffer reads that buffer's contents. -/
private theorem rd_v54 : rd V (.of main_v54 : StableHlo.TRef sig ⟨S1250000x64, .f32⟩) = V (Proc.devRef .tc main_v54) := rfl
private theorem rd_v53 : rd V (.of main_v53 : StableHlo.TRef sig ⟨S100000x64, .f32⟩) = V (Proc.devRef .tc main_v53) := rfl
private theorem rd_v1 : rd V (.of main_v1 : StableHlo.TRef sig ⟨S1250000, .i32⟩) = V (Proc.devRef .tc main_v1) := rfl
private theorem rd_v65 : rd V (.of main_v65 : StableHlo.TRef sig ⟨S100000x64, .f32⟩) = V (Proc.devRef .tc main_v65) := rfl
private theorem rd_v69 : rd V (.of main_v69 : StableHlo.TRef sig ⟨S64, .f32⟩) = V (Proc.devRef .tc main_v69) := rfl
private theorem rd_c9 : rd V (.of main_c_9 : StableHlo.TRef sig ⟨S_, .i32⟩) = V (Proc.devRef .tc main_c_9) := rfl

/-- The gather's 23 operations, read at their result: the kernel's gather of the rows at the source indices. -/
private theorem take_rd :
    rd (StableHlo.after (hostOps4 (F := Ideal)) V) (.of main_v54 : StableHlo.TRef sig ⟨S1250000x64, .f32⟩)
      = Cert.Net.takeK (F := Ideal) (rd V (.of main_v53 : StableHlo.TRef sig ⟨S100000x64, .f32⟩))
          (rd V (.of main_v1 : StableHlo.TRef sig ⟨S1250000, .i32⟩)) := by
  typed_results
  rfl

private theorem take_eq :
    StableHlo.after (hostOps4 (F := Ideal)) V (Proc.devRef .tc main_v54)
      = Cert.Net.takeK (F := Ideal) (V (Proc.devRef .tc main_v53)) (V (Proc.devRef .tc main_v1)) := by
  rw [← rd_v54 (StableHlo.after (hostOps4 (F := Ideal)) V), ← rd_v53 V, ← rd_v1 V]
  exact take_rd V

/-- The variance's 22 operations, read at their result, once the count of degrees of freedom they read is the zero
    the stretch before wrote. -/
private theorem var_rd (h0 : rd V (.of main_c_9 : StableHlo.TRef sig ⟨S_, .i32⟩) = constantI S_ 32 0#32) :
    rd (StableHlo.after (hostOps5_1 (F := Ideal)) V) (.of main_v69 : StableHlo.TRef sig ⟨S64, .f32⟩)
      = Cert.Net.varOf (F := Ideal) (rd V (.of main_v65 : StableHlo.TRef sig ⟨S100000x64, .f32⟩)) := by
  typed_results
  rw [h0]
  rfl

private theorem var_eq (h0 : V (Proc.devRef .tc main_c_9) = constantI S_ 32 0#32) :
    StableHlo.after (hostOps5_1 (F := Ideal)) V (Proc.devRef .tc main_v69)
      = Cert.Net.varOf (F := Ideal) (V (Proc.devRef .tc main_v65)) := by
  rw [← rd_v69 (StableHlo.after (hostOps5_1 (F := Ideal)) V), ← rd_v65 V]
  exact var_rd V ((rd_c9 V).trans h0)

end Called

/-! ## The layer's plain host stretches, over any contents -/

section Stretches

variable (V : Valuation τ sig (Elt Ideal))

/-- The messages summed at their destinations. -/
private theorem msg_eq :
    StableHlo.after (hostOps4_1 (F := Ideal)) V (Proc.devRef .tc main_v57)
      = Cert.Net.msg (F := Ideal) (V (Proc.devRef .tc main_v54)) (V (Proc.devRef .tc main_v3)) := by
  after_results
  rfl

/-- The layer's three parameters of the linear step, out of their stacks. -/
private theorem wrel_eq :
    StableHlo.after (hostOps4_1 (F := Ideal)) V (Proc.devRef .tc main_v59)
      = Cert.Net.mat2 (F := Ideal) (V (Proc.devRef .tc main_arg3)) := by
  after_results
  rfl

private theorem brel_eq :
    StableHlo.after (hostOps4_1 (F := Ideal)) V (Proc.devRef .tc main_v64)
      = Cert.Net.asRow (F := Ideal) (Cert.Net.row2 (F := Ideal) (V (Proc.devRef .tc main_arg4))) := by
  after_results
  rfl

private theorem wroot_eq :
    StableHlo.after (hostOps4_1 (F := Ideal)) V (Proc.devRef .tc main_v63)
      = Cert.Net.mat2 (F := Ideal) (V (Proc.devRef .tc main_arg5)) := by
  after_results
  rfl

/-- The column means. -/
private theorem mean_eq :
    StableHlo.after (hostOps5 (F := Ideal)) V (Proc.devRef .tc main_v68)
      = Cert.Net.meanOf (F := Ideal) (V (Proc.devRef .tc main_v65)) := by
  after_results
  rfl

/-- The zero degrees of freedom the variance reads. -/
private theorem ddof_eq :
    StableHlo.after (hostOps5 (F := Ideal)) V (Proc.devRef .tc main_c_9) = constantI S_ 32 0#32 := by
  after_results

/-- The statistics and the normalisation's two parameters, each as a row. -/
private theorem meanRow_eq :
    StableHlo.after (hostOps5_2 (F := Ideal)) V (Proc.devRef .tc main_v74)
      = Cert.Net.asRow (F := Ideal) (V (Proc.devRef .tc main_v68)) := by
  after_results
  rfl

private theorem varRow_eq :
    StableHlo.after (hostOps5_2 (F := Ideal)) V (Proc.devRef .tc main_v75)
      = Cert.Net.asRow (F := Ideal) (V (Proc.devRef .tc main_v69)) := by
  after_results
  rfl

private theorem gammaRow_eq :
    StableHlo.after (hostOps5_2 (F := Ideal)) V (Proc.devRef .tc main_v76)
      = Cert.Net.asRow (F := Ideal) (Cert.Net.row2 (F := Ideal) (V (Proc.devRef .tc main_arg6))) := by
  after_results
  rfl

private theorem betaRow_eq :
    StableHlo.after (hostOps5_2 (F := Ideal)) V (Proc.devRef .tc main_v77)
      = Cert.Net.asRow (F := Ideal) (Cert.Net.row2 (F := Ideal) (V (Proc.devRef .tc main_arg7))) := by
  after_results
  rfl

end Stretches

/-! ## What the layer reads of the launch: carried unchanged to where it is read -/

/-- A host stretch leaves a buffer none of its operations writes as it found it. -/
local macro "host_keeps " ops:ident : tactic =>
  `(tactic| refine Eq.trans (StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))) ?_)

/-- An accelerator region leaves a buffer that is none of its arrays as it found it. -/
local macro "region_keeps " w:ident : tactic => `(tactic| refine Eq.trans ($w:ident _ _ _ _ (by decide)) ?_)

/-- From the end of the second layer back to the first boundary, for a buffer written by nothing in between. -/
local macro "back_to_first" : tactic =>
  `(tactic| (region_keeps W15_of_ne; host_keeps hostOps3_2; host_keeps hostOps3_1; host_keeps hostOps3
             region_keeps W11_of_ne; host_keeps hostOps2_1; host_keeps hostOps2
             region_keeps W8_of_ne; host_keeps hostOps1_2; host_keeps hostOps1_1; host_keeps hostOps1
             region_keeps W4_of_ne; host_keeps hostOps0_2; host_keeps hostOps0_1))

private theorem W15_v1 (c : Dev nD) :
    W15 (F := Ideal) m ρ c (Proc.devRef .tc main_v1) = Cert.Net.src (m ((c : Thread nD τ).loc main_arg1)) := by
  back_to_first
  show StableHlo.after hostOps0 (W0 m ρ c) (Proc.devRef .tc main_v1) = _
  after_results
  rfl

private theorem W16_v3 (c : Dev nD) :
    W16 (F := Ideal) m ρ c (Proc.devRef .tc main_v3) = Cert.Net.dst (m ((c : Thread nD τ).loc main_arg1)) := by
  host_keeps hostOps4
  back_to_first
  show StableHlo.after hostOps0 (W0 m ρ c) (Proc.devRef .tc main_v3) = _
  after_results
  rfl

private theorem W16_arg3 (c : Dev nD) :
    W16 (F := Ideal) m ρ c (Proc.devRef .tc main_arg3) = m ((c : Thread nD τ).loc main_arg3) := by
  host_keeps hostOps4
  back_to_first
  host_keeps hostOps0
  rfl

private theorem W16_arg4 (c : Dev nD) :
    W16 (F := Ideal) m ρ c (Proc.devRef .tc main_arg4) = m ((c : Thread nD τ).loc main_arg4) := by
  host_keeps hostOps4
  back_to_first
  host_keeps hostOps0
  rfl

private theorem W16_arg5 (c : Dev nD) :
    W16 (F := Ideal) m ρ c (Proc.devRef .tc main_arg5) = m ((c : Thread nD τ).loc main_arg5) := by
  host_keeps hostOps4
  back_to_first
  host_keeps hostOps0
  rfl

private theorem W20_arg6 (c : Dev nD) :
    W20 (F := Ideal) m ρ c (Proc.devRef .tc main_arg6) = m ((c : Thread nD τ).loc main_arg6) := by
  host_keeps hostOps5_1; host_keeps hostOps5; region_keeps W18_of_ne; host_keeps hostOps4_1; host_keeps hostOps4
  back_to_first
  host_keeps hostOps0
  rfl

private theorem W20_arg7 (c : Dev nD) :
    W20 (F := Ideal) m ρ c (Proc.devRef .tc main_arg7) = m ((c : Thread nD τ).loc main_arg7) := by
  host_keeps hostOps5_1; host_keeps hostOps5; region_keeps W18_of_ne; host_keeps hostOps4_1; host_keeps hostOps4
  back_to_first
  host_keeps hostOps0
  rfl

/-! ## The layer, boundary by boundary -/

private theorem W16_v54 (c : Dev nD) :
    W16 (F := Ideal) m ρ c (Proc.devRef .tc main_v54)
      = Cert.Net.takeK (F := Ideal) (W15 (F := Ideal) m ρ c (Proc.devRef .tc main_v53))
          (W15 (F := Ideal) m ρ c (Proc.devRef .tc main_v1)) :=
  take_eq (W15 m ρ c)

private theorem W17_v57 (c : Dev nD) :
    W17 (F := Ideal) m ρ c (Proc.devRef .tc main_v57)
      = Cert.Net.msg (F := Ideal) (W16 (F := Ideal) m ρ c (Proc.devRef .tc main_v54))
          (W16 (F := Ideal) m ρ c (Proc.devRef .tc main_v3)) :=
  msg_eq (W16 m ρ c)

private theorem W17_v59 (c : Dev nD) :
    W17 (F := Ideal) m ρ c (Proc.devRef .tc main_v59)
      = Cert.Net.mat2 (F := Ideal) (W16 (F := Ideal) m ρ c (Proc.devRef .tc main_arg3)) :=
  wrel_eq (W16 m ρ c)

private theorem W17_v64 (c : Dev nD) :
    W17 (F := Ideal) m ρ c (Proc.devRef .tc main_v64)
      = Cert.Net.asRow (F := Ideal) (Cert.Net.row2 (F := Ideal) (W16 (F := Ideal) m ρ c (Proc.devRef .tc main_arg4))) :=
  brel_eq (W16 m ρ c)

private theorem W17_v63 (c : Dev nD) :
    W17 (F := Ideal) m ρ c (Proc.devRef .tc main_v63)
      = Cert.Net.mat2 (F := Ideal) (W16 (F := Ideal) m ρ c (Proc.devRef .tc main_arg5)) :=
  wroot_eq (W16 m ρ c)

/-- The layer's input is still what the layer before left. -/
private theorem W17_v53 (c : Dev nD) :
    W17 (F := Ideal) m ρ c (Proc.devRef .tc main_v53) = W15 (F := Ideal) m ρ c (Proc.devRef .tc main_v53) := by
  host_keeps hostOps4_1; host_keeps hostOps4
  rfl

/-- The linear step's region: its result array from the five it reads. -/
private theorem W18_v65 (c : Dev nD) :
    W18 (F := Ideal) m ρ c (Proc.devRef .tc main_v65)
      = Cert.Net.hK (W17 (F := Ideal) m ρ c (Proc.devRef .tc main_v57)) (W17 (F := Ideal) m ρ c (Proc.devRef .tc main_v53))
          (W17 (F := Ideal) m ρ c (Proc.devRef .tc main_v59)) (W17 (F := Ideal) m ρ c (Proc.devRef .tc main_v64))
          (W17 (F := Ideal) m ρ c (Proc.devRef .tc main_v63)) :=
  (W18_arr m ρ c 5).trans (Cert.KernelIdeal.RegVal.h4 (V17 m ρ) c)

private theorem W19_v68 (c : Dev nD) :
    W19 (F := Ideal) m ρ c (Proc.devRef .tc main_v68)
      = Cert.Net.meanOf (F := Ideal) (W18 (F := Ideal) m ρ c (Proc.devRef .tc main_v65)) :=
  mean_eq (W18 m ρ c)

private theorem W19_v65 (c : Dev nD) :
    W19 (F := Ideal) m ρ c (Proc.devRef .tc main_v65) = W18 (F := Ideal) m ρ c (Proc.devRef .tc main_v65) := by
  host_keeps hostOps5
  rfl

private theorem W20_v69 (c : Dev nD) :
    W20 (F := Ideal) m ρ c (Proc.devRef .tc main_v69)
      = Cert.Net.varOf (F := Ideal) (W19 (F := Ideal) m ρ c (Proc.devRef .tc main_v65)) :=
  var_eq (W19 m ρ c) (ddof_eq (W18 m ρ c))

private theorem W20_v68 (c : Dev nD) :
    W20 (F := Ideal) m ρ c (Proc.devRef .tc main_v68) = W19 (F := Ideal) m ρ c (Proc.devRef .tc main_v68) := by
  host_keeps hostOps5_1
  rfl

private theorem W20_v65 (c : Dev nD) :
    W20 (F := Ideal) m ρ c (Proc.devRef .tc main_v65) = W19 (F := Ideal) m ρ c (Proc.devRef .tc main_v65) := by
  host_keeps hostOps5_1
  rfl

private theorem W21_v74 (c : Dev nD) :
    W21 (F := Ideal) m ρ c (Proc.devRef .tc main_v74)
      = Cert.Net.asRow (F := Ideal) (W20 (F := Ideal) m ρ c (Proc.devRef .tc main_v68)) :=
  meanRow_eq (W20 m ρ c)

private theorem W21_v75 (c : Dev nD) :
    W21 (F := Ideal) m ρ c (Proc.devRef .tc main_v75)
      = Cert.Net.asRow (F := Ideal) (W20 (F := Ideal) m ρ c (Proc.devRef .tc main_v69)) :=
  varRow_eq (W20 m ρ c)

private theorem W21_v76 (c : Dev nD) :
    W21 (F := Ideal) m ρ c (Proc.devRef .tc main_v76)
      = Cert.Net.asRow (F := Ideal) (Cert.Net.row2 (F := Ideal) (W20 (F := Ideal) m ρ c (Proc.devRef .tc main_arg6))) :=
  gammaRow_eq (W20 m ρ c)

private theorem W21_v77 (c : Dev nD) :
    W21 (F := Ideal) m ρ c (Proc.devRef .tc main_v77)
      = Cert.Net.asRow (F := Ideal) (Cert.Net.row2 (F := Ideal) (W20 (F := Ideal) m ρ c (Proc.devRef .tc main_arg7))) :=
  betaRow_eq (W20 m ρ c)

private theorem W21_v65 (c : Dev nD) :
    W21 (F := Ideal) m ρ c (Proc.devRef .tc main_v65) = W20 (F := Ideal) m ρ c (Proc.devRef .tc main_v65) := by
  host_keeps hostOps5_2
  rfl

/-- The normalisation's region: its result array from the five it reads. -/
private theorem W22_v78 (c : Dev nD) :
    W22 (F := Ideal) m ρ c (Proc.devRef .tc main_v78)
      = Cert.Net.bnK (W21 (F := Ideal) m ρ c (Proc.devRef .tc main_v65)) (W21 (F := Ideal) m ρ c (Proc.devRef .tc main_v74))
          (W21 (F := Ideal) m ρ c (Proc.devRef .tc main_v75)) (W21 (F := Ideal) m ρ c (Proc.devRef .tc main_v76))
          (W21 (F := Ideal) m ρ c (Proc.devRef .tc main_v77)) :=
  (W22_arr m ρ c 5).trans (Cert.KernelIdeal.RegVal.bn5 (V21 m ρ) c)

/-- Layer 2: the third normalised layer's array, as region 5 leaves it, is `layerK` of the second layer's array. -/
theorem x3_eq (c : Dev nD) :
    V22 (F := Ideal) m ρ c main_v78
      = Cert.Net.layerK (V15 (F := Ideal) m ρ c main_v53) (Cert.Net.src (m ((c : Thread nD τ).loc main_arg1))) (Cert.Net.dst (m ((c : Thread nD τ).loc main_arg1)))
        (Cert.Net.mat2 (m ((c : Thread nD τ).loc main_arg3))) (Cert.Net.row2 (m ((c : Thread nD τ).loc main_arg4))) (Cert.Net.mat2 (m ((c : Thread nD τ).loc main_arg5)))
        (Cert.Net.row2 (m ((c : Thread nD τ).loc main_arg6))) (Cert.Net.row2 (m ((c : Thread nD τ).loc main_arg7))) := by
  show W22 (F := Ideal) m ρ c (Proc.devRef .tc main_v78)
      = Cert.Net.layerK (W15 (F := Ideal) m ρ c (Proc.devRef .tc main_v53)) _ _ _ _ _ _ _
  unfold Cert.Net.layerK
  rw [W22_v78, W21_v65, W21_v74, W21_v75, W21_v76, W21_v77, W20_v65, W20_v68, W20_v69, W20_arg6, W20_arg7,
    W19_v65, W19_v68, W18_v65, W17_v57, W17_v53, W17_v59, W17_v64, W17_v63, W16_v54, W16_v3, W16_arg3, W16_arg4, W16_arg5,
    W15_v1]

end Cert.KernelIdeal.Walk

end
-- ==== Proof.KWalkT.lean ====
import proofs.«419033_j51049981280318_2_alg».proof.Proof.Gen.KernelIdeal.Frame
import proofs.«419033_j51049981280318_2_alg».proof.Proof.Spec

import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last stretch of host operations at the result buffer: counts per graph and pooled row sums by the two
    scatter-adds over the graph ids, the counts raised to at least one and laid along the features, the quotient, its
    product with the head's matrix, plus the head's bias along the rows. All read at the previous boundary. -/
theorem head_at (c : Dev nD) :
    W23 (F := Ideal) m ρ c (Proc.devRef .tc main_v94)
      = Cert.Net.tailOf (F := Ideal) (W22 (F := Ideal) m ρ c (Proc.devRef .tc main_v78))
          (W22 (F := Ideal) m ρ c (Proc.devRef .tc main_arg2))
          (W22 (F := Ideal) m ρ c (Proc.devRef .tc main_arg8))
          (W22 (F := Ideal) m ρ c (Proc.devRef .tc main_arg9)) := by
  show StableHlo.after hostOps6 (W22 (F := Ideal) m ρ c) (Proc.devRef .tc main_v94) = _
  after_results_simp
  rfl

/-- The last stretch writes no argument: the graph ids are at its start what they are at its end. -/
theorem arg2_keep (c : Dev nD) :
    W23 (F := Ideal) m ρ c (Proc.devRef .tc main_arg2) = W22 (F := Ideal) m ρ c (Proc.devRef .tc main_arg2) := by
  show StableHlo.after hostOps6 (W22 (F := Ideal) m ρ c) (Proc.devRef .tc main_arg2) = _
  after_results

/-- Likewise the head's matrix. -/
theorem arg8_keep (c : Dev nD) :
    W23 (F := Ideal) m ρ c (Proc.devRef .tc main_arg8) = W22 (F := Ideal) m ρ c (Proc.devRef .tc main_arg8) := by
  show StableHlo.after hostOps6 (W22 (F := Ideal) m ρ c) (Proc.devRef .tc main_arg8) = _
  after_results

/-- Likewise the head's bias. -/
theorem arg9_keep (c : Dev nD) :
    W23 (F := Ideal) m ρ c (Proc.devRef .tc main_arg9) = W22 (F := Ideal) m ρ c (Proc.devRef .tc main_arg9) := by
  show StableHlo.after hostOps6 (W22 (F := Ideal) m ρ c) (Proc.devRef .tc main_arg9) = _
  after_results

/-- Hence each of the three arguments holds, before the last stretch, what the launch memory holds. -/
theorem arg2_at (c : Dev nD) :
    W22 (F := Ideal) m ρ c (Proc.devRef .tc main_arg2) = m ((c : Thread nD τ).loc main_arg2) :=
  (arg2_keep m ρ c).symm.trans (W23_main_arg2 m ρ c)
theorem arg8_at (c : Dev nD) :
    W22 (F := Ideal) m ρ c (Proc.devRef .tc main_arg8) = m ((c : Thread nD τ).loc main_arg8) :=
  (arg8_keep m ρ c).symm.trans (W23_main_arg8 m ρ c)
theorem arg9_at (c : Dev nD) :
    W22 (F := Ideal) m ρ c (Proc.devRef .tc main_arg9) = m ((c : Thread nD τ).loc main_arg9) :=
  (arg9_keep m ρ c).symm.trans (W23_main_arg9 m ρ c)

/-- The head: the result buffer at the last boundary is `tailOf` of the third layer's array, the graph ids and the
    head's weights. -/
theorem tail_eq (c : Dev nD) :
    W23 (F := Ideal) m ρ c (Proc.devRef .tc main_v94)
      = Cert.Net.tailOf (F := Ideal) (V22 (F := Ideal) m ρ c main_v78) (m ((c : Thread nD τ).loc main_arg2)) (m ((c : Thread nD τ).loc main_arg8)) (m ((c : Thread nD τ).loc main_arg9)) := by
  rw [head_at m ρ c, arg2_at m ρ c, arg8_at m ρ c, arg9_at m ρ c]

end Cert.KernelIdeal.Walk

end
-- ==== Proof.KVal.lean ====
import proofs.«419033_j51049981280318_2_alg».proof.Proof.Gen.KernelIdeal.Frame
import proofs.«419033_j51049981280318_2_alg».proof.Proof.Spec
import proofs.«419033_j51049981280318_2_alg».proof.Proof.KWalk0
import proofs.«419033_j51049981280318_2_alg».proof.Proof.KWalk1
import proofs.«419033_j51049981280318_2_alg».proof.Proof.KWalk2
import proofs.«419033_j51049981280318_2_alg».proof.Proof.KWalkT
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel's result buffer at the last boundary is `netK` of the launch arguments: the three layers chained, then
    the head. -/
theorem kval (c : Dev nD) :
    W23 (F := Ideal) m ρ c (Proc.devRef .tc main_v94)
      = Cert.Net.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [tail_eq m ρ c, x3_eq m ρ c, x2_eq m ρ c, x1_eq m ρ c]
  rfl

end Cert.KernelIdeal.Walk

end
-- ==== Proof.RefOps.lean ====
/-
  The reference program's operations, in program order, as lists.

  The reference computes a three-layer graph network on the host alone. Its program calls two outlined functions,
  the column variance (which itself calls an outlined selection) and the rectifier; a call means the callee's
  operations run on the call's operands into the call's own buffers, so each call is written out here at its place:
  the callee's operations with the call's operands for its parameters and the call's buffers for its values. What
  is left is one straight line of 252 operations, given in five consecutive pieces: the edge list's two rows,
  the three layers, and the pooling head. Every later statement about the reference's run is a statement about
  these lists.
-/
import proofs.«419033_j51049981280318_2_alg».proof.Proof.Gen.ReferenceIdeal
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

variable {F : FTy → Type} [FloatOps F]

/-- The edge list's two rows, each cut out as a 1 × E slice and flattened: the sources, then the destinations. (4 operations.) -/
abbrev opsPre : List (HloOp τ sig (Elt F)) :=
  [ StableHlo.unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    StableHlo.reshape main_v0 main_v1 rfl shapeCasts_S1x1250000_S1250000,
    StableHlo.unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    StableHlo.reshape main_v2 main_v3 rfl shapeCasts_S1x1250000_S1250000 ]

/-- Layer 0 on the input features: wrap and gather the source rows, add them into the destination rows, the two products with the layer's matrices and the bias, the column means, the column variances (the outlined variance written out, with its inner selection), the normalisation with scale and shift, and the rectifier (written out). (76 operations.) -/
abbrev opsL0 : List (HloOp τ sig (Elt F)) :=
  [ StableHlo.nullary main_c (constantI S_ 32 0#32),
    StableHlo.unary main_c main_v4 (broadcastInDim S1250000 ![] bcast_S_S1250000 : (⟨S_, .i32⟩ : BufTy).Contents (Elt F) → (⟨S1250000, .i32⟩ : BufTy).Contents (Elt F)),
    StableHlo.binary main_v1 main_v4 main_v5 (cmpi .slt : (⟨S1250000, .i32⟩ : BufTy).Contents (Elt F) → (⟨S1250000, .i32⟩ : BufTy).Contents (Elt F) → (⟨S1250000, .i1⟩ : BufTy).Contents (Elt F)),
    StableHlo.nullary main_c_0 (constantI S_ 32 100000#32),
    StableHlo.unary main_c_0 main_v6 (broadcastInDim S1250000 ![] bcast_S_S1250000 : (⟨S_, .i32⟩ : BufTy).Contents (Elt F) → (⟨S1250000, .i32⟩ : BufTy).Contents (Elt F)),
    StableHlo.binary main_v1 main_v6 main_v7 (addi : (⟨S1250000, .i32⟩ : BufTy).Contents (Elt F) → (⟨S1250000, .i32⟩ : BufTy).Contents (Elt F) → (⟨S1250000, .i32⟩ : BufTy).Contents (Elt F)),
    StableHlo.ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v8 main_v9 (broadcastInDim S1250000x1 ![0] bcast_S1250000_S1250000x1_0 : (⟨S1250000, .i32⟩ : BufTy).Contents (Elt F) → (⟨S1250000x1, .i32⟩ : BufTy).Contents (Elt F)),
    StableHlo.binary main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1250000x1 ![0] bcast_S1250000_S1250000x1_0 : (⟨S1250000, .i32⟩ : BufTy).Contents (Elt F) → (⟨S1250000x1, .i32⟩ : BufTy).Contents (Elt F)),
    StableHlo.ternary main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_arg3 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v17 ((extractStridedSlice S1x64 ![0, 0] · slices_S3x64_S1x64_0_0) : (⟨S3x64, .f32⟩ : BufTy).Contents (Elt F) → (⟨S1x64, .f32⟩ : BufTy).Contents (Elt F)),
    StableHlo.reshape main_v17 main_v18 rfl shapeCasts_S1x64_S64,
    StableHlo.unary main_v18 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v20 main_v21 (addf : (⟨S100000x64, .f32⟩ : BufTy).Contents (Elt F) → (⟨S100000x64, .f32⟩ : BufTy).Contents (Elt F) → (⟨S100000x64, .f32⟩ : BufTy).Contents (Elt F)),
    StableHlo.unary main_arg5 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_arg0 main_v23 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v21 main_v24 main_v25 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v25 main_cst_1 main_v26 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v27 (broadcastInDim S64 ![] bcast_S_S64 : (⟨S_, .f32⟩ : BufTy).Contents (Elt F) → (⟨S64, .f32⟩ : BufTy).Contents (Elt F)),
    StableHlo.binary main_v26 main_v27 main_v28 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v25 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v25 : StableHlo.TRef sig ⟨S100000x64, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v28 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v31 main_v32 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v33 (broadcastInDim S64 ![] bcast_S_S64 : (⟨S_, .f32⟩ : BufTy).Contents (Elt F) → (⟨S64, .f32⟩ : BufTy).Contents (Elt F)),
    StableHlo.binary main_v29 main_v33 main_v34 (addf : (⟨S64, .f32⟩ : BufTy).Contents (Elt F) → (⟨S64, .f32⟩ : BufTy).Contents (Elt F) → (⟨S64, .f32⟩ : BufTy).Contents (Elt F)),
    StableHlo.unary main_v34 main_v35 (Host.rsqrt : (⟨S64, .f32⟩ : BufTy).Contents (Elt F) → (⟨S64, .f32⟩ : BufTy).Contents (Elt F)),
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v37 main_v38 (mulf : (⟨S100000x64, .f32⟩ : BufTy).Contents (Elt F) → (⟨S100000x64, .f32⟩ : BufTy).Contents (Elt F) → (⟨S100000x64, .f32⟩ : BufTy).Contents (Elt F)),
    StableHlo.unary main_arg6 main_v39 ((extractStridedSlice S1x64 ![0, 0] · slices_S3x64_S1x64_0_0) : (⟨S3x64, .f32⟩ : BufTy).Contents (Elt F) → (⟨S1x64, .f32⟩ : BufTy).Contents (Elt F)),
    StableHlo.reshape main_v39 main_v40 rfl shapeCasts_S1x64_S64,
    StableHlo.unary main_v40 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v42 main_v43 (mulf : (⟨S100000x64, .f32⟩ : BufTy).Contents (Elt F) → (⟨S100000x64, .f32⟩ : BufTy).Contents (Elt F) → (⟨S100000x64, .f32⟩ : BufTy).Contents (Elt F)),
    StableHlo.unary main_arg7 main_v44 ((extractStridedSlice S1x64 ![0, 0] · slices_S3x64_S1x64_0_0) : (⟨S3x64, .f32⟩ : BufTy).Contents (Elt F) → (⟨S1x64, .f32⟩ : BufTy).Contents (Elt F)),
    StableHlo.reshape main_v44 main_v45 rfl shapeCasts_S1x64_S64,
    StableHlo.unary main_v45 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v47 main_v48 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v48 : StableHlo.TRef sig ⟨S100000x64, .f32⟩) main_call1.v0 main_call1.v1 maximumf ]

/-- Layer 1, the same operations on layer 0's result with the second matrices and vectors. (76 operations.) -/
abbrev opsL1 : List (HloOp τ sig (Elt F)) :=
  [ StableHlo.nullary main_c_5 (constantI S_ 32 0#32),
    StableHlo.unary main_c_5 main_v50 (broadcastInDim S1250000 ![] bcast_S_S1250000 : (⟨S_, .i32⟩ : BufTy).Contents (Elt F) → (⟨S1250000, .i32⟩ : BufTy).Contents (Elt F)),
    StableHlo.binary main_v1 main_v50 main_v51 (cmpi .slt : (⟨S1250000, .i32⟩ : BufTy).Contents (Elt F) → (⟨S1250000, .i32⟩ : BufTy).Contents (Elt F) → (⟨S1250000, .i1⟩ : BufTy).Contents (Elt F)),
    StableHlo.nullary main_c_6 (constantI S_ 32 100000#32),
    StableHlo.unary main_c_6 main_v52 (broadcastInDim S1250000 ![] bcast_S_S1250000 : (⟨S_, .i32⟩ : BufTy).Contents (Elt F) → (⟨S1250000, .i32⟩ : BufTy).Contents (Elt F)),
    StableHlo.binary main_v1 main_v52 main_v53 (addi : (⟨S1250000, .i32⟩ : BufTy).Contents (Elt F) → (⟨S1250000, .i32⟩ : BufTy).Contents (Elt F) → (⟨S1250000, .i32⟩ : BufTy).Contents (Elt F)),
    StableHlo.ternary main_v51 main_v53 main_v1 main_v54 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v54 main_v55 (broadcastInDim S1250000x1 ![0] bcast_S1250000_S1250000x1_0 : (⟨S1250000, .i32⟩ : BufTy).Contents (Elt F) → (⟨S1250000x1, .i32⟩ : BufTy).Contents (Elt F)),
    StableHlo.binary main_v49 main_v55 main_v56 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_7 (constant S_ .f32 0x00000000#32),
    StableHlo.unary main_cst_7 main_v57 (broadcastInDim S100000x64 ![] bcast_S_S100000x64 : (⟨S_, .f32⟩ : BufTy).Contents (Elt F) → (⟨S100000x64, .f32⟩ : BufTy).Contents (Elt F)),
    StableHlo.unary main_v3 main_v58 (broadcastInDim S1250000x1 ![0] bcast_S1250000_S1250000x1_0 : (⟨S1250000, .i32⟩ : BufTy).Contents (Elt F) → (⟨S1250000x1, .i32⟩ : BufTy).Contents (Elt F)),
    StableHlo.ternary main_v57 main_v58 main_v56 main_v59 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_arg3 main_v60 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v60 main_v61 rfl shapeCasts_S1x64x64_S64x64,
    StableHlo.binary main_v59 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v63 ((extractStridedSlice S1x64 ![1, 0] · slices_S3x64_S1x64_1_0) : (⟨S3x64, .f32⟩ : BufTy).Contents (Elt F) → (⟨S1x64, .f32⟩ : BufTy).Contents (Elt F)),
    StableHlo.reshape main_v63 main_v64 rfl shapeCasts_S1x64_S64,
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v66 main_v67 (addf : (⟨S100000x64, .f32⟩ : BufTy).Contents (Elt F) → (⟨S100000x64, .f32⟩ : BufTy).Contents (Elt F) → (⟨S100000x64, .f32⟩ : BufTy).Contents (Elt F)),
    StableHlo.unary main_arg5 main_v68 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v68 main_v69 rfl shapeCasts_S1x64x64_S64x64,
    StableHlo.binary main_v49 main_v69 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v67 main_v70 main_v71 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v71 main_cst_8 main_v72 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call2.cst (constant S_ .f32 0x00000000#32),
    StableHlo.TRef.binary (.of main_v71 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v71 : StableHlo.TRef sig ⟨S100000x64, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v77 main_v78 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v83 main_v84 (mulf : (⟨S100000x64, .f32⟩ : BufTy).Contents (Elt F) → (⟨S100000x64, .f32⟩ : BufTy).Contents (Elt F) → (⟨S100000x64, .f32⟩ : BufTy).Contents (Elt F)),
    StableHlo.unary main_arg6 main_v85 ((extractStridedSlice S1x64 ![1, 0] · slices_S3x64_S1x64_1_0) : (⟨S3x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v88 main_v89 (mulf : (⟨S100000x64, .f32⟩ : BufTy).Contents (Elt F) → (⟨S100000x64, .f32⟩ : BufTy).Contents (Elt F) → (⟨S100000x64, .f32⟩ : BufTy).Contents (Elt F)),
    StableHlo.unary main_arg7 main_v90 ((extractStridedSlice S1x64 ![1, 0] · slices_S3x64_S1x64_1_0) : (⟨S3x64, .f32⟩ : BufTy).Contents (Elt F) → (⟨S1x64, .f32⟩ : BufTy).Contents (Elt F)),
    StableHlo.reshape main_v90 main_v91 rfl shapeCasts_S1x64_S64,
    StableHlo.unary main_v91 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v93 main_v94 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v94 : StableHlo.TRef sig ⟨S100000x64, .f32⟩) main_call3.v0 main_call3.v1 maximumf ]

/-- Layer 2, the same operations on layer 1's result with the third matrices and vectors. (76 operations.) -/
abbrev opsL2 : List (HloOp τ sig (Elt F)) :=
  [ StableHlo.nullary main_c_12 (constantI S_ 32 0#32),
    StableHlo.unary main_c_12 main_v96 (broadcastInDim S1250000 ![] bcast_S_S1250000 : (⟨S_, .i32⟩ : BufTy).Contents (Elt F) → (⟨S1250000, .i32⟩ : BufTy).Contents (Elt F)),
    StableHlo.binary main_v1 main_v96 main_v97 (cmpi .slt : (⟨S1250000, .i32⟩ : BufTy).Contents (Elt F) → (⟨S1250000, .i32⟩ : BufTy).Contents (Elt F) → (⟨S1250000, .i1⟩ : BufTy).Contents (Elt F)),
    StableHlo.nullary main_c_13 (constantI S_ 32 100000#32),
    StableHlo.unary main_c_13 main_v98 (broadcastInDim S1250000 ![] bcast_S_S1250000 : (⟨S_, .i32⟩ : BufTy).Contents (Elt F) → (⟨S1250000, .i32⟩ : BufTy).Contents (Elt F)),
    StableHlo.binary main_v1 main_v98 main_v99 (addi : (⟨S1250000, .i32⟩ : BufTy).Contents (Elt F) → (⟨S1250000, .i32⟩ : BufTy).Contents (Elt F) → (⟨S1250000, .i32⟩ : BufTy).Contents (Elt F)),
    StableHlo.ternary main_v97 main_v99 main_v1 main_v100 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v100 main_v101 (broadcastInDim S1250000x1 ![0] bcast_S1250000_S1250000x1_0 : (⟨S1250000, .i32⟩ : BufTy).Contents (Elt F) → (⟨S1250000x1, .i32⟩ : BufTy).Contents (Elt F)),
    StableHlo.binary main_v95 main_v101 main_v102 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_14 (constant S_ .f32 0x00000000#32),
    StableHlo.unary main_cst_14 main_v103 (broadcastInDim S100000x64 ![] bcast_S_S100000x64 : (⟨S_, .f32⟩ : BufTy).Contents (Elt F) → (⟨S100000x64, .f32⟩ : BufTy).Contents (Elt F)),
    StableHlo.unary main_v3 main_v104 (broadcastInDim S1250000x1 ![0] bcast_S1250000_S1250000x1_0 : (⟨S1250000, .i32⟩ : BufTy).Contents (Elt F) → (⟨S1250000x1, .i32⟩ : BufTy).Contents (Elt F)),
    StableHlo.ternary main_v103 main_v104 main_v102 main_v105 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_arg3 main_v106 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v106 main_v107 rfl shapeCasts_S1x64x64_S64x64,
    StableHlo.binary main_v105 main_v107 main_v108 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v109 ((extractStridedSlice S1x64 ![2, 0] · slices_S3x64_S1x64_2_0) : (⟨S3x64, .f32⟩ : BufTy).Contents (Elt F) → (⟨S1x64, .f32⟩ : BufTy).Contents (Elt F)),
    StableHlo.reshape main_v109 main_v110 rfl shapeCasts_S1x64_S64,
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v108 main_v112 main_v113 (addf : (⟨S100000x64, .f32⟩ : BufTy).Contents (Elt F) → (⟨S100000x64, .f32⟩ : BufTy).Contents (Elt F) → (⟨S100000x64, .f32⟩ : BufTy).Contents (Elt F)),
    StableHlo.unary main_arg5 main_v114 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v114 main_v115 rfl shapeCasts_S1x64x64_S64x64,
    StableHlo.binary main_v95 main_v115 main_v116 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v113 main_v116 main_v117 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.binary main_v117 main_cst_15 main_v118 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v119 (broadcastInDim S64 ![] bcast_S_S64 : (⟨S_, .f32⟩ : BufTy).Contents (Elt F) → (⟨S64, .f32⟩ : BufTy).Contents (Elt F)),
    StableHlo.binary main_v118 main_v119 main_v120 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call4.cst (constant S_ .f32 0x00000000#32),
    StableHlo.TRef.binary (.of main_v117 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v117 : StableHlo.TRef sig ⟨S100000x64, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v120 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S100000x64 ![0, 1] bcast_S1x64_S100000x64_0_1 : (⟨S1x64, .f32⟩ : BufTy).Contents (Elt F) → (⟨S100000x64, .f32⟩ : BufTy).Contents (Elt F)),
    StableHlo.binary main_v117 main_v123 main_v124 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v125 (broadcastInDim S64 ![] bcast_S_S64 : (⟨S_, .f32⟩ : BufTy).Contents (Elt F) → (⟨S64, .f32⟩ : BufTy).Contents (Elt F)),
    StableHlo.binary main_v121 main_v125 main_v126 (addf : (⟨S64, .f32⟩ : BufTy).Contents (Elt F) → (⟨S64, .f32⟩ : BufTy).Contents (Elt F) → (⟨S64, .f32⟩ : BufTy).Contents (Elt F)),
    StableHlo.unary main_v126 main_v127 (Host.rsqrt : (⟨S64, .f32⟩ : BufTy).Contents (Elt F) → (⟨S64, .f32⟩ : BufTy).Contents (Elt F)),
    StableHlo.unary main_v127 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v129 main_v130 (mulf : (⟨S100000x64, .f32⟩ : BufTy).Contents (Elt F) → (⟨S100000x64, .f32⟩ : BufTy).Contents (Elt F) → (⟨S100000x64, .f32⟩ : BufTy).Contents (Elt F)),
    StableHlo.unary main_arg6 main_v131 ((extractStridedSlice S1x64 ![2, 0] · slices_S3x64_S1x64_2_0) : (⟨S3x64, .f32⟩ : BufTy).Contents (Elt F) → (⟨S1x64, .f32⟩ : BufTy).Contents (Elt F)),
    StableHlo.reshape main_v131 main_v132 rfl shapeCasts_S1x64_S64,
    StableHlo.unary main_v132 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S100000x64 ![0, 1] bcast_S1x64_S100000x64_0_1 : (⟨S1x64, .f32⟩ : BufTy).Contents (Elt F) → (⟨S100000x64, .f32⟩ : BufTy).Contents (Elt F)),
    StableHlo.binary main_v130 main_v134 main_v135 (mulf : (⟨S100000x64, .f32⟩ : BufTy).Contents (Elt F) → (⟨S100000x64, .f32⟩ : BufTy).Contents (Elt F) → (⟨S100000x64, .f32⟩ : BufTy).Contents (Elt F)),
    StableHlo.unary main_arg7 main_v136 ((extractStridedSlice S1x64 ![2, 0] · slices_S3x64_S1x64_2_0) : (⟨S3x64, .f32⟩ : BufTy).Contents (Elt F) → (⟨S1x64, .f32⟩ : BufTy).Contents (Elt F)),
    StableHlo.reshape main_v136 main_v137 rfl shapeCasts_S1x64_S64,
    StableHlo.unary main_v137 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v135 main_v139 main_v140 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v140 : StableHlo.TRef sig ⟨S100000x64, .f32⟩) main_call5.v0 main_call5.v1 maximumf ]

/-- The head: nodes counted per graph, node rows added per graph, the quotient by the count (at least one), the product with the classifier matrix and its bias. (20 operations.) -/
abbrev opsT : List (HloOp τ sig (Elt F)) :=
  [ StableHlo.nullary main_cst_19 (constant S_ .f32 0x3F800000#32),
    StableHlo.unary main_cst_19 main_v142 (broadcastInDim S100000 ![] bcast_S_S100000 : (⟨S_, .f32⟩ : BufTy).Contents (Elt F) → (⟨S100000, .f32⟩ : BufTy).Contents (Elt F)),
    StableHlo.nullary main_cst_20 (constant S_ .f32 0x00000000#32),
    StableHlo.unary main_cst_20 main_v143 (broadcastInDim S128 ![] bcast_S_S128 : (⟨S_, .f32⟩ : BufTy).Contents (Elt F) → (⟨S128, .f32⟩ : BufTy).Contents (Elt F)),
    StableHlo.unary main_arg2 main_v144 (broadcastInDim S100000x1 ![0] bcast_S100000_S100000x1_0 : (⟨S100000, .i32⟩ : BufTy).Contents (Elt F) → (⟨S100000x1, .i32⟩ : BufTy).Contents (Elt F)),
    StableHlo.ternary main_v143 main_v144 main_v142 main_v145 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    StableHlo.nullary main_cst_21 (constant S_ .f32 0x00000000#32),
    StableHlo.unary main_cst_21 main_v146 (broadcastInDim S128x64 ![] bcast_S_S128x64 : (⟨S_, .f32⟩ : BufTy).Contents (Elt F) → (⟨S128x64, .f32⟩ : BufTy).Contents (Elt F)),
    StableHlo.unary main_arg2 main_v147 (broadcastInDim S100000x1 ![0] bcast_S100000_S100000x1_0 : (⟨S100000, .i32⟩ : BufTy).Contents (Elt F) → (⟨S100000x1, .i32⟩ : BufTy).Contents (Elt F)),
    StableHlo.ternary main_v146 main_v147 main_v141 main_v148 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.nullary main_cst_22 (constant S_ .f32 0x3F800000#32),
    StableHlo.unary main_cst_22 main_v149 (broadcastInDim S128 ![] bcast_S_S128 : (⟨S_, .f32⟩ : BufTy).Contents (Elt F) → (⟨S128, .f32⟩ : BufTy).Contents (Elt F)),
    StableHlo.binary main_v145 main_v149 main_v150 (maximumf : (⟨S128, .f32⟩ : BufTy).Contents (Elt F) → (⟨S128, .f32⟩ : BufTy).Contents (Elt F) → (⟨S128, .f32⟩ : BufTy).Contents (Elt F)),
    StableHlo.unary main_v150 main_v151 (broadcastInDim S128x1 ![0] bcast_S128_S128x1_0 : (⟨S128, .f32⟩ : BufTy).Contents (Elt F) → (⟨S128x1, .f32⟩ : BufTy).Contents (Elt F)),
    StableHlo.unary main_v151 main_v152 (broadcastInDim S128x64 ![0, 1] bcast_S128x1_S128x64_0_1 : (⟨S128x1, .f32⟩ : BufTy).Contents (Elt F) → (⟨S128x64, .f32⟩ : BufTy).Contents (Elt F)),
    StableHlo.binary main_v148 main_v152 main_v153 (Host.divf : (⟨S128x64, .f32⟩ : BufTy).Contents (Elt F) → (⟨S128x64, .f32⟩ : BufTy).Contents (Elt F) → (⟨S128x64, .f32⟩ : BufTy).Contents (Elt F)),
    StableHlo.binary main_v153 main_arg8 main_v154 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    StableHlo.unary main_arg9 main_v155 (broadcastInDim S1x10 ![1] bcast_S10_S1x10_1 : (⟨S10, .f32⟩ : BufTy).Contents (Elt F) → (⟨S1x10, .f32⟩ : BufTy).Contents (Elt F)),
    StableHlo.unary main_v155 main_v156 (broadcastInDim S128x10 ![0, 1] bcast_S1x10_S128x10_0_1 : (⟨S1x10, .f32⟩ : BufTy).Contents (Elt F) → (⟨S128x10, .f32⟩ : BufTy).Contents (Elt F)),
    StableHlo.binary main_v154 main_v156 main_v157 (addf : (⟨S128x10, .f32⟩ : BufTy).Contents (Elt F) → (⟨S128x10, .f32⟩ : BufTy).Contents (Elt F) → (⟨S128x10, .f32⟩ : BufTy).Contents (Elt F)) ]

/-- The whole program: the five pieces in order. -/
abbrev ops : List (HloOp τ sig (Elt F)) := opsPre ++ opsL0 ++ opsL1 ++ opsL2 ++ opsT

/-! ## Every operation touches TensorCore buffers only

Each operation reads its operands' buffers and writes its result's; all of them are buffers of the TensorCore's
signature, one fact per operation by the operation's arity. -/

set_option maxRecDepth 8192 in
theorem opsPre_sub : (opsPre : List (HloOp τ sig (Elt F))).Forall fun op => op.bufs ⊆ tcRefs τ sig :=
  ⟨unary_bufs_sub .., reshape_bufs_sub .., unary_bufs_sub .., reshape_bufs_sub ..⟩

set_option maxRecDepth 8192 in
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub .., binary_bufs_sub ..,
    unary_bufs_sub .., reshape_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..⟩

set_option maxRecDepth 8192 in
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub .., binary_bufs_sub ..,
    unary_bufs_sub .., reshape_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..⟩

set_option maxRecDepth 8192 in
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub .., binary_bufs_sub ..,
    unary_bufs_sub .., reshape_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..⟩

set_option maxRecDepth 8192 in
theorem opsT_sub : (opsT : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp opsPre_sub op h, List.forall_iff_forall_mem.mp opsL0_sub op h,
      List.forall_iff_forall_mem.mp opsL1_sub op h, List.forall_iff_forall_mem.mp opsL2_sub op h,
      List.forall_iff_forall_mem.mp opsT_sub op h]

end Cert.ReferenceIdeal.HandRun

end
-- ==== Proof.RefRun.lean ====
/-
  The reference program runs as its list of operations.

  The program's statements are the operations of the list, one after another, with each outlined call standing
  for its callee's operations; unfolding the calls and reading the statements off in order gives the list. The
  program is printed in four consecutive windows; each window is the matching stretch of the list, and the
  stretches laid end to end are the five pieces. A straight line of operations, none of which leaves a result
  undetermined, run from any memory with all counters at zero, ends with every buffer of every device at the
  operations' fold over that device's launch contents.
-/
import proofs.«419033_j51049981280318_2_alg».proof.Proof.RefOps

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

variable {F : FTy → Type} [FloatOps F]

/-! ## The program is the list

The windows do not end where the pieces do: the first window runs three operations into layer 1, the second
ten into layer 2, the third seventeen into the head. Each window is therefore stated against the stretch of
the pieces it covers, a tail of one piece followed by a front of the next. -/

set_option maxRecDepth 8192 in
set_option maxHeartbeats 4000000 in
theorem main_part0_eq (c : Dev nD) : main_part0 (F := F) c = seq (opsPre ++ opsL0 ++ opsL1.take 3) := rfl

set_option maxRecDepth 8192 in
set_option maxHeartbeats 4000000 in
theorem main_part1_eq (c : Dev nD) : main_part1 (F := F) c = seq (opsL1.drop 3 ++ opsL2.take 10) := rfl

set_option maxRecDepth 8192 in
set_option maxHeartbeats 4000000 in
theorem main_part2_eq (c : Dev nD) : main_part2 (F := F) c = seq (opsL2.drop 10 ++ opsT.take 17) := rfl

set_option maxRecDepth 8192 in
theorem main_part3_eq (c : Dev nD) : main_part3 (F := F) c = seq (opsT.drop 17) := rfl

/-- Five lists laid end to end, cut again at three other places: a front of a list followed by its tail is
    the list. -/
theorem regroup {α : Type} (a b c d e : List α) (i j k : Nat) :
    a ++ b ++ c ++ d ++ e
      = (a ++ b ++ c.take i) ++ (c.drop i ++ d.take j) ++ (d.drop j ++ e.take k) ++ e.drop k := by
  conv_lhs => rw [← List.take_append_drop i c, ← List.take_append_drop j d, ← List.take_append_drop k e]
  simp only [List.append_assoc]

/-- The program is the straight line of the operations of `ops`. -/
theorem main_eq (c : Dev nD) : main (F := F) c = seq ops := by
  rw [show (ops : List (HloOp τ sig (Elt F))) = _ from regroup opsPre opsL0 opsL1 opsL2 opsT 3 10 17]
  simp only [seq_append, ← main_part0_eq c, ← main_part1_eq c, ← main_part2_eq c, ← main_part3_eq c]
  rfl

/-! ## Nothing is scoped, nothing is left undetermined -/

/-- No buffer of the signature is scoped to a region. -/
theorem scopedRefs_eq : (Finset.univ.filter fun b : Ref sig .tc => b.isScoped) = ∅ := by decide
/-- No semaphore of the signature is scoped to a region. -/
theorem scopedSems_eq : (Finset.univ.filter fun sm : SemLoc sig => sm.isScoped .tc) = ∅ := by decide

/-- Every operation of the edge list's piece determines its result. -/
theorem opsPre_fresh : (opsPre : List (HloOp τ sig (Elt F))).Forall fun op => op.fresh = ∅ := by
  simp only [List.Forall]; repeat' constructor
/-- Every operation of layer 0 determines its result. -/
theorem opsL0_fresh : (opsL0 : List (HloOp τ sig (Elt F))).Forall fun op => op.fresh = ∅ := by
  simp only [List.Forall]; repeat' constructor
/-- Every operation of layer 1 determines its result. -/
theorem opsL1_fresh : (opsL1 : List (HloOp τ sig (Elt F))).Forall fun op => op.fresh = ∅ := by
  simp only [List.Forall]; repeat' constructor
/-- Every operation of layer 2 determines its result. -/
theorem opsL2_fresh : (opsL2 : List (HloOp τ sig (Elt F))).Forall fun op => op.fresh = ∅ := by
  simp only [List.Forall]; repeat' constructor
/-- Every operation of the head determines its result. -/
theorem opsT_fresh : (opsT : List (HloOp τ sig (Elt F))).Forall fun op => op.fresh = ∅ := by
  simp only [List.Forall]; repeat' constructor

/-- Every operation of the program determines its result: it is in one of the five pieces. -/
theorem ops_fresh : ∀ op ∈ (ops : List (HloOp τ sig (Elt F))), op.fresh = ∅ := fun op h => by
  simp only [ops, List.mem_append] at h
  rcases h with (((h | h) | h) | h) | h
  exacts [List.forall_iff_forall_mem.mp opsPre_fresh op h, List.forall_iff_forall_mem.mp opsL0_fresh op h,
    List.forall_iff_forall_mem.mp opsL1_fresh op h, List.forall_iff_forall_mem.mp opsL2_fresh op h,
    List.forall_iff_forall_mem.mp opsT_fresh op h]

/-! ## The run -/

/-- On every device, for any float values, from any memory with all counters at zero: every weakly fair
    execution of the program terminates, and in every final state each buffer of each device holds the
    operations' fold over that device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.HandRun

end
-- ==== Proof.RefWalkL0.lean ====
import proofs.«419033_j51049981280318_2_alg».proof.Proof.RefOps
import proofs.«419033_j51049981280318_2_alg».proof.Proof.Gen.KernelIdeal
import proofs.«419033_j51049981280318_2_alg».proof.Proof.Spec
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

variable (V : Valuation τ sig (Elt Ideal))

namespace L0

/-! The layer's 76 operations are cut into four consecutive stretches: the 25 that form h, the 5 that form the
    column means, the 23 that form the column variances, and the 23 that normalise, scale, shift and rectify.
    Each stretch is evaluated once, from arbitrary contents, at the one buffer the later stretches read; the
    layer is the four evaluations chained, the buffers a stretch does not write being carried through it. -/

/-- Running two lists in a row is running their concatenation. -/
theorem after_append : ∀ (l₁ l₂ : List (HloOp τ sig (Elt Ideal))) (W : Valuation τ sig (Elt Ideal)),
    after (l₁ ++ l₂) W = after l₂ (after l₁ W)
  | [], _, _ => rfl
  | op :: l₁, l₂, W => by rw [List.cons_append, after_cons, after_cons, after_append l₁ l₂]

/-- The operations that form h = (msg · W_rel + b) + x · W_root. -/
abbrev sA : List (HloOp τ sig (Elt Ideal)) := (opsL0 (F := Ideal)).take 25
/-- The operations that form the column means of h. -/
abbrev sB : List (HloOp τ sig (Elt Ideal)) := ((opsL0 (F := Ideal)).drop 25).take 5
/-- The operations that form the column variances of h (the integer zero that is the variance's second argument first). -/
abbrev sC : List (HloOp τ sig (Elt Ideal)) := ((opsL0 (F := Ideal)).drop 30).take 23
/-- The operations that normalise h with its statistics, scale, shift and rectify. -/
abbrev sD : List (HloOp τ sig (Elt Ideal)) := (opsL0 (F := Ideal)).drop 53

theorem cut : opsL0 (F := Ideal) = sA ++ (sB ++ (sC ++ sD)) := rfl

/-- Writes a stretch out as its literal list. -/
local macro "open_stretch" : tactic =>
  `(tactic| simp only [sA, sB, sC, sD, List.take_succ_cons, List.take_zero, List.drop_succ_cons, List.drop_zero])

theorem stageA :
    after sA V (Proc.devRef .tc main_v25)
      = Cert.Net.hR (F := Ideal) (Cert.Net.msg (F := Ideal) (Cert.Net.takeR (F := Ideal) (V (Proc.devRef .tc main_arg0)) (V (Proc.devRef .tc main_v1))) (V (Proc.devRef .tc main_v3)))
          (V (Proc.devRef .tc main_arg0)) (Cert.Net.mat0 (F := Ideal) (V (Proc.devRef .tc main_arg3))) (Cert.Net.row0 (F := Ideal) (V (Proc.devRef .tc main_arg4)))
          (Cert.Net.mat0 (F := Ideal) (V (Proc.devRef .tc main_arg5))) := by
  open_stretch
  after_results_simp
  rfl

theorem stageB :
    after sB V (Proc.devRef .tc main_v28) = Cert.Net.meanOf (F := Ideal) (V (Proc.devRef .tc main_v25)) := by
  open_stretch
  after_results_simp
  rfl

theorem stageC :
    after sC V (Proc.devRef .tc main_v29) = Cert.Net.varOf (F := Ideal) (V (Proc.devRef .tc main_v25)) := by
  open_stretch
  after_results_simp
  rfl

theorem stageD :
    after sD V (Proc.devRef .tc main_v49)
      = Cert.Net.bnR (F := Ideal) (V (Proc.devRef .tc main_v25)) (V (Proc.devRef .tc main_v28)) (V (Proc.devRef .tc main_v29))
          (Cert.Net.row0 (F := Ideal) (V (Proc.devRef .tc main_arg6))) (Cert.Net.row0 (F := Ideal) (V (Proc.devRef .tc main_arg7))) := by
  open_stretch
  after_results_simp
  rfl

/-! What each stretch leaves alone, at the buffers a later stretch reads. -/

theorem keepA_arg6 : after sA V (Proc.devRef .tc main_arg6) = V (Proc.devRef .tc main_arg6) := by
  open_stretch
  after_results_simp

theorem keepA_arg7 : after sA V (Proc.devRef .tc main_arg7) = V (Proc.devRef .tc main_arg7) := by
  open_stretch
  after_results_simp

theorem keepB_v25 : after sB V (Proc.devRef .tc main_v25) = V (Proc.devRef .tc main_v25) := by
  open_stretch
  after_results_simp

theorem keepB_arg6 : after sB V (Proc.devRef .tc main_arg6) = V (Proc.devRef .tc main_arg6) := by
  open_stretch
  after_results_simp

theorem keepB_arg7 : after sB V (Proc.devRef .tc main_arg7) = V (Proc.devRef .tc main_arg7) := by
  open_stretch
  after_results_simp

theorem keepC_v25 : after sC V (Proc.devRef .tc main_v25) = V (Proc.devRef .tc main_v25) := by
  open_stretch
  after_results_simp

theorem keepC_v28 : after sC V (Proc.devRef .tc main_v28) = V (Proc.devRef .tc main_v28) := by
  open_stretch
  after_results_simp

theorem keepC_arg6 : after sC V (Proc.devRef .tc main_arg6) = V (Proc.devRef .tc main_arg6) := by
  open_stretch
  after_results_simp

theorem keepC_arg7 : after sC V (Proc.devRef .tc main_arg7) = V (Proc.devRef .tc main_arg7) := by
  open_stretch
  after_results_simp

end L0

/-- Layer 0's operations, from any contents of the buffers, leave in the rectified layer's buffer `layerR` of the
    layer's input array, the source and destination rows, and the layer's slices of the five parameter stacks. -/
theorem layer0 :
    after (opsL0 (F := Ideal)) V (Proc.devRef .tc main_v49)
      = Cert.Net.layerR (V (Proc.devRef .tc main_arg0)) (V (Proc.devRef .tc main_v1)) (V (Proc.devRef .tc main_v3))
          (Cert.Net.mat0 (V (Proc.devRef .tc main_arg3))) (Cert.Net.row0 (V (Proc.devRef .tc main_arg4))) (Cert.Net.mat0 (V (Proc.devRef .tc main_arg5)))
          (Cert.Net.row0 (V (Proc.devRef .tc main_arg6))) (Cert.Net.row0 (V (Proc.devRef .tc main_arg7))) := by
  show after (opsL0 (F := Ideal)) V (Proc.devRef .tc main_v49) = _
  rw [L0.cut, L0.after_append, L0.after_append, L0.after_append]
  rw [L0.stageD, L0.stageC, L0.keepC_v25, L0.keepC_v28, L0.keepC_arg6, L0.keepC_arg7,
    L0.stageB, L0.keepB_v25, L0.keepB_arg6, L0.keepB_arg7, L0.stageA, L0.keepA_arg6, L0.keepA_arg7]
  rfl

end Cert.ReferenceIdeal.HandRun

end
-- ==== Proof.RefWalkL1.lean ====
/-
  Layer 1 of the reference, read off its operations.

  The layer's seventy-six operations fall into two stretches. The first twenty-five form the affine part
  h = (msg · W_rel + b) + x · W_root: the source indices wrapped into range, the rows of the input gathered at
  them, those rows added into the destination rows, the two products and the bias row laid along the nodes.
  The remaining fifty-one read h alone, besides the scale and shift stacks: the column means of h, the column
  variances of h (the variance function written out, with the selection that guards its divisor), and h
  normalised by them, scaled, shifted and rectified. Evaluating the second stretch from ARBITRARY contents keeps
  h an unknown array, so the mean, the variance and the normalisation are each stated once over that unknown;
  the first stretch then says what the array is. A line of operations run after another is the second's fold
  over the first's, which joins the two.
-/
import proofs.«419033_j51049981280318_2_alg».proof.Proof.RefOps
import proofs.«419033_j51049981280318_2_alg».proof.Proof.Gen.KernelIdeal
import proofs.«419033_j51049981280318_2_alg».proof.Proof.Spec
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

namespace L1

/-- The contents after two lines in a row: the second line's fold over the first's. -/
theorem after_append {F : FTy → Type} [FloatOps F] :
    ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append l₁ l₂]

variable (V : Valuation τ sig (Elt Ideal))

/-- The layer's affine part as a function of the contents before the layer: of the layer's input array, the
    source and destination rows, and the layer's slices of the two matrix stacks and the bias stack. -/
abbrev hOf : FVec Ideal Cert.KernelIdeal.S100000x64 .f32 :=
  Cert.Net.hR (F := Ideal)
    (Cert.Net.msg (F := Ideal)
      (Cert.Net.takeR (F := Ideal) (V (Proc.devRef .tc main_v49)) (V (Proc.devRef .tc main_v1)))
      (V (Proc.devRef .tc main_v3)))
    (V (Proc.devRef .tc main_v49)) (Cert.Net.mat1 (F := Ideal) (V (Proc.devRef .tc main_arg3)))
    (Cert.Net.row1 (F := Ideal) (V (Proc.devRef .tc main_arg4))) (Cert.Net.mat1 (F := Ideal) (V (Proc.devRef .tc main_arg5)))

set_option maxRecDepth 8192 in
/-- The first twenty-five operations leave the affine part in its buffer: each operation's result is its
    function of its operands' contents, and composing them in order is the affine part's own expression. -/
theorem head_h :
    after ((opsL1 (F := Ideal)).take 25) V (Proc.devRef .tc main_v71) = hOf V := by
  simp only [opsL1, List.take_succ_cons, List.take_zero]
  after_results_simp
  rfl

set_option maxRecDepth 8192 in
/-- None of them writes the scale stack. -/
theorem head_arg6 :
    after ((opsL1 (F := Ideal)).take 25) V (Proc.devRef .tc main_arg6) = V (Proc.devRef .tc main_arg6) := by
  simp only [opsL1, List.take_succ_cons, List.take_zero]
  after_results_simp

set_option maxRecDepth 8192 in
/-- None of them writes the shift stack. -/
theorem head_arg7 :
    after ((opsL1 (F := Ideal)).take 25) V (Proc.devRef .tc main_arg7) = V (Proc.devRef .tc main_arg7) := by
  simp only [opsL1, List.take_succ_cons, List.take_zero]
  after_results_simp

set_option maxRecDepth 8192 in
/-- The remaining fifty-one operations, from any contents `W`: with h the array in the affine part's buffer, the
    result is h less its column means, times the reciprocal root of its column variances plus ε, times the
    scale row, plus the shift row, rectified. -/
theorem tail_out (W : Valuation τ sig (Elt Ideal)) :
    after ((opsL1 (F := Ideal)).drop 25) W (Proc.devRef .tc main_v95)
      = Cert.Net.bnR (F := Ideal) (W (Proc.devRef .tc main_v71))
          (Cert.Net.meanOf (F := Ideal) (W (Proc.devRef .tc main_v71)))
          (Cert.Net.varOf (F := Ideal) (W (Proc.devRef .tc main_v71)))
          (Cert.Net.row1 (F := Ideal) (W (Proc.devRef .tc main_arg6)))
          (Cert.Net.row1 (F := Ideal) (W (Proc.devRef .tc main_arg7))) := by
  simp only [opsL1, List.drop_succ_cons, List.drop_zero]
  after_results_simp
  rfl

end L1

variable (V : Valuation τ sig (Elt Ideal))

/-- Layer 1's operations, from any contents of the buffers, leave in the rectified layer's buffer `layerR` of the
    layer's input array, the source and destination rows, and the layer's slices of the five parameter stacks. -/
theorem layer1 :
    after (opsL1 (F := Ideal)) V (Proc.devRef .tc main_v95)
      = Cert.Net.layerR (V (Proc.devRef .tc main_v49)) (V (Proc.devRef .tc main_v1)) (V (Proc.devRef .tc main_v3))
          (Cert.Net.mat1 (V (Proc.devRef .tc main_arg3))) (Cert.Net.row1 (V (Proc.devRef .tc main_arg4))) (Cert.Net.mat1 (V (Proc.devRef .tc main_arg5)))
          (Cert.Net.row1 (V (Proc.devRef .tc main_arg6))) (Cert.Net.row1 (V (Proc.devRef .tc main_arg7))) := by
  rw [← List.take_append_drop 25 (opsL1 (F := Ideal)), L1.after_append, L1.tail_out, L1.head_h, L1.head_arg6, L1.head_arg7]
  rfl

end Cert.ReferenceIdeal.HandRun

end
-- ==== Proof.RefWalkL2.lean ====
import proofs.«419033_j51049981280318_2_alg».proof.Proof.RefOps
import proofs.«419033_j51049981280318_2_alg».proof.Proof.Gen.KernelIdeal
import proofs.«419033_j51049981280318_2_alg».proof.Proof.Spec
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

variable (V : Valuation τ sig (Elt Ideal))

namespace L2

/-! ## Layer 2 in four stretches

The layer's 76 operations are cut into four consecutive stretches: h (the first 25 operations), the column means (the
next 5), the column variances (the next 23: the outlined variance with its inner selection), and the normalisation
with the rectifier (the last 23). Each stretch is read from ANY contents of the buffers, so its inputs are plain
buffer contents; the stretches are then chained. -/

/-- The contents after a line made of two pieces: run the first piece, then the second from what the first leaves. -/
theorem after_append (a b : List (HloOp τ sig (Elt Ideal))) (W : Valuation τ sig (Elt Ideal)) :
    after (a ++ b) W = after b (after a W) := by
  induction a generalizing W with
  | nil => rfl
  | cons op a ih => rw [List.cons_append, after_cons, after_cons, ih]

/-- The first 25 operations: up to h. -/
abbrev sH : List (HloOp τ sig (Elt Ideal)) := (opsL2 (F := Ideal)).take 25
/-- The next 5: the column means. -/
abbrev sM : List (HloOp τ sig (Elt Ideal)) := ((opsL2 (F := Ideal)).drop 25).take 5
/-- The next 23: the column variances. -/
abbrev sV : List (HloOp τ sig (Elt Ideal)) := (((opsL2 (F := Ideal)).drop 25).drop 5).take 23
/-- The last 23: the normalisation and the rectifier. -/
abbrev sN : List (HloOp τ sig (Elt Ideal)) := (((opsL2 (F := Ideal)).drop 25).drop 5).drop 23

/-- The four stretches, in order, are the layer's operations. -/
theorem cut : opsL2 (F := Ideal) = sH ++ (sM ++ (sV ++ sN)) := by
  simp only [sH, sM, sV, sN, List.take_append_drop]

/-- The layer's run at a buffer, stretch by stretch. -/
theorem run (b : DevRef τ sig) :
    after (opsL2 (F := Ideal)) V b = after sN (after sV (after sM (after sH V))) b := by
  conv_lhs => rw [cut]
  rw [after_append, after_append, after_append]

/-! ### What each stretch computes -/

/-- h: gather the (wrapped, clamped) source rows of the input, add them into their destination rows, multiply by the
    layer's first matrix, add the bias along the rows, add the input times the second matrix. -/
theorem hval :
    after sH V (Proc.devRef .tc main_v117)
      = Cert.Net.hR (F := Ideal)
          (Cert.Net.msg (F := Ideal) (Cert.Net.takeR (F := Ideal) (V (Proc.devRef .tc main_v95)) (V (Proc.devRef .tc main_v1))) (V (Proc.devRef .tc main_v3)))
          (V (Proc.devRef .tc main_v95)) (Cert.Net.mat2 (V (Proc.devRef .tc main_arg3))) (Cert.Net.row2 (V (Proc.devRef .tc main_arg4)))
          (Cert.Net.mat2 (V (Proc.devRef .tc main_arg5))) := by
  simp only [sH, sM, sV, sN, opsL2, List.take_succ_cons, List.take_zero, List.drop_succ_cons, List.drop_zero]
  after_results_simp
  rfl

/-- The column means of h. -/
theorem mean :
    after sM V (Proc.devRef .tc main_v120) = Cert.Net.meanOf (F := Ideal) (V (Proc.devRef .tc main_v117)) := by
  simp only [sH, sM, sV, sN, opsL2, List.take_succ_cons, List.take_zero, List.drop_succ_cons, List.drop_zero]
  after_results_simp
  rfl

/-- The column variances of h: the column sums of the centred squares over the divisor, selected against the fill
    pattern by the divisor's sign. -/
theorem vari :
    after sV V (Proc.devRef .tc main_v121) = Cert.Net.varOf (F := Ideal) (V (Proc.devRef .tc main_v117)) := by
  simp only [sH, sM, sV, sN, opsL2, List.take_succ_cons, List.take_zero, List.drop_succ_cons, List.drop_zero]
  after_results_simp
  rfl

/-- The normalised, rectified layer: max ((h - mean) · rsqrt (var + ε) · γ + β, 0), the 64-vectors laid along the rows. -/
theorem outp :
    after sN V (Proc.devRef .tc main_v141)
      = Cert.Net.bnR (F := Ideal) (V (Proc.devRef .tc main_v117)) (V (Proc.devRef .tc main_v120)) (V (Proc.devRef .tc main_v121))
          (Cert.Net.row2 (V (Proc.devRef .tc main_arg6))) (Cert.Net.row2 (V (Proc.devRef .tc main_arg7))) := by
  simp only [sH, sM, sV, sN, opsL2, List.take_succ_cons, List.take_zero, List.drop_succ_cons, List.drop_zero]
  after_results_simp
  rfl

/-! ### What each stretch leaves alone: the buffers a later stretch still reads -/

/-- The first stretch writes neither the scale stack nor the shift stack. -/
theorem kH6 : after sH V (Proc.devRef .tc main_arg6) = V (Proc.devRef .tc main_arg6) := by
  simp only [sH, sM, sV, sN, opsL2, List.take_succ_cons, List.take_zero, List.drop_succ_cons, List.drop_zero]
  after_results_simp
theorem kH7 : after sH V (Proc.devRef .tc main_arg7) = V (Proc.devRef .tc main_arg7) := by
  simp only [sH, sM, sV, sN, opsL2, List.take_succ_cons, List.take_zero, List.drop_succ_cons, List.drop_zero]
  after_results_simp

/-- The means' stretch writes neither h nor those two stacks. -/
theorem kM117 : after sM V (Proc.devRef .tc main_v117) = V (Proc.devRef .tc main_v117) := by
  simp only [sH, sM, sV, sN, opsL2, List.take_succ_cons, List.take_zero, List.drop_succ_cons, List.drop_zero]
  after_results_simp
theorem kM6 : after sM V (Proc.devRef .tc main_arg6) = V (Proc.devRef .tc main_arg6) := by
  simp only [sH, sM, sV, sN, opsL2, List.take_succ_cons, List.take_zero, List.drop_succ_cons, List.drop_zero]
  after_results_simp
theorem kM7 : after sM V (Proc.devRef .tc main_arg7) = V (Proc.devRef .tc main_arg7) := by
  simp only [sH, sM, sV, sN, opsL2, List.take_succ_cons, List.take_zero, List.drop_succ_cons, List.drop_zero]
  after_results_simp

/-- The variances' stretch writes neither h, nor the means, nor those two stacks. -/
theorem kV117 : after sV V (Proc.devRef .tc main_v117) = V (Proc.devRef .tc main_v117) := by
  simp only [sH, sM, sV, sN, opsL2, List.take_succ_cons, List.take_zero, List.drop_succ_cons, List.drop_zero]
  after_results_simp
theorem kV120 : after sV V (Proc.devRef .tc main_v120) = V (Proc.devRef .tc main_v120) := by
  simp only [sH, sM, sV, sN, opsL2, List.take_succ_cons, List.take_zero, List.drop_succ_cons, List.drop_zero]
  after_results_simp
theorem kV6 : after sV V (Proc.devRef .tc main_arg6) = V (Proc.devRef .tc main_arg6) := by
  simp only [sH, sM, sV, sN, opsL2, List.take_succ_cons, List.take_zero, List.drop_succ_cons, List.drop_zero]
  after_results_simp
theorem kV7 : after sV V (Proc.devRef .tc main_arg7) = V (Proc.devRef .tc main_arg7) := by
  simp only [sH, sM, sV, sN, opsL2, List.take_succ_cons, List.take_zero, List.drop_succ_cons, List.drop_zero]
  after_results_simp

end L2

/-- Layer 2's operations, from any contents of the buffers, leave in the rectified layer's buffer `layerR` of the
    layer's input array, the source and destination rows, and the layer's slices of the five parameter stacks. -/
theorem layer2 :
    after (opsL2 (F := Ideal)) V (Proc.devRef .tc main_v141)
      = Cert.Net.layerR (V (Proc.devRef .tc main_v95)) (V (Proc.devRef .tc main_v1)) (V (Proc.devRef .tc main_v3))
          (Cert.Net.mat2 (V (Proc.devRef .tc main_arg3))) (Cert.Net.row2 (V (Proc.devRef .tc main_arg4))) (Cert.Net.mat2 (V (Proc.devRef .tc main_arg5)))
          (Cert.Net.row2 (V (Proc.devRef .tc main_arg6))) (Cert.Net.row2 (V (Proc.devRef .tc main_arg7))) := by
  rw [L2.run, L2.outp, L2.vari, L2.kV117, L2.kV120, L2.kV6, L2.kV7, L2.mean, L2.kM117, L2.kM6, L2.kM7, L2.hval, L2.kH6,
    L2.kH7]
  rfl

end Cert.ReferenceIdeal.HandRun

end
-- ==== Proof.RefWalk.lean ====
import proofs.«419033_j51049981280318_2_alg».proof.Proof.RefOps
import proofs.«419033_j51049981280318_2_alg».proof.Proof.RefWalkL0
import proofs.«419033_j51049981280318_2_alg».proof.Proof.RefWalkL1
import proofs.«419033_j51049981280318_2_alg».proof.Proof.RefWalkL2
import proofs.«419033_j51049981280318_2_alg».proof.Proof.Gen.KernelIdeal
import proofs.«419033_j51049981280318_2_alg».proof.Proof.Spec
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

variable (V : Valuation τ sig (Elt Ideal))

/-! ## Two lines run one after the other -/

/-- The contents after a line made of two pieces: run the first piece, then the second from what the first leaves. -/
theorem after_append (a b : List (HloOp τ sig (Elt Ideal))) (W : Valuation τ sig (Elt Ideal)) :
    after (a ++ b) W = after b (after a W) := by
  induction a generalizing W with
  | nil => rfl
  | cons op a ih => rw [List.cons_append, after_cons, after_cons, ih]

/-- The whole program's run at a buffer, piece by piece: the edge rows, the three layers, the head. -/
theorem ops_run (b : DevRef τ sig) :
    after (ops (F := Ideal)) V b
      = after (opsT (F := Ideal)) (after (opsL2 (F := Ideal)) (after (opsL1 (F := Ideal)) (after (opsL0 (F := Ideal))
          (after (opsPre (F := Ideal)) V)))) b := by
  show after (opsPre (F := Ideal) ++ opsL0 (F := Ideal) ++ opsL1 (F := Ideal) ++ opsL2 (F := Ideal) ++ opsT (F := Ideal)) V b = _
  rw [after_append, after_append, after_append, after_append]

/-! ## Which buffers a piece writes

The program's buffers are numbered in program order: the ten arguments first (0 to 9), then the edge rows' four
buffers (10 to 13, the two flattened rows at 11 and 13), then each layer's, then the head's. So "a piece writes only
buffers numbered from n on" says at once that it leaves every lower-numbered buffer alone. -/

/-- Every buffer the line writes is a reference numbered at least `n`. -/
def WritesFrom (n : Nat) (l : List (HloOp τ sig (Elt Ideal))) : Prop :=
  l.Forall fun op => ∀ b ∈ op.writes, ∃ y : Ref sig .tc, n ≤ y.idx.val ∧ b = Proc.devRef .tc y

/-- A reference numbered below everything a line writes keeps its contents through the line. -/
theorem keep_below {n : Nat} {l : List (HloOp τ sig (Elt Ideal))} (h : WritesFrom n l) (W : Valuation τ sig (Elt Ideal))
    (r : Ref sig .tc) (hr : r.idx.val < n) : after l W (Proc.devRef .tc r) = W (Proc.devRef .tc r) :=
  after_of_forall_not_mem l W fun op hop hb => by
    obtain ⟨y, hy, he⟩ := (List.forall_iff_forall_mem.mp h) op hop _ hb
    have e : r = y := Proc.devRef_injective _ he
    rw [e] at hr
    exact absurd hy (Nat.not_le.mpr hr)

/-- The edge rows' operations write buffers 10 to 13. -/
theorem opsPre_writes : WritesFrom 10 (opsPre (F := Ideal)) := by
  simp only [WritesFrom, opsPre, List.Forall, nullary_writes, unary_writes, binary_writes, ternary_writes, reshape_writes,
    Finset.mem_singleton]
  repeat' apply And.intro
  all_goals (intro b hb; exact ⟨_, by decide, hb⟩)

/-- Layer 0's operations write nothing below buffer 14. -/
theorem opsL0_writes : WritesFrom 14 (opsL0 (F := Ideal)) := by
  simp only [WritesFrom, opsL0, List.Forall, nullary_writes, unary_writes, binary_writes, ternary_writes, reshape_writes,
    Finset.mem_singleton]
  repeat' apply And.intro
  all_goals (intro b hb; exact ⟨_, by decide, hb⟩)

/-- Nor do layer 1's. -/
theorem opsL1_writes : WritesFrom 14 (opsL1 (F := Ideal)) := by
  simp only [WritesFrom, opsL1, List.Forall, nullary_writes, unary_writes, binary_writes, ternary_writes, reshape_writes,
    Finset.mem_singleton]
  repeat' apply And.intro
  all_goals (intro b hb; exact ⟨_, by decide, hb⟩)

/-- Nor layer 2's. -/
theorem opsL2_writes : WritesFrom 14 (opsL2 (F := Ideal)) := by
  simp only [WritesFrom, opsL2, List.Forall, nullary_writes, unary_writes, binary_writes, ternary_writes, reshape_writes,
    Finset.mem_singleton]
  repeat' apply And.intro
  all_goals (intro b hb; exact ⟨_, by decide, hb⟩)

/-- Nor the head's. -/
theorem opsT_writes : WritesFrom 14 (opsT (F := Ideal)) := by
  simp only [WritesFrom, opsT, List.Forall, nullary_writes, unary_writes, binary_writes, ternary_writes, reshape_writes,
    Finset.mem_singleton]
  repeat' apply And.intro
  all_goals (intro b hb; exact ⟨_, by decide, hb⟩)

/-- Hence: an argument keeps its contents through the edge rows' operations; an argument or a flattened edge row keeps
    them through a layer and through the head. -/
theorem kPre (r : Ref sig .tc) (hr : r.idx.val < 10 := by decide) :
    after (opsPre (F := Ideal)) V (Proc.devRef .tc r) = V (Proc.devRef .tc r) := keep_below opsPre_writes V r hr
theorem kL0 (r : Ref sig .tc) (hr : r.idx.val < 14 := by decide) :
    after (opsL0 (F := Ideal)) V (Proc.devRef .tc r) = V (Proc.devRef .tc r) := keep_below opsL0_writes V r hr
theorem kL1 (r : Ref sig .tc) (hr : r.idx.val < 14 := by decide) :
    after (opsL1 (F := Ideal)) V (Proc.devRef .tc r) = V (Proc.devRef .tc r) := keep_below opsL1_writes V r hr
theorem kL2 (r : Ref sig .tc) (hr : r.idx.val < 14 := by decide) :
    after (opsL2 (F := Ideal)) V (Proc.devRef .tc r) = V (Proc.devRef .tc r) := keep_below opsL2_writes V r hr
theorem kT (r : Ref sig .tc) (hr : r.idx.val < 14 := by decide) :
    after (opsT (F := Ideal)) V (Proc.devRef .tc r) = V (Proc.devRef .tc r) := keep_below opsT_writes V r hr

/-- An argument keeps its contents through the whole program. -/
theorem ops_keep (r : Ref sig .tc) (hr : r.idx.val < 10) :
    after (ops (F := Ideal)) V (Proc.devRef .tc r) = V (Proc.devRef .tc r) := by
  rw [ops_run, kT _ r (by omega), kL2 _ r (by omega), kL1 _ r (by omega), kL0 _ r (by omega), kPre _ r hr]

/-! ## What the first and the last piece compute -/

/-- The edge rows' operations leave the edge list's row 0, flattened, in buffer 11. -/
theorem pre_src :
    after (opsPre (F := Ideal)) V (Proc.devRef .tc main_v1) = Cert.Net.src (V (Proc.devRef .tc main_arg1)) := by
  after_results
  rfl

/-- And row 1, flattened, in buffer 13. -/
theorem pre_dst :
    after (opsPre (F := Ideal)) V (Proc.devRef .tc main_v3) = Cert.Net.dst (V (Proc.devRef .tc main_arg1)) := by
  after_results
  rfl

/-- The head's operations: counts per graph and pooled row sums by the two scatter-adds over the graph ids, the counts
    raised to at least one and laid along the features, the quotient, its product with the head's matrix, plus the
    head's bias along the rows. -/
theorem tail_at :
    after (opsT (F := Ideal)) V (Proc.devRef .tc main_v157)
      = Cert.Net.tailOf (F := Ideal) (V (Proc.devRef .tc main_v141)) (V (Proc.devRef .tc main_arg2)) (V (Proc.devRef .tc main_arg8))
          (V (Proc.devRef .tc main_arg9)) := by
  after_results_simp
  rfl

/-! ## The whole program -/

/-- From any contents of the buffers, the reference's operations leave in the result buffer `netR` of the ten argument
    buffers' contents: the three layers chained, then the head. -/
theorem rval :
    after (ops (F := Ideal)) V (Proc.devRef .tc main_v157)
      = Cert.Net.netR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_run, tail_at, layer2, layer1, layer0]
  rw [kL2 _ main_arg2, kL2 _ main_arg8, kL2 _ main_arg9]
  rw [kL1 _ main_v1, kL1 _ main_v3, kL1 _ main_arg2, kL1 _ main_arg3, kL1 _ main_arg4, kL1 _ main_arg5, kL1 _ main_arg6,
    kL1 _ main_arg7, kL1 _ main_arg8, kL1 _ main_arg9]
  rw [kL0 _ main_v1, kL0 _ main_v3, kL0 _ main_arg2, kL0 _ main_arg3, kL0 _ main_arg4, kL0 _ main_arg5, kL0 _ main_arg6,
    kL0 _ main_arg7, kL0 _ main_arg8, kL0 _ main_arg9]
  rw [pre_src, pre_dst, kPre _ main_arg0, kPre _ main_arg2, kPre _ main_arg3, kPre _ main_arg4, kPre _ main_arg5,
    kPre _ main_arg6, kPre _ main_arg7, kPre _ main_arg8, kPre _ main_arg9]
  rfl

/-- No operation writes argument 0. -/
theorem keep_arg0 : after (ops (F := Ideal)) V (Proc.devRef .tc main_arg0) = V (Proc.devRef .tc main_arg0) :=
  ops_keep V main_arg0 (by decide)

/-- No operation writes argument 1. -/
theorem keep_arg1 : after (ops (F := Ideal)) V (Proc.devRef .tc main_arg1) = V (Proc.devRef .tc main_arg1) :=
  ops_keep V main_arg1 (by decide)

/-- No operation writes argument 2. -/
theorem keep_arg2 : after (ops (F := Ideal)) V (Proc.devRef .tc main_arg2) = V (Proc.devRef .tc main_arg2) :=
  ops_keep V main_arg2 (by decide)

/-- No operation writes argument 3. -/
theorem keep_arg3 : after (ops (F := Ideal)) V (Proc.devRef .tc main_arg3) = V (Proc.devRef .tc main_arg3) :=
  ops_keep V main_arg3 (by decide)

/-- No operation writes argument 4. -/
theorem keep_arg4 : after (ops (F := Ideal)) V (Proc.devRef .tc main_arg4) = V (Proc.devRef .tc main_arg4) :=
  ops_keep V main_arg4 (by decide)

/-- No operation writes argument 5. -/
theorem keep_arg5 : after (ops (F := Ideal)) V (Proc.devRef .tc main_arg5) = V (Proc.devRef .tc main_arg5) :=
  ops_keep V main_arg5 (by decide)

/-- No operation writes argument 6. -/
theorem keep_arg6 : after (ops (F := Ideal)) V (Proc.devRef .tc main_arg6) = V (Proc.devRef .tc main_arg6) :=
  ops_keep V main_arg6 (by decide)

/-- No operation writes argument 7. -/
theorem keep_arg7 : after (ops (F := Ideal)) V (Proc.devRef .tc main_arg7) = V (Proc.devRef .tc main_arg7) :=
  ops_keep V main_arg7 (by decide)

/-- No operation writes argument 8. -/
theorem keep_arg8 : after (ops (F := Ideal)) V (Proc.devRef .tc main_arg8) = V (Proc.devRef .tc main_arg8) :=
  ops_keep V main_arg8 (by decide)

/-- No operation writes argument 9. -/
theorem keep_arg9 : after (ops (F := Ideal)) V (Proc.devRef .tc main_arg9) = V (Proc.devRef .tc main_arg9) :=
  ops_keep V main_arg9 (by decide)

end Cert.ReferenceIdeal.HandRun

end
-- ==== Proof.TakeEq.lean ====
import proofs.«419033_j51049981280318_2_alg».proof.Proof.Spec
import Idealize.ShloMosaic.Lib.StableHlo.Predicate
import Idealize.ShloMosaic.Lib.ReduceAll
import Idealize.ShloMosaic.Lib.ValueIdx

set_option maxRecDepth 16384

noncomputable section

namespace Cert.Net

open Idealize.ShloMosaic Idealize.ShloMosaic.ValueIdx Cert.KernelIdeal Cert.KernelIdeal.Facts₀ Cert.KernelIdeal.Facts

variable {F : FTy → Type} [FloatOps F] [Cert.KernelIdeal.Facts]

/-- The wrapped word of a word in [-N, N): s + N when s is negative, else s. It lies in [0, N - 1], read signed;
    the sum cannot wrap, |s| and N being far below 2³¹. -/
theorem wrap_word_in_bounds (a : BitVec 32) (h1 : (-100000 : Int) ≤ a.toInt) (h2 : a.toInt < 100000) :
    IntOp.andi
      (IntOp.cmpi .sge (Scalar.select (IntOp.cmpi .slt a 0#32) (IntOp.addi a 100000#32) a) 0#32)
      (IntOp.cmpi .sle (Scalar.select (IntOp.cmpi .slt a 0#32) (IntOp.addi a 100000#32) a) 99999#32) = 1#1 := by
  have h0 : (0#32 : BitVec 32).toInt = 0 := by decide
  have hN : (100000#32 : BitVec 32).toInt = 100000 := by decide
  have hM : (99999#32 : BitVec 32).toInt = 99999 := by decide
  rw [IntOp.andi_eq_one, IntOp.cmpi_sge, IntOp.cmpi_sle, h0, hM]
  unfold Scalar.select
  by_cases hneg : a.toInt < 0
  · have hc : IntOp.cmpi .slt a 0#32 = 1 := IntOp.cmpi_slt.2 (by rw [h0]; exact hneg)
    rw [if_pos hc]
    have hs : (IntOp.addi a 100000#32).toInt = a.toInt + 100000 := by
      show (a + 100000#32).toInt = _
      rw [BitVec.toInt_add, hN]
      first
        | omega
        | (rw [Int.bmod_def]; omega)
    rw [hs]; omega
  · have hc : ¬ IntOp.cmpi .slt a 0#32 = 1 := fun h => hneg (by have := IntOp.cmpi_slt.1 h; rwa [h0] at this)
    rw [if_neg hc]; omega

/-- A conjunction-fold from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all f hf l

/-- A reduction by conjunction, from 1, of a mask that is 1 everywhere is 1 at every result index. -/
theorem reduce_andi_of_all {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_of_all x hx _

/-- On source indices in [-N, N) the in-bounds mask of the wrapped indices is 1 at every edge and feature: the mask is a
    conjunction, over the axis of extent 1, of the two comparisons of the wrapped word against 0 and N - 1. -/
theorem inBounds_wrapCol (s : IVec S1250000 32) (hs : InRange s) (i : S1250000x64.Idx) :
    inBounds (wrapCol s) i = 1#1 := by
  unfold inBounds
  show Host.reduce IntOp.andi _ _ _ _ _ = 1#1
  refine reduce_andi_of_all _ (fun k => ?_) _ _ _
  exact wrap_word_in_bounds _ (hs _).1 (hs _).2

/-- On source indices in [-N, N) the wrapped index lies in [0, N - 1], so the in-bounds mask is one at every edge and
    feature and the kernel's gather never takes its fill: it is the reference's gather. -/
theorem takeK_eq_takeR (x : FVec F S100000x64 .f32) (s : IVec S1250000 32) (hs : InRange s) :
    takeK x s = takeR x s := by
  funext i
  -- entry i of the kernel's gather is a choice by the mask's bit at i; that bit is 1, so the choice is the gathered row's entry
  unfold takeK select
  rw [inBounds_wrapCol s hs i]
  rfl

end Cert.Net

end
-- ==== Proof.Bridge.lean ====
/-
  The two spellings of one layer, and of the network, are the same function.

  The accelerator's h and its normalised layer are stated entry by entry on the extended reals; the reference
  writes the same two steps with whole-array operations. Read at an entry (n, j), the reference's matrix
  product is the 64-term sum over the contracted coordinate, a vector laid along every row is the vector's
  entry j, a vector cast to a 1 × 64 row is at (0, j) the vector's entry j as well, and a splat constant is the
  extended real of its word. What is left for h is (A + C) + B = (A + B) + C, which holds in every additive
  commutative monoid, so no entry has to be finite; for the normalised layer nothing is left, the two sides
  apply the same operations in the same order. A layer and the network then follow by rewriting: the two
  gathers agree on source indices in [-N, N), and everything else around h and the normalisation is shared.
-/
import proofs.«419033_j51049981280318_2_alg».proof.Proof.Spec
import proofs.«419033_j51049981280318_2_alg».proof.Proof.TakeEq
import Idealize.ShloMosaic.PureOps.Ideal.Laws
import Idealize.ShloMosaic.Lib.ValueIdx
import Idealize.ShloMosaic.Lib.ValueLayout
import Idealize.ShloMosaic.Lib.Pipeline.Value

noncomputable section

namespace Cert.Net

open Idealize.ShloMosaic Idealize.ShloMosaic.ValueIdx Cert.KernelIdeal Cert.KernelIdeal.Facts₀ Cert.KernelIdeal.Facts

variable [Cert.KernelIdeal.Facts] [Cert.ReferenceIdeal.Facts]

/-! ## The matrix product's operand indices, axis by axis

At result entry i and contraction position q the left operand is read at (i 0, q) and the right one at (q, i 1). -/

/-- Left operand, axis 0 (a free axis): the result's row. -/
theorem lhs_h_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch from List.not_mem_nil),
    dif_pos (show (0 : Fin S100000x64.rank) ∈ Cert.ReferenceIdeal.dot_S100000x64_S64x64_S100000x64_1_0_0_1_n_n.lhsNonContracting from List.mem_singleton.mpr rfl)]
  rfl

/-- Left operand, axis 1 (the contracted axis): the contraction position. -/
theorem lhs_h_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, Nat.one_pos⟩).val :=
  Cert.ReferenceIdeal.dot_S100000x64_S64x64_S100000x64_1_0_0_1_n_n.lhsIdx_val_of_single rfl i q

/-- Right operand, axis 0 (the contracted axis): the contraction position. -/
theorem rhs_h_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, Nat.one_pos⟩).val :=
  Cert.ReferenceIdeal.dot_S100000x64_S64x64_S100000x64_1_0_0_1_n_n.rhsIdx_val_of_single rfl i q

/-- Right operand, axis 1 (a free axis): the result's column. -/
theorem rhs_h_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch from List.not_mem_nil),
    dif_pos (show (1 : Fin S64x64.rank) ∈ Cert.ReferenceIdeal.dot_S100000x64_S64x64_S100000x64_1_0_0_1_n_n.rhsNonContracting from List.mem_singleton.mpr rfl)]
  rfl

/-- The reference's N × 64 by 64 × 64 product at entry (n, j): the sum over k of A (n, k) · W (k, j). -/
theorem dot_h_apply (A : FVec Ideal S100000x64 .f32) (W : FVec Ideal S64x64 .f32) (n : Fin 100000) (j : Fin 64) :
    Host.dotGeneral Cert.ReferenceIdeal.dot_S100000x64_S64x64_S100000x64_1_0_0_1_n_n none A W (ix2 n j)
      = ∑ k : Fin 64, A (ix2 n k) * W (ix2 k j) := by
  simp only [Host.dotGeneral]
  rw [Ideal.dotGeneral_apply,
    ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 n j)
      ((contrEquiv1 Cert.ReferenceIdeal.dot_S100000x64_S64x64_S100000x64_1_0_0_1_n_n 64 rfl rfl).symm k) = ix2 n k :=
    funext fun a => Fin.ext (by
      match a with
      | ⟨0, _⟩ => exact lhs_h_0 _ _
      | ⟨1, _⟩ => exact (lhs_h_1 _ _).trans hk)
  have er : Cert.ReferenceIdeal.dot_S100000x64_S64x64_S100000x64_1_0_0_1_n_n.rhsIdx (ix2 n j)
      ((contrEquiv1 Cert.ReferenceIdeal.dot_S100000x64_S64x64_S100000x64_1_0_0_1_n_n 64 rfl rfl).symm k) = ix2 k j :=
    funext fun a => Fin.ext (by
      match a with
      | ⟨0, _⟩ => exact (rhs_h_0 _ _).trans hk
      | ⟨1, _⟩ => exact rhs_h_1 _ _)
  rw [el, er]

/-! ## Rows, and constants, read at an entry -/

/-- A 64-vector as a 1 × 64 row has, at (0, j), the vector's entry j. -/
theorem asRow_apply (v : FVec Ideal S64 .f32) (j : Fin 64) : asRow v (ix2 (0 : Fin 1) j) = v (ix1 j) :=
  shapeCast_a_1a_apply v shapeCasts_S64_S1x64 0 j

/-- A 64-vector laid along every row has, at (n, j), the vector's entry j. -/
theorem alongRows_apply (v : FVec Ideal S64 .f32) (n : Fin 100000) (j : Fin 64) : alongRows v (ix2 n j) = v (ix1 j) := by
  unfold alongRows
  refine (broadcastInDim_apply ![0, 1] bcast_S1x64_S100000x64_0_1 _ (ix2 n j) (ix2 (0 : Fin 1) j) fun a => ?_).trans
    (broadcastInDim_apply ![1] bcast_S64_S1x64_1 v (ix2 (0 : Fin 1) j) (ix1 j) fun a => ?_)
  · match a with
    | ⟨0, _⟩ => rfl
    | ⟨1, _⟩ => rfl
  · match a with
    | ⟨0, _⟩ => rfl

/-- A scalar constant broadcast over the N × 64 array is, at every entry, the extended real of its word. -/
theorem splatN_apply (w : BitVec 32) (i : S100000x64.Idx) :
    broadcastInDim S100000x64 ![] bcast_S_S100000x64 (constant (F := Ideal) S_ .f32 w) i = Ideal.ofBits .f32 w :=
  broadcastInDim_apply ![] bcast_S_S100000x64 _ i ix0 fun a => a.elim0

/-- The same over a 64-vector. -/
theorem splat64_apply (w : BitVec 32) (i : S64.Idx) :
    broadcastInDim S64 ![] bcast_S_S64 (constant (F := Ideal) S_ .f32 w) i = Ideal.ofBits .f32 w :=
  broadcastInDim_apply ![] bcast_S_S64 _ i ix0 fun a => a.elim0

/-! ## h and the normalised layer -/

/-- The accelerator's h, given the bias as a row, is the reference's h: entry by entry both are the two 64-term
    sums and the bias's entry j, added in two different orders. -/
theorem hK_eq_hR (ms x : FVec Ideal S100000x64 .f32) (Wrel : FVec Ideal S64x64 .f32) (b : FVec Ideal S64 .f32)
    (Wroot : FVec Ideal S64x64 .f32) : hK ms x Wrel (asRow b) Wroot = hR ms x Wrel b Wroot := by
  funext i
  obtain ⟨n, j, rfl⟩ : ∃ (n : Fin 100000) (j : Fin 64), i = ix2 n j := ⟨i 0, i 1, eq_ix2 i⟩
  show ((∑ k : Fin 64, ms (ix2 n k) * Wrel (ix2 k j)) + (∑ k : Fin 64, x (ix2 n k) * Wroot (ix2 k j)))
      + asRow b (ix2 (0 : Fin 1) j)
    = (Host.dotGeneral Cert.ReferenceIdeal.dot_S100000x64_S64x64_S100000x64_1_0_0_1_n_n none ms Wrel (ix2 n j)
        + alongRows b (ix2 n j))
      + Host.dotGeneral Cert.ReferenceIdeal.dot_S100000x64_S64x64_S100000x64_1_0_0_1_n_n none x Wroot (ix2 n j)
  rw [dot_h_apply, dot_h_apply, asRow_apply, alongRows_apply]
  exact add_right_comm _ _ _

/-- The accelerator's normalised layer, given the statistics and parameters as rows, is the reference's: entry by
    entry both are max (((h − mean j) · rsqrt (var j + ε)) · γ j + β j, 0). -/
theorem bnK_eq_bnR (h : FVec Ideal S100000x64 .f32) (mean var g b : FVec Ideal S64 .f32) :
    bnK h (asRow mean) (asRow var) (asRow g) (asRow b) = bnR h mean var g b := by
  funext i
  obtain ⟨n, j, rfl⟩ : ∃ (n : Fin 100000) (j : Fin 64), i = ix2 n j := ⟨i 0, i 1, eq_ix2 i⟩
  show max ((((h (ix2 n j) - asRow mean (ix2 (0 : Fin 1) j))
        * Ideal.rsqrt (asRow var (ix2 (0 : Fin 1) j) + Ideal.ofBits .f32 0x3727C5AC#32)) * asRow g (ix2 (0 : Fin 1) j))
      + asRow b (ix2 (0 : Fin 1) j)) (Ideal.ofBits .f32 0x00000000#32)
    = max ((((h (ix2 n j) - alongRows mean (ix2 n j))
        * alongRows (Host.rsqrt (addf var (broadcastInDim S64 ![] bcast_S_S64 (constant S_ .f32 0x3727C5AC#32)))) (ix2 n j))
        * alongRows g (ix2 n j))
      + alongRows b (ix2 n j))
      (broadcastInDim S100000x64 ![] bcast_S_S100000x64 (constant (F := Ideal) S_ .f32 0x00000000#32) (ix2 n j))
  rw [asRow_apply, asRow_apply, asRow_apply, asRow_apply, alongRows_apply, alongRows_apply, alongRows_apply,
    alongRows_apply, splatN_apply]
  show _ = max ((((h (ix2 n j) - mean (ix1 j))
        * Ideal.rsqrt (var (ix1 j)
            + broadcastInDim S64 ![] bcast_S_S64 (constant (F := Ideal) S_ .f32 0x3727C5AC#32) (ix1 j))) * g (ix1 j))
      + b (ix1 j)) (Ideal.ofBits .f32 0x00000000#32)
  rw [splat64_apply]

/-! ## One layer, and the network -/

/-- One layer: the gathers agree on source indices in [-N, N); then h, and the normalisation, are the same. -/
theorem layerK_eq_layerR (x : FVec Ideal S100000x64 .f32) (s d : IVec S1250000 32) (Wrel : FVec Ideal S64x64 .f32)
    (brel : FVec Ideal S64 .f32) (Wroot : FVec Ideal S64x64 .f32) (g b : FVec Ideal S64 .f32) (hs : InRange s) :
    layerK x s d Wrel brel Wroot g b = layerR x s d Wrel brel Wroot g b := by
  unfold layerK layerR
  rw [takeK_eq_takeR x s hs, hK_eq_hR, bnK_eq_bnR]

/-- The network: three layers, innermost first, under the shared pooling head. -/
theorem netK_eq_netR (x : FVec Ideal S100000x64 .f32) (E : IVec S2x1250000 32) (B : IVec S100000 32)
    (Wr : FVec Ideal S3x64x64 .f32) (br : FVec Ideal S3x64 .f32) (Wo : FVec Ideal S3x64x64 .f32)
    (ga be : FVec Ideal S3x64 .f32) (Wc : FVec Ideal S64x10 .f32) (bc : FVec Ideal S10 .f32) (hs : InRange (src E)) :
    netK x E B Wr br Wo ga be Wc bc = netR x E B Wr br Wo ga be Wc bc := by
  unfold netK netR
  rw [layerK_eq_layerR _ _ _ _ _ _ _ _ hs, layerK_eq_layerR _ _ _ _ _ _ _ _ hs, layerK_eq_layerR _ _ _ _ _ _ _ _ hs]

end Cert.Net

end
-- ==== Proof.PreDecode.lean ====
import proofs.«419033_j51049981280318_2_alg».proof.Defs
import proofs.«419033_j51049981280318_2_alg».proof.Proof.Gen.Pre_finite_inputs
import proofs.«419033_j51049981280318_2_alg».proof.Proof.Gen.KernelIdeal
import proofs.«419033_j51049981280318_2_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.SL.Sem

/-- The precondition's last two conjuncts say that every entry of the edge list's row 0 is at least -N and below N:
    read off the printed predicate, that is `InRange` of the source indices. -/
theorem inRange_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Net.InRange
      (Cert.Net.src (m ((c.tc : Thread Cert.KernelIdeal.nD Cert.KernelIdeal.τ).loc Cert.KernelIdeal.main_arg1))) := by
  -- a rank-0 array has one index, so a conjunction over all axes that is 1 had a 1 at every entry
  haveI : Subsingleton Cert.Pre_finite_inputs.S_.Idx := ⟨fun a b => funext fun d => d.elim0⟩
  -- the predicate's one bit, as the nested conjunction the function prints
  have e := congrFun (h c) ValueIdx.ix0
  unfold Cert.Pre_finite_inputs.fn Cert.Pre_finite_inputs.fn_part1 Cert.Pre_finite_inputs.fn_part2 at e
  dsimp only at e
  -- the conjunction is left-nested: its last component is "every source < N", the one before "every source ≥ -N"
  obtain ⟨e1, eLt⟩ := IntOp.andi_eq_one.1 e
  obtain ⟨-, eGe⟩ := IntOp.andi_eq_one.1 e1
  clear e e1
  intro k
  -- at edge k both comparisons hold; a signed comparison that is 1 is the order of the signed values
  have geK := IntOp.cmpi_sge.1 (Host.reduce_andi_all _ _ _ _ _ eGe k)
  have ltK := IntOp.cmpi_slt.1 (Host.reduce_andi_all _ _ _ _ _ eLt k)
  -- the two bounds are the words 2³² - 100000 and 100000: read signed, -100000 and 100000
  have hL : (4294867296#32 : BitVec 32).toInt = -100000 := by decide
  have hU : (100000#32 : BitVec 32).toInt = 100000 := by decide
  exact ⟨le_of_eq_of_le hL.symm geK, lt_of_lt_of_eq ltK hU⟩

end Cert.PreDecode

end
-- ==== Proof.lean ====
/-
  A three-layer graph network (gather x[src], scatter-add into msg[dst], h = msg · W_rel + x · W_root + b_rel, batch
  normalisation over the 100000 nodes, max with 0), a mean over 128 graphs and a linear head: the kernel forms h and the
  normalised layer on the accelerator, block of 10000 rows by block, among the host's gather, scatter-add and column
  statistics; the reference is host operations throughout.

  The claim holds on source indices in [-N, N), N = 100000: there the reference's own indexing is in range, and there
  the kernel's gather (which fills a row whose wrapped index is out of range) and the reference's (which clamps it) read
  the same rows. Everything else is the same arithmetic: at the ideal instance a change of float format is the identity,
  a block product into a zero accumulator is the host's contraction, and the kernel's (A + C) + B is the reference's
  (A + B) + C because addition of extended reals is commutative and associative; no finiteness is used.

  Both programs are stated as ONE pure function of the ten arguments (Proof/Spec.lean: `netK`, `netR`). The kernel's
  result buffer is `netK` of its arguments (the run with its result named, then the boundary contents read buffer by
  buffer: Proof/KRun.lean, Proof/KVal.lean); the reference's is `netR` (its run written out as a list of host operations:
  Proof/RefRun.lean, Proof/RefWalk.lean); `netK = netR` on in-range source indices (Proof/Bridge.lean), which the
  precondition states (Proof/PreDecode.lean).
-/
import proofs.«419033_j51049981280318_2_alg».proof.Defs
import proofs.«419033_j51049981280318_2_alg».proof.Proof.Gen.Kernel
import proofs.«419033_j51049981280318_2_alg».proof.Proof.Gen.Kernel.Frame
import proofs.«419033_j51049981280318_2_alg».proof.Proof.Gen.KernelIdeal
import proofs.«419033_j51049981280318_2_alg».proof.Proof.Gen.KernelIdeal.Frame
import proofs.«419033_j51049981280318_2_alg».proof.Proof.Gen.ReferenceIdeal
import proofs.«419033_j51049981280318_2_alg».proof.Proof.Gen.Pre_finite_inputs
import proofs.«419033_j51049981280318_2_alg».proof.Proof.KRun
import proofs.«419033_j51049981280318_2_alg».proof.Proof.KVal
import proofs.«419033_j51049981280318_2_alg».proof.Proof.RefRun
import proofs.«419033_j51049981280318_2_alg».proof.Proof.RefWalk
import proofs.«419033_j51049981280318_2_alg».proof.Proof.Bridge
import proofs.«419033_j51049981280318_2_alg».proof.Proof.PreDecode
import Idealize.ShloMosaic.Adequacy
import Idealize.ShloMosaic.Init

noncomputable section

namespace Cert.Proof

open Idealize.ShloMosaic Idealize.SL.Sem

/-- The word-level kernel runs and leaves its arguments as launched: the generated frame of its six regions. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: none of its host operations writes an argument. -/
theorem frame_ri : Cert.frame_ReferenceIdeal := fun m ρ _ =>
  (θ_run Cert.ReferenceIdeal.defs _ _).mono
    (fun r h c => ⟨(h c _).trans (Cert.ReferenceIdeal.HandRun.keep_arg0 _), (h c _).trans (Cert.ReferenceIdeal.HandRun.keep_arg1 _),
      (h c _).trans (Cert.ReferenceIdeal.HandRun.keep_arg2 _), (h c _).trans (Cert.ReferenceIdeal.HandRun.keep_arg3 _),
      (h c _).trans (Cert.ReferenceIdeal.HandRun.keep_arg4 _), (h c _).trans (Cert.ReferenceIdeal.HandRun.keep_arg5 _),
      (h c _).trans (Cert.ReferenceIdeal.HandRun.keep_arg6 _), (h c _).trans (Cert.ReferenceIdeal.HandRun.keep_arg7 _),
      (h c _).trans (Cert.ReferenceIdeal.HandRun.keep_arg8 _), (h c _).trans (Cert.ReferenceIdeal.HandRun.keep_arg9 _)⟩)
    (Cert.ReferenceIdeal.HandRun.run_after (F := Ideal) m ρ)

/-- The ideal pass rewrote nothing: there is nothing to preserve. -/
theorem preserves : Cert.preserves_Kernel_KernelIdeal := trivial

/-- From memories that agree on the arguments both programs end at `netK` of the kernel's arguments: the kernel by its
    run and the walk through its boundaries, the reference at `netR` of ITS arguments, which are the kernel's, and
    `netR = netK` where the source indices are in range, as the precondition says. -/
theorem algebraic : Cert.algebraic_KernelIdeal_ReferenceIdeal := by
  intro m ρ m' ρ' hpre hagree
  refine ⟨fun c => Cert.Net.netK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Walk.kval m ρ c), (h c).2⟩)
      (Cert.KernelIdeal.Gen.run_res (F := Ideal) m ρ)
  · refine (θ_run Cert.ReferenceIdeal.defs _ _).mono (fun r h c => ⟨?_, (h c _).trans (Cert.ReferenceIdeal.HandRun.keep_arg0 _),
      (h c _).trans (Cert.ReferenceIdeal.HandRun.keep_arg1 _), (h c _).trans (Cert.ReferenceIdeal.HandRun.keep_arg2 _),
      (h c _).trans (Cert.ReferenceIdeal.HandRun.keep_arg3 _), (h c _).trans (Cert.ReferenceIdeal.HandRun.keep_arg4 _),
      (h c _).trans (Cert.ReferenceIdeal.HandRun.keep_arg5 _), (h c _).trans (Cert.ReferenceIdeal.HandRun.keep_arg6 _),
      (h c _).trans (Cert.ReferenceIdeal.HandRun.keep_arg7 _), (h c _).trans (Cert.ReferenceIdeal.HandRun.keep_arg8 _),
      (h c _).trans (Cert.ReferenceIdeal.HandRun.keep_arg9 _)⟩)
      (Cert.ReferenceIdeal.HandRun.run_after (F := Ideal) m' ρ')
    refine (h c _).trans ((Cert.ReferenceIdeal.HandRun.rval _).trans ?_)
    have ha := hagree c
    show Cert.Net.netR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)) = _
    rw [ha.1, ha.2.1, ha.2.2.1, ha.2.2.2.1, ha.2.2.2.2.1, ha.2.2.2.2.2.1, ha.2.2.2.2.2.2.1, ha.2.2.2.2.2.2.2.1,
      ha.2.2.2.2.2.2.2.2.1, ha.2.2.2.2.2.2.2.2.2]
    exact (Cert.Net.netK_eq_netR _ _ _ _ _ _ _ _ _ _ (Cert.PreDecode.inRange_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
